-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S32768x512 : Shape := ⟨2, ![32768, 512]⟩
abbrev S_ : Shape := ⟨0, ![]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  bcast_S_S512x784 : S_.BroadcastsInDim S512x784 (![] : Fin 0 → Fin S512x784.rank)
  reducesTo_S512x784_S_d0_1 : S512x784.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_
  bcast_S_S32768x512 : S_.BroadcastsInDim S32768x512 (![] : Fin 0 → Fin S32768x512.rank)
  reducesTo_S32768x512_S_d0_1 : S32768x512.ReducesTo [0, 1] S_

variable [Facts]

def fn_part3 {F : FTy → Type} [FloatOps F] (main_arg11 : FVec F S32768x512 .f32) (main_arg12 : FVec F S32768x512 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S32768x512 .f32 := Host.absf main_arg11
  let main_cst_20 : FVec F S_ .f32 := constant S_ .f32 0x7F800000#32
  let main_v55 : FVec F S32768x512 .f32 := broadcastInDim S32768x512 ![] bcast_S_S32768x512 main_cst_20
  let main_v56 : IVec S32768x512 1 := cmpf .olt main_v54 main_v55
  let main_c_21 : IVec S_ 1 := constantI S_ 1 1#1
  let main_v57 : IVec S_ 1 := (fun x v => Host.reduce IntOp.andi x v reducesTo_S32768x512_S_d0_1 h_S_) main_v56 main_c_21
  let main_v58 : IVec S_ 1 := andi main_v53 main_v57
  let main_v59 : FVec F S32768x512 .f32 := Host.absf main_arg12
  let main_cst_22 : FVec F S_ .f32 := constant S_ .f32 0x7F800000#32
  let main_v60 : FVec F S32768x512 .f32 := broadcastInDim S32768x512 ![] bcast_S_S32768x512 main_cst_22
  let main_v61 : IVec S32768x512 1 := cmpf .olt main_v59 main_v60
  let main_c_23 : IVec S_ 1 := constantI S_ 1 1#1
  let main_v62 : IVec S_ 1 := (fun x v => Host.reduce IntOp.andi x v reducesTo_S32768x512_S_d0_1 h_S_) main_v61 main_c_23
  let main_v63 : IVec S_ 1 := andi main_v58 main_v62
  main_v63

def fn_part2 {F : FTy → Type} [FloatOps F] (main_arg7 : FVec F S512 .f32) (main_arg8 : FVec F S512 .f32) (main_arg9 : FVec F S10x512 .f32) (main_arg10 : FVec F S10 .f32) (main_arg11 : FVec F S32768x512 .f32) (main_arg12 : FVec F S32768x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S10x512 .f32 := Host.absf main_arg9
  let main_cst_16 : FVec F S_ .f32 := constant S_ .f32 0x7F800000#32
  let main_v45 : FVec F S10x512 .f32 := broadcastInDim S10x512 ![] bcast_S_S10x512 main_cst_16
  let main_v46 : IVec S10x512 1 := cmpf .olt main_v44 main_v45
  let main_c_17 : IVec S_ 1 := constantI S_ 1 1#1
  let main_v47 : IVec S_ 1 := (fun x v => Host.reduce IntOp.andi x v reducesTo_S10x512_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_v48 main_v49 main_v50

def fn_part1 {F : FTy → Type} [FloatOps F] (main_arg4 : FVec F S512 .f32) (main_arg5 : FVec F S512x512 .f32) (main_arg6 : FVec F S512 .f32) (main_arg7 : FVec F S512 .f32) (main_arg8 : FVec F S512 .f32) (main_arg9 : FVec F S10x512 .f32) (main_arg10 : FVec F S10 .f32) (main_arg11 : FVec F S32768x512 .f32) (main_arg12 : FVec F S32768x512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32768x784 .f32) (main_arg1 : FVec F S512x784 .f32) (main_arg2 : FVec F S512 .f32) (main_arg3 : FVec F S512 .f32) (main_arg4 : FVec F S512 .f32) (main_arg5 : FVec F S512x512 .f32) (main_arg6 : FVec F S512 .f32) (main_arg7 : FVec F S512 .f32) (main_arg8 : FVec F S512 .f32) (main_arg9 : FVec F S10x512 .f32) (main_arg10 : FVec F S10 .f32) (main_arg11 : FVec F S32768x512 .f32) (main_arg12 : FVec F S32768x512 .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S512x784 .f32 := Host.absf main_arg1
  let main_cst_0 : FVec F S_ .f32 := constant S_ .f32 0x7F800000#32
  let main_v5 : FVec F S512x784 .f32 := broadcastInDim S512x784 ![] bcast_S_S512x784 main_cst_0
  let main_v6 : IVec S512x784 1 := cmpf .olt main_v4 main_v5
  let main_c_1 : IVec S_ 1 := constantI S_ 1 1#1
  let main_v7 : IVec S_ 1 := (fun x v => Host.reduce IntOp.andi x v reducesTo_S512x784_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_v13 main_v16
-- ==== Kernel.lean ====
abbrev S32768x784 : Shape := ⟨2, ![32768, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S32768x512 : Shape := ⟨2, ![32768, 512]⟩
abbrev S784x512 : Shape := ⟨2, ![784, 512]⟩
abbrev S512x10 : Shape := ⟨2, ![512, 10]⟩
abbrev S1x512 : Shape := ⟨2, ![1, 512]⟩
abbrev S2048x784 : Shape := ⟨2, ![2048, 784]⟩
abbrev S2048x512 : Shape := ⟨2, ![2048, 512]⟩
abbrev S_ : Shape := ⟨0, ![]⟩
abbrev S32768x10 : Shape := ⟨2, ![32768, 10]⟩
abbrev S2048x10 : Shape := ⟨2, ![2048, 10]⟩
abbrev S1x10 : Shape := ⟨2, ![1, 10]⟩

abbrev nBuf : Space → Nat
  | .hbm => 42
  | .vmem => 34
  | .smem => 0
  | _ => 0

abbrev bufTy : (tb : Table) → Fin (tcTables nBuf tb) → BufTy
  | .hbm, ⟨0, _⟩ => ⟨S32768x784, .f32⟩
  | .hbm, ⟨1, _⟩ => ⟨S512x784, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S10x512, .f32⟩
  | .hbm, ⟨10, _⟩ => ⟨S10, .f32⟩
  | .hbm, ⟨11, _⟩ => ⟨S32768x512, .f32⟩
  | .hbm, ⟨12, _⟩ => ⟨S32768x512, .f32⟩
  | .hbm, ⟨13, _⟩ => ⟨S784x512, .f32⟩
  | .hbm, ⟨14, _⟩ => ⟨S784x512, .bf16⟩
  | .hbm, ⟨15, _⟩ => ⟨S512x512, .f32⟩
  | .hbm, ⟨16, _⟩ => ⟨S512x512, .bf16⟩
  | .hbm, ⟨17, _⟩ => ⟨S512x10, .f32⟩
  | .hbm, ⟨18, _⟩ => ⟨S512x10, .bf16⟩
  | .hbm, ⟨19, _⟩ => ⟨S32768x512, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S32768x512, .f32⟩
  | .hbm, ⟨31, _⟩ => ⟨S1x512, .f32⟩
  | .hbm, ⟨32, _⟩ => ⟨S1x512, .f32⟩
  | .hbm, ⟨33, _⟩ => ⟨S_, .f32⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x512, .f32⟩
  | .hbm, ⟨41, _⟩ => ⟨S32768x10, .f32⟩
  | .local _ .vmem, ⟨0, _⟩ => ⟨S2048x784, .f32⟩
  | .local _ .vmem, ⟨1, _⟩ => ⟨S2048x784, .f32⟩
  | .local _ .vmem, ⟨2, _⟩ => ⟨S784x512, .bf16⟩
  | .local _ .vmem, ⟨3, _⟩ => ⟨S512, .f32⟩
  | .local _ .vmem, ⟨4, _⟩ => ⟨S2048x512, .f32⟩
  | .local _ .vmem, ⟨5, _⟩ => ⟨S2048x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | .local _ .vmem, ⟨10, _⟩ => ⟨S1x512, .f32⟩
  | .local _ .vmem, ⟨11, _⟩ => ⟨S1x512, .f32⟩
  | .local _ .vmem, ⟨12, _⟩ => ⟨S512, .f32⟩
  | .local _ .vmem, ⟨13, _⟩ => ⟨S512, .f32⟩
  | .local _ .vmem, ⟨14, _⟩ => ⟨S2048x512, .f32⟩
  | .local _ .vmem, ⟨15, _⟩ => ⟨S2048x512, .f32⟩
  | .local _ .vmem, ⟨16, _⟩ => ⟨S512x512, .bf16⟩
  | .local _ .vmem, ⟨17, _⟩ => ⟨S512, .f32⟩
  | .local _ .vmem, ⟨18, _⟩ => ⟨S2048x512, .f32⟩
  | .local _ .vmem, ⟨19, _⟩ => ⟨S2048x512, .f32⟩
  | .local _ .vmem, ⟨20, _⟩ => ⟨S1x512, .f32⟩
  | .local _ .vmem, ⟨21, _⟩ => ⟨S1x512, .f32⟩
  | .local _ .vmem, ⟨22, _⟩ => ⟨S2048x512, .f32⟩
  | .local _ .vmem, ⟨23, _⟩ => ⟨S2048x512, .f32⟩
  | .local _ .vmem, ⟨24, _⟩ => ⟨S1x512, .f32⟩
  | .local _ .vmem, ⟨25, _⟩ => ⟨S1x512, .f32⟩
  | .local _ .vmem, ⟨26, _⟩ => ⟨S512, .f32⟩
  | .local _ .vmem, ⟨27, _⟩ => ⟨S512, .f32⟩
  | .local _ .vmem, ⟨28, _⟩ => ⟨S2048x512, .f32⟩
  | .local _ .vmem, ⟨29, _⟩ => ⟨S2048x512, .f32⟩
  | .local _ .vmem, ⟨30, _⟩ => ⟨S512x10, .bf16⟩
  | .local _ .vmem, ⟨31, _⟩ => ⟨S10, .f32⟩
  | .local _ .vmem, ⟨32, _⟩ => ⟨S2048x10, .f32⟩
  | .local _ .vmem, ⟨33, _⟩ => ⟨S2048x10, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13_0 : Ref sig .tc := ⟨.hbm, 30, rfl⟩
abbrev main_v13_1 : Ref sig .tc := ⟨.hbm, 31, rfl⟩
abbrev main_v13_2 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg8_1 : Ref sig .tc := ⟨.vmem, 19, rfl⟩
abbrev cc1_stg9_0 : Ref sig .tc := ⟨.vmem, 20, rfl⟩
abbrev cc1_stg10_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg8_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem7_0 : DmaSem sig := 17
abbrev cc1_sem8_0 : DmaSem sig := 18
abbrev cc1_sem8_1 : DmaSem sig := 19
abbrev cc1_sem9_0 : DmaSem sig := 20
abbrev cc1_sem10_0 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem7_0 : DmaSem sig := 31
abbrev cc2_sem8_0 : DmaSem sig := 32
abbrev cc2_sem8_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S512x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2048x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S512x10 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S10 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2048x10 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  transposes_S512x784_S784x512_1_0 : S512x784.Transposes [1, 0] S784x512
  bitsLt_bf16_f32 : FTy.bits .bf16 < FTy.bits .f32
  transposes_S512x512_S512x512_1_0 : S512x512.Transposes [1, 0] S512x512
  transposes_S10x512_S512x10_1_0 : S10x512.Transposes [1, 0] S512x10
  inb_S1x512_S1x512_0_0 : ∀ a, (![0, 0] : Fin 2 → Nat) a + S1x512.size a ≤ S1x512.size a
  h_S1x512 : 0 < S1x512.numel
  inb_S2048x784_S2048x784_0_0 : ∀ a, (![0, 0] : Fin 2 → Nat) a + S2048x784.size a ≤ S2048x784.size a
  h_S2048x784 : 0 < S2048x784.numel
  inb_S784x512_S784x512_0_0 : ∀ a, (![0, 0] : Fin 2 → Nat) a + S784x512.size a ≤ S784x512.size a
  h_S784x512 : 0 < S784x512.numel
  shapeCasts_S784x512_S784x512 : S784x512.ShapeCasts S784x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S1x512_S1x512 : S1x512.ShapeCasts S1x512
  reduces_S2048x512_S512 : S2048x512.Reduces [0] S512
  bcast_S_S1x512 : S_.BroadcastsInDim S1x512 (![] : Fin 0 → Fin S1x512.rank)
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S10_S10_0 : ∀ a, (![0] : Fin 1 → Nat) a + S10.size a ≤ S10.size a
  h_S10 : 0 < S10.numel
  shapeCasts_S10_S1x10 : S10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  dot_S2048x784_S784x512_S2048x512_1_0_0_1_n_n_wf : DotDims.WF S2048x784 S784x512 S2048x512 [1] [0] [0] [1] [] []
  dot_S2048x512_S512x512_S2048x512_1_0_0_1_n_n_wf : DotDims.WF S2048x512 S512x512 S2048x512 [1] [0] [0] [1] [] []
  dot_S2048x512_S512x10_S2048x10_1_0_0_1_n_n_wf : DotDims.WF S2048x512 S512x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S32768x784.size a
  hwx0_0 : ∀ i : grid0.Coords, EltTy.bits .f32 = 32 ∨ (Rect.block (s := S32768x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x512.size a ≤ S784x512.size a
  hwx0_1 : ∀ i : grid0.Coords, EltTy.bits .bf16 = 32 ∨ (Rect.block (s := S784x512) S784x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .f32 = 32 ∨ (Rect.block (s := S32768x512) S2048x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S32768x512.size a
  hwx1_0 : ∀ i : grid1.Coords, EltTy.bits .f32 = 32 ∨ (Rect.block (s := S32768x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x512.size a ≤ S32768x512.size a
  hwx1_5 : ∀ i : grid1.Coords, EltTy.bits .f32 = 32 ∨ (Rect.block (s := S32768x512) S2048x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .bf16 = 32 ∨ (Rect.block (s := S512x512) S512x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512.size a ≤ S512.size a
  hwx1_7 : ∀ i : grid1.Coords, EltTy.bits .f32 = 32 ∨ (Rect.block (s := S512) S512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x512.size a ≤ S32768x512.size a
  hwx1_8 : ∀ i : grid1.Coords, EltTy.bits .f32 = 32 ∨ (Rect.block (s := S32768x512) S2048x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x512.size a ≤ S1x512.size a
  hwx1_9 : ∀ i : grid1.Coords, EltTy.bits .f32 = 32 ∨ (Rect.block (s := S1x512) S1x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x512.size a ≤ S1x512.size a
  hwx1_10 : ∀ i : grid1.Coords, EltTy.bits .f32 = 32 ∨ (Rect.block (s := S1x512) S1x512.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S32768x512.size a
  hwx2_0 : ∀ i : grid2.Coords, EltTy.bits .f32 = 32 ∨ (Rect.block (s := S32768x512) S2048x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512.size a ≤ S512.size a
  hwx2_3 : ∀ i : grid2.Coords, EltTy.bits .f32 = 32 ∨ (Rect.block (s := S512) S512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S512.size a ≤ S512.size a
  hwx2_4 : ∀ i : grid2.Coords, EltTy.bits .f32 = 32 ∨ (Rect.block (s := S512) S512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x512.size a ≤ S32768x512.size a
  hwx2_5 : ∀ i : grid2.Coords, EltTy.bits .f32 = 32 ∨ (Rect.block (s := S32768x512) S2048x512.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S512x10.size a ≤ S512x10.size a
  hwx2_6 : ∀ i : grid2.Coords, EltTy.bits .bf16 = 32 ∨ (Rect.block (s := S512x10) S512x10.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S10.size a ≤ S10.size a
  hwx2_7 : ∀ i : grid2.Coords, EltTy.bits .f32 = 32 ∨ (Rect.block (s := S10) S10.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x10.size a ≤ S32768x10.size a
  hwx2_8 : ∀ i : grid2.Coords, EltTy.bits .f32 = 32 ∨ (Rect.block (s := S32768x10) S2048x10.size (cc2_transform_8 i) (hinb2_8 i)).WholeWords (EltTy.packing .f32)

variable [Facts₀]

def dot_S2048x784_S784x512_S2048x512_1_0_0_1_n_n : DotDims S2048x784 S784x512 S2048x512 where
  lhsContracting := [1]
  rhsContracting := [0]
  lhsNonContracting := [0]
  rhsNonContracting := [1]
  lhsBatch := []
  rhsBatch := []
  wf := dot_S2048x784_S784x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x10_S2048x10_1_0_0_1_n_n : DotDims S2048x512 S512x10 S2048x10 where
  lhsContracting := [1]
  rhsContracting := [0]
  lhsNonContracting := [0]
  rhsNonContracting := [1]
  lhsBatch := []
  rhsBatch := []
  wf := dot_S2048x512_S512x10_S2048x10_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6_0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S2048x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v13_0) S2048x512.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v13_1) S1x512.size cc1_transform_9 reads1_9 true true 1 stage1_9 sem1_9
    hrank1 hreads1_9 hinb1_9 nbuf1_9 (Memref.isWhole_whole _) hwx1_9 hstage1_9

abbrev win1_10 : Pipeline.Window sig grid1 :=
  Pipeline.Window.ofSpec (Memref.whole main_v13_2) S1x512.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v13_0) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S2048x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v5) S512x10.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S10.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v20) S2048x10.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S32768x784 : Shape := ⟨2, ![32768, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S32768x512 : Shape := ⟨2, ![32768, 512]⟩
abbrev S784x512 : Shape := ⟨2, ![784, 512]⟩
abbrev S1x512 : Shape := ⟨2, ![1, 512]⟩
abbrev S_ : Shape := ⟨0, ![]⟩
abbrev S512x10 : Shape := ⟨2, ![512, 10]⟩
abbrev S32768x10 : Shape := ⟨2, ![32768, 10]⟩
abbrev S1x10 : Shape := ⟨2, ![1, 10]⟩

abbrev nBuf : Space → Nat
  | .hbm => 130
  | .vmem => 0
  | .smem => 0
  | _ => 0

abbrev hbmTy0_0 (i : Nat) : BufTy := match i % 128 with
  | 0 => ⟨S32768x784, .f32⟩
  | 1 => ⟨S512x784, .f32⟩
  | 2 => ⟨S512, .f32⟩
  | 3 => ⟨S512, .f32⟩
  | 4 => ⟨S512, .f32⟩
  | 5 => ⟨S512x512, .f32⟩
  | 6 => ⟨S512, .f32⟩
  | 7 => ⟨S512, .f32⟩
  | 8 => ⟨S512, .f32⟩
  | 9 => ⟨S10x512, .f32⟩
  | 10 => ⟨S10, .f32⟩
  | 11 => ⟨S32768x512, .f32⟩
  | 12 => ⟨S32768x512, .f32⟩
  | 13 => ⟨S784x512, .f32⟩
  | 14 => ⟨S32768x512, .f32⟩
  | 15 => ⟨S1x512, .f32⟩
  | 16 => ⟨S32768x512, .f32⟩
  | 17 => ⟨S32768x512, .f32⟩
  | 18 => ⟨S_, .f32⟩
  | 19 => ⟨S512, .f32⟩
  | 20 => ⟨S_, .f32⟩
  | 21 => ⟨S512, .f32⟩
  | 22 => ⟨S512, .f32⟩
  | 23 => ⟨S_, .i32⟩
  | 24 => ⟨S_, .f32⟩
  | 25 => ⟨S512, .f32⟩
  | 26 => ⟨S1x512, .f32⟩
  | 27 => ⟨S_, .f32⟩
  | 28 => ⟨S1x512, .f32⟩
  | 29 => ⟨S1x512, .f32⟩
  | 30 => ⟨S32768x512, .f32⟩
  | 31 => ⟨S32768x512, .f32⟩
  | 32 => ⟨S32768x512, .f32⟩
  | 33 => ⟨S_, .f32⟩
  | 34 => ⟨S_, .f32⟩
  | 35 => ⟨S_, .f32⟩
  | 36 => ⟨S_, .f32⟩
  | 37 => ⟨S512, .f32⟩
  | 38 => ⟨S512, .f32⟩
  | 39 => ⟨S512, .f32⟩
  | 40 => ⟨S_, .f32⟩
  | 41 => ⟨S_, .i1⟩
  | 42 => ⟨S_, .f32⟩
  | 43 => ⟨S_, .f32⟩
  | 44 => ⟨S512, .f32⟩
  | 45 => ⟨S512, .f32⟩
  | 46 => ⟨S1x512, .f32⟩
  | 47 => ⟨S32768x512, .f32⟩
  | 48 => ⟨S32768x512, .f32⟩
  | 49 => ⟨S_, .f32⟩
  | 50 => ⟨S512, .f32⟩
  | 51 => ⟨S512, .f32⟩
  | 52 => ⟨S512, .f32⟩
  | 53 => ⟨S1x512, .f32⟩
  | 54 => ⟨S32768x512, .f32⟩
  | 55 => ⟨S32768x512, .f32⟩
  | 56 => ⟨S1x512, .f32⟩
  | 57 => ⟨S32768x512, .f32⟩
  | 58 => ⟨S32768x512, .f32⟩
  | 59 => ⟨S1x512, .f32⟩
  | 60 => ⟨S32768x512, .f32⟩
  | 61 => ⟨S32768x512, .f32⟩
  | 62 => ⟨S_, .f32⟩
  | 63 => ⟨S32768x512, .f32⟩
  | 64 => ⟨S32768x512, .f32⟩
  | 65 => ⟨S32768x512, .f32⟩
  | 66 => ⟨S_, .f32⟩
  | 67 => ⟨S32768x512, .f32⟩
  | 68 => ⟨S32768x512, .f32⟩
  | 69 => ⟨S512x512, .f32⟩
  | 70 => ⟨S32768x512, .f32⟩
  | 71 => ⟨S1x512, .f32⟩
  | 72 => ⟨S32768x512, .f32⟩
  | 73 => ⟨S32768x512, .f32⟩
  | 74 => ⟨S_, .f32⟩
  | 75 => ⟨S512, .f32⟩
  | 76 => ⟨S_, .f32⟩
  | 77 => ⟨S512, .f32⟩
  | 78 => ⟨S512, .f32⟩
  | 79 => ⟨S_, .i32⟩
  | 80 => ⟨S_, .f32⟩
  | 81 => ⟨S512, .f32⟩
  | 82 => ⟨S1x512, .f32⟩
  | 83 => ⟨S_, .f32⟩
  | 84 => ⟨S1x512, .f32⟩
  | 85 => ⟨S1x512, .f32⟩
  | 86 => ⟨S32768x512, .f32⟩
  | 87 => ⟨S32768x512, .f32⟩
  | 88 => ⟨S32768x512, .f32⟩
  | 89 => ⟨S_, .f32⟩
  | 90 => ⟨S_, .f32⟩
  | 91 => ⟨S_, .f32⟩
  | 92 => ⟨S_, .f32⟩
  | 93 => ⟨S512, .f32⟩
  | 94 => ⟨S512, .f32⟩
  | 95 => ⟨S512, .f32⟩
  | 96 => ⟨S_, .f32⟩
  | 97 => ⟨S_, .i1⟩
  | 98 => ⟨S_, .f32⟩
  | 99 => ⟨S_, .f32⟩
  | 100 => ⟨S512, .f32⟩
  | 101 => ⟨S512, .f32⟩
  | 102 => ⟨S1x512, .f32⟩
  | 103 => ⟨S32768x512, .f32⟩
  | 104 => ⟨S32768x512, .f32⟩
  | 105 => ⟨S_, .f32⟩
  | 106 => ⟨S512, .f32⟩
  | 107 => ⟨S512, .f32⟩
  | 108 => ⟨S512, .f32⟩
  | 109 => ⟨S1x512, .f32⟩
  | 110 => ⟨S32768x512, .f32⟩
  | 111 => ⟨S32768x512, .f32⟩
  | 112 => ⟨S1x512, .f32⟩
  | 113 => ⟨S32768x512, .f32⟩
  | 114 => ⟨S32768x512, .f32⟩
  | 115 => ⟨S1x512, .f32⟩
  | 116 => ⟨S32768x512, .f32⟩
  | 117 => ⟨S32768x512, .f32⟩
  | 118 => ⟨S_, .f32⟩
  | 119 => ⟨S32768x512, .f32⟩
  | 120 => ⟨S32768x512, .f32⟩
  | 121 => ⟨S32768x512, .f32⟩
  | 122 => ⟨S_, .f32⟩
  | 123 => ⟨S32768x512, .f32⟩
  | 124 => ⟨S32768x512, .f32⟩
  | 125 => ⟨S512x10, .f32⟩
  | 126 => ⟨S32768x10, .f32⟩
  | 127 => ⟨S1x10, .f32⟩
  | _ => ⟨S32768x784, .f32⟩

abbrev hbmTy0_1 (i : Nat) : BufTy := match i % 128 with
  | 0 => ⟨S32768x10, .f32⟩
  | 1 => ⟨S32768x10, .f32⟩
  | _ => ⟨S32768x784, .f32⟩

abbrev hbmTy (i : Nat) : BufTy := match i / 128 with
  | 0 => hbmTy0_0 i
  | 1 => hbmTy0_1 i
  | _ => ⟨S32768x784, .f32⟩

abbrev bufTy : (tb : Table) → Fin (tcTables nBuf tb) → BufTy
  | .hbm, ⟨i, _⟩ => hbmTy i
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_cst_1 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_2 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_3 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_cst_5 : Ref sig .tc := ⟨.hbm, 76, rfl⟩
abbrev main_v35 : Ref sig .tc := ⟨.hbm, 77, rfl⟩
abbrev main_v36 : Ref sig .tc := ⟨.hbm, 78, rfl⟩
abbrev main_c_6 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_cst_7 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_cst_8 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_cst_9 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩

abbrev nD : Nat := 1
abbrev τ : Topo := Topo.v7x

variable {F : FTy → Type} [FloatOps F]

class Facts₀ : Prop where
  transposes_S512x784_S784x512_1_0 : S512x784.Transposes [1, 0] S784x512
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  reducesTo_S32768x512_S512_d0 : S32768x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S32768x512 : S_.BroadcastsInDim S32768x512 (![] : Fin 0 → Fin S32768x512.rank)
  transposes_S512x512_S512x512_1_0 : S512x512.Transposes [1, 0] S512x512
  transposes_S10x512_S512x10_1_0 : S10x512.Transposes [1, 0] S512x10
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  dot_S32768x784_S784x512_S32768x512_1_0_0_1_n_n_wf : DotDims.WF S32768x784 S784x512 S32768x512 [1] [0] [0] [1] [] []
  dot_S32768x512_S512x512_S32768x512_1_0_0_1_n_n_wf : DotDims.WF S32768x512 S512x512 S32768x512 [1] [0] [0] [1] [] []
  dot_S32768x512_S512x10_S32768x10_1_0_0_1_n_n_wf : DotDims.WF S32768x512 S512x10 S32768x10 [1] [0] [0] [1] [] []

variable [Facts₀]

def dot_S32768x784_S784x512_S32768x512_1_0_0_1_n_n : DotDims S32768x784 S784x512 S32768x512 where
  lhsContracting := [1]
  rhsContracting := [0]
  lhsNonContracting := [0]
  rhsNonContracting := [1]
  lhsBatch := []
  rhsBatch := []
  wf := dot_S32768x784_S784x512_S32768x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x512_S512x10_S32768x10_1_0_0_1_n_n : DotDims S32768x512 S512x10 S32768x10 where
  lhsContracting := [1]
  rhsContracting := [0]
  lhsNonContracting := [0]
  rhsNonContracting := [1]
  lhsBatch := []
  rhsBatch := []
  wf := dot_S32768x512_S512x10_S32768x10_1_0_0_1_n_n_wf

class Facts : Prop extends Facts₀ where

variable [Facts]
-- ==== Proof.Spec.lean ====
/-
  The mathematics of the certificate, free of any program: a three-layer perceptron with batch normalisation,
  rectification and a pre-sampled dropout mask after each of the first two layers, over the extended reals.

  A linear layer pairs row `i` of the activations with row `j` of the weights (stored [out, in]) and adds the bias.
  The batch statistics of a layer's output `h` are taken per column over all rows: the mean is the column sum over
  the row count; the variance is, on one side, the mean of squares minus the squared mean and, on the other, the mean
  of the squared deviations from the mean. The normalised value is the deviation times the reciprocal root of
  (variance + ε) on one side and the deviation divided by the root of (variance + ε) on the other. Both sides then
  scale by γ, shift by β, clamp at zero from below, multiply by the mask and by the dropout scale.

  Arrays are curried functions of their coordinates, so that nothing here depends on how a program lays them out.
-/
import Idealize.ShloMosaic.PureOps.Ideal

noncomputable section

namespace Cert.Spec

open Idealize.ShloMosaic

/-- The row count 32768 as the binary32 pattern both programs divide by. -/
abbrev cB : EReal := Ideal.ofBits .f32 0x47000000#32
/-- The ε of the normalisation (binary32 nearest 1e-5), the same pattern in both programs. -/
abbrev cEps : EReal := Ideal.ofBits .f32 0x3727C5AC#32
/-- The dropout scale (binary32 nearest 10/7), the same pattern in both programs. -/
abbrev cScale : EReal := Ideal.ofBits .f32 0x3FB6DB6E#32
/-- The zero the rectification clamps at. -/
abbrev cZero : EReal := Ideal.ofBits .f32 0x00000000#32

variable {n k o : ℕ}

/-- A linear layer: `(a · wᵀ + b) i j = Σₜ a i t · w j t + b j`. -/
def lin (a : Fin n → Fin k → EReal) (w : Fin o → Fin k → EReal) (b : Fin o → EReal) (i : Fin n) (j : Fin o) : EReal :=
  (∑ t : Fin k, a i t * w j t) + b j

/-- The sum of a column. -/
def colSum (h : Fin n → Fin o → EReal) (j : Fin o) : EReal := ∑ i : Fin n, h i j

/-- The sum of a column's squares. -/
def colSumSq (h : Fin n → Fin o → EReal) (j : Fin o) : EReal := ∑ i : Fin n, h i j * h i j

/-- The column mean: the column sum over the row-count constant. -/
def meanK (h : Fin n → Fin o → EReal) (j : Fin o) : EReal := Ideal.div (colSum h j) cB

/-- The variance as mean of squares minus squared mean. -/
def varK (h : Fin n → Fin o → EReal) (j : Fin o) : EReal :=
  Ideal.div (colSumSq h j) cB - meanK h j * meanK h j

/-- The variance as mean of squared deviations from the mean. -/
def varR (h : Fin n → Fin o → EReal) (j : Fin o) : EReal :=
  Ideal.div (∑ i : Fin n, (h i j - meanK h j) * (h i j - meanK h j)) cB

/-- Normalise by the reciprocal root, scale, shift, clamp at zero, mask, rescale. -/
def actK (h : Fin n → Fin o → EReal) (mean var gamma beta : Fin o → EReal) (mask : Fin n → Fin o → EReal)
    (i : Fin n) (j : Fin o) : EReal :=
  max ((h i j - mean j) * Ideal.rsqrt (var j + cEps) * gamma j + beta j) cZero * mask i j * cScale

/-- Normalise by dividing by the root, scale, shift, clamp at zero, mask, rescale. -/
def actR (h : Fin n → Fin o → EReal) (mean var gamma beta : Fin o → EReal) (mask : Fin n → Fin o → EReal)
    (i : Fin n) (j : Fin o) : EReal :=
  max (Ideal.div (h i j - mean j) (Ideal.sqrt (var j + cEps)) * gamma j + beta j) cZero * mask i j * cScale

/-- One normalised hidden layer, with the variance as mean of squares minus squared mean and the reciprocal root. -/
def layerK (h : Fin n → Fin o → EReal) (gamma beta : Fin o → EReal) (mask : Fin n → Fin o → EReal) :
    Fin n → Fin o → EReal :=
  actK h (meanK h) (varK h) gamma beta mask

/-- One normalised hidden layer, with the variance as mean of squared deviations and the division by the root. -/
def layerR (h : Fin n → Fin o → EReal) (gamma beta : Fin o → EReal) (mask : Fin n → Fin o → EReal) :
    Fin n → Fin o → EReal :=
  actR h (meanK h) (varR h) gamma beta mask

/-- The whole network, first form. -/
def outK (x : Fin 32768 → Fin 784 → EReal) (w1 : Fin 512 → Fin 784 → EReal) (b1 g1 be1 : Fin 512 → EReal)
    (w2 : Fin 512 → Fin 512 → EReal) (b2 g2 be2 : Fin 512 → EReal) (w3 : Fin 10 → Fin 512 → EReal) (b3 : Fin 10 → EReal)
    (m1 m2 : Fin 32768 → Fin 512 → EReal) : Fin 32768 → Fin 10 → EReal :=
  lin (layerK (lin (layerK (lin x w1 b1) g1 be1 m1) w2 b2) g2 be2 m2) w3 b3

/-- The whole network, second form. -/
def outR (x : Fin 32768 → Fin 784 → EReal) (w1 : Fin 512 → Fin 784 → EReal) (b1 g1 be1 : Fin 512 → EReal)
    (w2 : Fin 512 → Fin 512 → EReal) (b2 g2 be2 : Fin 512 → EReal) (w3 : Fin 10 → Fin 512 → EReal) (b3 : Fin 10 → EReal)
    (m1 m2 : Fin 32768 → Fin 512 → EReal) : Fin 32768 → Fin 10 → EReal :=
  lin (layerR (lin (layerR (lin x w1 b1) g1 be1 m1) w2 b2) g2 be2 m2) w3 b3

/-- Every entry of a matrix is a real number. -/
def Fin2 (f : Fin n → Fin k → EReal) : Prop := ∀ i j, ∃ r : ℝ, f i j = (r : EReal)
/-- Every entry of a vector is a real number. -/
def Fin1 (f : Fin n → EReal) : Prop := ∀ i, ∃ r : ℝ, f i = (r : EReal)

end Cert.Spec

end
-- ==== Proof.KDefs.lean ====
/-
  The kernel side's vocabulary. Each of the three pipelined regions reads its input arrays as the region finds
  them (a parameter `V`: the buffer contents at the region's entry); here each such array is given as a curried
  function of its coordinates, a transposed weight read with its coordinates swapped, and a [1, 512] row read at
  row 0. Over these, each region's claimed result is one function of the specification: the first region a linear
  layer with its column sums and column sums of squares, the second a normalised layer followed by a linear layer
  with the same two statistics, the third a normalised layer followed by the last linear layer.
  The argument arrays of a launch memory are given in the same curried form.
-/
import proofs.«125560_j53815940219270_1_alg».proof.Proof.Gen.KernelIdeal.Frame
import proofs.«125560_j53815940219270_1_alg».proof.Proof.Spec
import Idealize.ShloMosaic.Lib.ValueIdx

noncomputable section

namespace Cert.KV

open Idealize.ShloMosaic Idealize.ShloMosaic.TcCoe Idealize.SL.Sem Idealize.ShloMosaic.ValueIdx
open Cert.KernelIdeal Cert.KernelIdeal.Gen

/-- The buffer contents at a region's entry, at the ideal instance. -/
abbrev Entry := (c : Dev nD) → (b : Ref sig .tc) → Buf (Elt Ideal) ((c : Thread nD τ).loc b)

variable (V : Entry)

/-! ## Region 0: the first linear layer -/

def X0 (c : Dev nD) : Fin 32768 → Fin 784 → EReal := fun i t => (V c main_arg0 : Vec Ideal S32768x784 .f32) (ix2 i t)
/-- The transposed first weight, read back as [out, in]. -/
def Wt0 (c : Dev nD) : Fin 512 → Fin 784 → EReal := fun j t => (V c main_v1 : Vec Ideal S784x512 .bf16) (ix2 t j)
def B0 (c : Dev nD) : Fin 512 → EReal := fun j => (V c main_arg2 : Vec Ideal S512 .f32) (ix1 j)
/-- What region 0 computes: the first layer's pre-activation. -/
def H0 (c : Dev nD) : Fin 32768 → Fin 512 → EReal := Spec.lin (X0 V c) (Wt0 V c) (B0 V c)

/-! ## Region 1: normalise the first layer, then the second linear layer -/

def Hin1 (c : Dev nD) : Fin 32768 → Fin 512 → EReal := fun i j => (V c main_v6_0 : Vec Ideal S32768x512 .f32) (ix2 i j)
def Mean1 (c : Dev nD) : Fin 512 → EReal := fun j => (V c main_v8 : Vec Ideal S1x512 .f32) (ix2 (0 : Fin 1) j)
def Var1 (c : Dev nD) : Fin 512 → EReal := fun j => (V c main_v12 : Vec Ideal S1x512 .f32) (ix2 (0 : Fin 1) j)
def Gam1 (c : Dev nD) : Fin 512 → EReal := fun j => (V c main_arg3 : Vec Ideal S512 .f32) (ix1 j)
def Bet1 (c : Dev nD) : Fin 512 → EReal := fun j => (V c main_arg4 : Vec Ideal S512 .f32) (ix1 j)
def Msk1 (c : Dev nD) : Fin 32768 → Fin 512 → EReal := fun i j => (V c main_arg11 : Vec Ideal S32768x512 .f32) (ix2 i j)
/-- The transposed second weight, read back as [out, in]. -/
def Wt1 (c : Dev nD) : Fin 512 → Fin 512 → EReal := fun j t => (V c main_v3 : Vec Ideal S512x512 .bf16) (ix2 t j)
def B1 (c : Dev nD) : Fin 512 → EReal := fun j => (V c main_arg6 : Vec Ideal S512 .f32) (ix1 j)
/-- What region 1 computes: the second layer's pre-activation. -/
def H1 (c : Dev nD) : Fin 32768 → Fin 512 → EReal :=
  Spec.lin (Spec.actK (Hin1 V c) (Mean1 V c) (Var1 V c) (Gam1 V c) (Bet1 V c) (Msk1 V c)) (Wt1 V c) (B1 V c)

/-! ## Region 2: normalise the second layer, then the last linear layer -/

def Hin2 (c : Dev nD) : Fin 32768 → Fin 512 → EReal := fun i j => (V c main_v13_0 : Vec Ideal S32768x512 .f32) (ix2 i j)
def Mean2 (c : Dev nD) : Fin 512 → EReal := fun j => (V c main_v15 : Vec Ideal S1x512 .f32) (ix2 (0 : Fin 1) j)
def Var2 (c : Dev nD) : Fin 512 → EReal := fun j => (V c main_v19 : Vec Ideal S1x512 .f32) (ix2 (0 : Fin 1) j)
def Gam2 (c : Dev nD) : Fin 512 → EReal := fun j => (V c main_arg7 : Vec Ideal S512 .f32) (ix1 j)
def Bet2 (c : Dev nD) : Fin 512 → EReal := fun j => (V c main_arg8 : Vec Ideal S512 .f32) (ix1 j)
def Msk2 (c : Dev nD) : Fin 32768 → Fin 512 → EReal := fun i j => (V c main_arg12 : Vec Ideal S32768x512 .f32) (ix2 i j)
/-- The transposed last weight, read back as [out, in]. -/
def Wt2 (c : Dev nD) : Fin 10 → Fin 512 → EReal := fun j t => (V c main_v5 : Vec Ideal S512x10 .bf16) (ix2 t j)
def B2 (c : Dev nD) : Fin 10 → EReal := fun j => (V c main_arg10 : Vec Ideal S10 .f32) (ix1 j)
/-- What region 2 computes: the network's output. -/
def Out2 (c : Dev nD) : Fin 32768 → Fin 10 → EReal :=
  Spec.lin (Spec.actK (Hin2 V c) (Mean2 V c) (Var2 V c) (Gam2 V c) (Bet2 V c) (Msk2 V c)) (Wt2 V c) (B2 V c)

/-! ## The argument arrays of a launch memory, curried -/

variable (m : (ℓ : Loc nD τ sig) → Buf (Elt Ideal) ℓ)

def A0 (c : Dev nD) : Fin 32768 → Fin 784 → EReal := fun i t => (m ((c.tc : Thread nD τ).loc main_arg0) : Vec Ideal S32768x784 .f32) (ix2 i t)
def A1 (c : Dev nD) : Fin 512 → Fin 784 → EReal := fun j t => (m ((c.tc : Thread nD τ).loc main_arg1) : Vec Ideal S512x784 .f32) (ix2 j t)
def A2 (c : Dev nD) : Fin 512 → EReal := fun j => (m ((c.tc : Thread nD τ).loc main_arg2) : Vec Ideal S512 .f32) (ix1 j)
def A3 (c : Dev nD) : Fin 512 → EReal := fun j => (m ((c.tc : Thread nD τ).loc main_arg3) : Vec Ideal S512 .f32) (ix1 j)
def A4 (c : Dev nD) : Fin 512 → EReal := fun j => (m ((c.tc : Thread nD τ).loc main_arg4) : Vec Ideal S512 .f32) (ix1 j)
def A5 (c : Dev nD) : Fin 512 → Fin 512 → EReal := fun j t => (m ((c.tc : Thread nD τ).loc main_arg5) : Vec Ideal S512x512 .f32) (ix2 j t)
def A6 (c : Dev nD) : Fin 512 → EReal := fun j => (m ((c.tc : Thread nD τ).loc main_arg6) : Vec Ideal S512 .f32) (ix1 j)
def A7 (c : Dev nD) : Fin 512 → EReal := fun j => (m ((c.tc : Thread nD τ).loc main_arg7) : Vec Ideal S512 .f32) (ix1 j)
def A8 (c : Dev nD) : Fin 512 → EReal := fun j => (m ((c.tc : Thread nD τ).loc main_arg8) : Vec Ideal S512 .f32) (ix1 j)
def A9 (c : Dev nD) : Fin 10 → Fin 512 → EReal := fun j t => (m ((c.tc : Thread nD τ).loc main_arg9) : Vec Ideal S10x512 .f32) (ix2 j t)
def A10 (c : Dev nD) : Fin 10 → EReal := fun j => (m ((c.tc : Thread nD τ).loc main_arg10) : Vec Ideal S10 .f32) (ix1 j)
def A11 (c : Dev nD) : Fin 32768 → Fin 512 → EReal := fun i j => (m ((c.tc : Thread nD τ).loc main_arg11) : Vec Ideal S32768x512 .f32) (ix2 i j)
def A12 (c : Dev nD) : Fin 32768 → Fin 512 → EReal := fun i j => (m ((c.tc : Thread nD τ).loc main_arg12) : Vec Ideal S32768x512 .f32) (ix2 i j)

/-- The kernel's value as a function of the launch memory's arguments. -/
def KOut (c : Dev nD) : Fin 32768 → Fin 10 → EReal :=
  Spec.outK (A0 m c) (A1 m c) (A2 m c) (A3 m c) (A4 m c) (A5 m c) (A6 m c) (A7 m c) (A8 m c) (A9 m c) (A10 m c) (A11 m c) (A12 m c)

end Cert.KV

end
-- ==== Proof.KReg0.lean ====
/-
  Region 0's value: after all sixteen grid points the first output array holds the first layer's pre-activation,
  and the two one-row outputs hold its column sums and its column sums of squares.
-/
import proofs.«125560_j53815940219270_1_alg».proof.Proof.KDefs
import Idealize.ShloMosaic.Lib.Pipeline.Value
import Idealize.ShloMosaic.Lib.Tactic
import Idealize.ShloMosaic.Lib.ValueLayout
import Idealize.ShloMosaic.PureOps.Ideal.Laws

noncomputable section

namespace Cert.KV

open Idealize.ShloMosaic Idealize.ShloMosaic.TcCoe Idealize.SL.Sem Idealize.ShloMosaic.ValueIdx
open Cert.KernelIdeal Cert.KernelIdeal.Gen

variable (V : Entry)

variable {F : FTy → Type} [FloatOps F]

/-- The zero offsets of a whole-buffer access, rank 2 and rank 1. -/
theorem r0_hz2 : (![0, 0] : Fin 2 → Nat) = fun _ => 0 := funext fun a => by fin_cases a <;> rfl
theorem r0_hz1 : (![0] : Fin 1 → Nat) = fun _ => 0 := funext fun a => by fin_cases a; rfl

/-! ## What each case of the body leaves in each output's staging buffer

The body stores the whole block of each output; read back, the block is the stored payload, the loads of the
input buffers reading the whole buffers. At the first grid point the two accumulators are first reset to the zero
block and that block is what the update reads; at every other point the update reads what the point before left. -/

theorem r0_out_A_3 (c : Dev nD) (i : grid0.Coords) (a1 : Memref sig .tc .vmem S2048x784 .f32) (h1 : a1.IsWhole) (a2 : Memref sig .tc .vmem S784x512 .bf16) (h2 : a2.IsWhole) (a3 : Memref sig .tc .vmem S512 .f32) (h3 : a3.IsWhole) (a4 : Memref sig .tc .vmem S2048x512 .f32) (h4 : a4.IsWhole) (a5 : Memref sig .tc .vmem S1x512 .f32) (h5 : a5.IsWhole) (a6 : Memref sig .tc .vmem S1x512 .f32) (h6 : a6.IsWhole) (hc : cond0_0 i)
    (x0 : Vec F S2048x784 .f32) (x1 : Vec F S784x512 .bf16) (x2 : Vec F S512 .f32) :
    out0_A_3 c i a1 h1 a2 h2 a3 h3 a4 h4 a5 h5 a6 h6 hc x0 x1 x2 = k0_pay3 x0 x1 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero r0_hz2]
  simp only [View.readAt_eq_ld, h1.read_unread, h2.read_unread, h3.read_unread, View.ld_unit_zero (S := S2048x784) r0_hz2, View.ld_unit_zero (S := S784x512) r0_hz2, View.ld_unit_zero (S := S512) r0_hz1]

theorem r0_out_B_3 (c : Dev nD) (i : grid0.Coords) (a1 : Memref sig .tc .vmem S2048x784 .f32) (h1 : a1.IsWhole) (a2 : Memref sig .tc .vmem S784x512 .bf16) (h2 : a2.IsWhole) (a3 : Memref sig .tc .vmem S512 .f32) (h3 : a3.IsWhole) (a4 : Memref sig .tc .vmem S2048x512 .f32) (h4 : a4.IsWhole) (a5 : Memref sig .tc .vmem S1x512 .f32) (h5 : a5.IsWhole) (a6 : Memref sig .tc .vmem S1x512 .f32) (h6 : a6.IsWhole) (hc : ¬cond0_0 i)
    (x0 : Vec F S2048x784 .f32) (x1 : Vec F S784x512 .bf16) (x2 : Vec F S512 .f32) (xo4 xo5 : Vec F S1x512 .f32) :
    out0_B_3 c i a1 h1 a2 h2 a3 h3 a4 h4 a5 h5 a6 h6 hc x0 x1 x2 xo4 xo5 = k0_pay3 x0 x1 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  sl_unfold_words
  rw [View.canon_unit_zero r0_hz2]
  simp only [View.readAt_eq_ld, h1.read_unread, h2.read_unread, h3.read_unread, View.ld_unit_zero (S := S2048x784) r0_hz2, View.ld_unit_zero (S := S784x512) r0_hz2, View.ld_unit_zero (S := S512) r0_hz1]

theorem r0_out_A_4 (c : Dev nD) (i : grid0.Coords) (a1 : Memref sig .tc .vmem S2048x784 .f32) (h1 : a1.IsWhole) (a2 : Memref sig .tc .vmem S784x512 .bf16) (h2 : a2.IsWhole) (a3 : Memref sig .tc .vmem S512 .f32) (h3 : a3.IsWhole) (a4 : Memref sig .tc .vmem S2048x512 .f32) (h4 : a4.IsWhole) (a5 : Memref sig .tc .vmem S1x512 .f32) (h5 : a5.IsWhole) (a6 : Memref sig .tc .vmem S1x512 .f32) (h6 : a6.IsWhole) (hc : cond0_0 i)
    (x0 : Vec F S2048x784 .f32) (x1 : Vec F S784x512 .bf16) (x2 : Vec F S512 .f32) :
    out0_A_4 c i a1 h1 a2 h2 a3 h3 a4 h4 a5 h5 a6 h6 hc x0 x1 x2 = k0_pay4 x0 x1 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x512) r0_hz2]
  simp only [View.readAt_eq_ld, h1.read_unread, h2.read_unread, h3.read_unread, View.ld_unit_zero (S := S2048x784) r0_hz2, View.ld_unit_zero (S := S784x512) r0_hz2, View.ld_unit_zero (S := S512) r0_hz1, View.readCov_unit_zero (S := S1x512) _ r0_hz2]

theorem r0_out_B_4 (c : Dev nD) (i : grid0.Coords) (a1 : Memref sig .tc .vmem S2048x784 .f32) (h1 : a1.IsWhole) (a2 : Memref sig .tc .vmem S784x512 .bf16) (h2 : a2.IsWhole) (a3 : Memref sig .tc .vmem S512 .f32) (h3 : a3.IsWhole) (a4 : Memref sig .tc .vmem S2048x512 .f32) (h4 : a4.IsWhole) (a5 : Memref sig .tc .vmem S1x512 .f32) (h5 : a5.IsWhole) (a6 : Memref sig .tc .vmem S1x512 .f32) (h6 : a6.IsWhole) (hc : ¬cond0_0 i)
    (x0 : Vec F S2048x784 .f32) (x1 : Vec F S784x512 .bf16) (x2 : Vec F S512 .f32) (xo4 xo5 : Vec F S1x512 .f32) :
    out0_B_4 c i a1 h1 a2 h2 a3 h3 a4 h4 a5 h5 a6 h6 hc x0 x1 x2 xo4 xo5 = k0_pay4 x0 x1 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  sl_unfold_words
  rw [View.canon_unit_zero r0_hz2]
  simp only [View.readAt_eq_ld, h1.read_unread, h2.read_unread, h3.read_unread, View.ld_unit_zero (S := S2048x784) r0_hz2, View.ld_unit_zero (S := S784x512) r0_hz2, View.ld_unit_zero (S := S512) r0_hz1, h5.read_unread, View.ld_unit_zero (S := S1x512) r0_hz2]

theorem r0_out_A_5 (c : Dev nD) (i : grid0.Coords) (a1 : Memref sig .tc .vmem S2048x784 .f32) (h1 : a1.IsWhole) (a2 : Memref sig .tc .vmem S784x512 .bf16) (h2 : a2.IsWhole) (a3 : Memref sig .tc .vmem S512 .f32) (h3 : a3.IsWhole) (a4 : Memref sig .tc .vmem S2048x512 .f32) (h4 : a4.IsWhole) (a5 : Memref sig .tc .vmem S1x512 .f32) (h5 : a5.IsWhole) (a6 : Memref sig .tc .vmem S1x512 .f32) (h6 : a6.IsWhole) (hc : cond0_0 i)
    (x0 : Vec F S2048x784 .f32) (x1 : Vec F S784x512 .bf16) (x2 : Vec F S512 .f32) :
    out0_A_5 c i a1 h1 a2 h2 a3 h3 a4 h4 a5 h5 a6 h6 hc x0 x1 x2 = k0_pay5 x0 x1 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x512) r0_hz2]
  simp only [View.readAt_eq_ld, h1.read_unread, h2.read_unread, h3.read_unread, View.ld_unit_zero (S := S2048x784) r0_hz2, View.ld_unit_zero (S := S784x512) r0_hz2, View.ld_unit_zero (S := S512) r0_hz1, View.readCov_unit_zero (S := S1x512) _ r0_hz2]

theorem r0_out_B_5 (c : Dev nD) (i : grid0.Coords) (a1 : Memref sig .tc .vmem S2048x784 .f32) (h1 : a1.IsWhole) (a2 : Memref sig .tc .vmem S784x512 .bf16) (h2 : a2.IsWhole) (a3 : Memref sig .tc .vmem S512 .f32) (h3 : a3.IsWhole) (a4 : Memref sig .tc .vmem S2048x512 .f32) (h4 : a4.IsWhole) (a5 : Memref sig .tc .vmem S1x512 .f32) (h5 : a5.IsWhole) (a6 : Memref sig .tc .vmem S1x512 .f32) (h6 : a6.IsWhole) (hc : ¬cond0_0 i)
    (x0 : Vec F S2048x784 .f32) (x1 : Vec F S784x512 .bf16) (x2 : Vec F S512 .f32) (xo4 xo5 : Vec F S1x512 .f32) :
    out0_B_5 c i a1 h1 a2 h2 a3 h3 a4 h4 a5 h5 a6 h6 hc x0 x1 x2 xo4 xo5 = k0_pay5 x0 x1 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  sl_unfold_words
  rw [View.canon_unit_zero r0_hz2]
  simp only [View.readAt_eq_ld, h1.read_unread, h2.read_unread, h3.read_unread, View.ld_unit_zero (S := S2048x784) r0_hz2, View.ld_unit_zero (S := S784x512) r0_hz2, View.ld_unit_zero (S := S512) r0_hz1, h6.read_unread, View.ld_unit_zero (S := S1x512) r0_hz2]

/-! ## The payloads at an index, over the extended reals

At the ideal instance a narrowing conversion is the identity, a matrix product onto the zero accumulator is the
plain sum of products over the 784 contracted coordinates, and a sum-reduction over the rows is the sum over the
2048 row coordinates. -/

theorem r0_lhs_dot_S2048x784_S784x512_S2048x512_1_0_0_1_n_n_0 (j : S2048x512.Idx) (k : dot_S2048x784_S784x512_S2048x512_1_0_0_1_n_n.contr.Idx) :
    (dot_S2048x784_S784x512_S2048x512_1_0_0_1_n_n.lhsIdx j k 0).val = (j 0).val := rfl
theorem r0_lhs_dot_S2048x784_S784x512_S2048x512_1_0_0_1_n_n_1 (j : S2048x512.Idx) (k : dot_S2048x784_S784x512_S2048x512_1_0_0_1_n_n.contr.Idx) :
    (dot_S2048x784_S784x512_S2048x512_1_0_0_1_n_n.lhsIdx j k 1).val = (k ⟨0, by decide⟩).val :=
  dot_S2048x784_S784x512_S2048x512_1_0_0_1_n_n.lhsIdx_val_of_single rfl j k
theorem r0_rhs_dot_S2048x784_S784x512_S2048x512_1_0_0_1_n_n_0 (j : S2048x512.Idx) (k : dot_S2048x784_S784x512_S2048x512_1_0_0_1_n_n.contr.Idx) :
    (dot_S2048x784_S784x512_S2048x512_1_0_0_1_n_n.rhsIdx j k 0).val = (k ⟨0, by decide⟩).val :=
  dot_S2048x784_S784x512_S2048x512_1_0_0_1_n_n.rhsIdx_val_of_single rfl j k
theorem r0_rhs_dot_S2048x784_S784x512_S2048x512_1_0_0_1_n_n_1 (j : S2048x512.Idx) (k : dot_S2048x784_S784x512_S2048x512_1_0_0_1_n_n.contr.Idx) :
    (dot_S2048x784_S784x512_S2048x512_1_0_0_1_n_n.rhsIdx j k 1).val = (j 1).val := rfl

/-- The block product at (p, q): row p of the left block against column q of the right block. -/
theorem r0_mm_apply (lhs : FVec Ideal S2048x784 .bf16) (rhs : FVec Ideal S784x512 .bf16) (p : Fin 2048) (q : Fin 512) :
    matmul dot_S2048x784_S784x512_S2048x512_1_0_0_1_n_n none lhs rhs (constant (F := Ideal) S2048x512 .f32 0x00000000#32) (ix2 p q)
      = ∑ t : Fin 784, lhs (ix2 p t) * rhs (ix2 t q) := by
  refine (Ideal.matmul_constant_zero_apply dot_S2048x784_S784x512_S2048x512_1_0_0_1_n_n none lhs rhs (ix2 p q)).trans ?_
  refine (Equiv.sum_comp (contrEquiv1 dot_S2048x784_S784x512_S2048x512_1_0_0_1_n_n 784 rfl rfl).symm _).symm.trans (Finset.sum_congr rfl fun t _ => ?_)
  have hk := contrEquiv1_symm_val dot_S2048x784_S784x512_S2048x512_1_0_0_1_n_n 784 rfl rfl t
  have el : dot_S2048x784_S784x512_S2048x512_1_0_0_1_n_n.lhsIdx (ix2 p q) ((contrEquiv1 dot_S2048x784_S784x512_S2048x512_1_0_0_1_n_n 784 rfl rfl).symm t) = ix2 p t := by
    funext a; apply Fin.ext
    match a with
    | ⟨0, _⟩ => exact r0_lhs_dot_S2048x784_S784x512_S2048x512_1_0_0_1_n_n_0 _ _
    | ⟨1, _⟩ => exact (r0_lhs_dot_S2048x784_S784x512_S2048x512_1_0_0_1_n_n_1 _ _).trans hk
  have er : dot_S2048x784_S784x512_S2048x512_1_0_0_1_n_n.rhsIdx (ix2 p q) ((contrEquiv1 dot_S2048x784_S784x512_S2048x512_1_0_0_1_n_n 784 rfl rfl).symm t) = ix2 t q := by
    funext a; apply Fin.ext
    match a with
    | ⟨0, _⟩ => exact (r0_rhs_dot_S2048x784_S784x512_S2048x512_1_0_0_1_n_n_0 _ _).trans hk
    | ⟨1, _⟩ => exact r0_rhs_dot_S2048x784_S784x512_S2048x512_1_0_0_1_n_n_1 _ _
  rw [el, er]

/-- A sum-reduction of a [2048, 512] block over its rows, at column q. -/
theorem r0_rowsum_apply (src : FVec Ideal S2048x512 .f32) (q : Fin 512) :
    multiReduction (F := Ideal) .add [0] S512 src 0x00000000#32 reduces_S2048x512_S512 (.inl rfl) rfl (ix1 q)
      = ∑ p : Fin 2048, src (ix2 p q) := by
  refine (Ideal.multiReduction_add_single src 0x00000000#32 reduces_S2048x512_S512 (.inl rfl) rfl (ix1 q)).trans ?_
  refine Finset.sum_congr rfl fun p _ => congrArg src ?_
  funext a; apply Fin.ext
  match a with
  | ⟨0, _⟩ => rfl
  | ⟨1, _⟩ => rfl

/-- The first layer's block: entry (p, q) is row p of the input block against column q of the weight block, plus
    the bias at q. -/
theorem r0_pay3_apply (x0 : Vec Ideal S2048x784 .f32) (x1 : Vec Ideal S784x512 .bf16) (x2 : Vec Ideal S512 .f32)
    (p : Fin 2048) (q : Fin 512) :
    k0_pay3 (F := Ideal) x0 x1 x2 (ix2 p q) = (∑ t : Fin 784, x0 (ix2 p t) * x1 (ix2 t q)) + x2 (ix1 q) := by
  unfold k0_pay3
  refine (addf_apply _ _ _).trans ?_
  refine congr (congrArg HAdd.hAdd ?_) ?_
  · refine (r0_mm_apply _ _ p q).trans (Finset.sum_congr rfl fun t _ => ?_)
    rw [shapeCast_self]; rfl
  · exact (broadcastTo_1b_ab_apply _ _ p q).trans (shapeCast_a_1a_apply x2 _ 0 q)

/-- The column-sum update: what the accumulator held at q plus the sum of the block's column q. -/
theorem r0_pay4_apply (x0 : Vec Ideal S2048x784 .f32) (x1 : Vec Ideal S784x512 .bf16) (x2 : Vec Ideal S512 .f32)
    (acc : Vec Ideal S1x512 .f32) (q : Fin 512) :
    k0_pay4 (F := Ideal) x0 x1 x2 acc (ix2 (0 : Fin 1) q)
      = acc (ix2 (0 : Fin 1) q) + ∑ p : Fin 2048, k0_pay3 (F := Ideal) x0 x1 x2 (ix2 p q) := by
  unfold k0_pay4
  refine (addf_apply _ _ _).trans ?_
  refine congr (congrArg HAdd.hAdd ?_) ?_
  · rw [shapeCast_self]
  · exact (shapeCast_a_1a_apply _ _ 0 q).trans (r0_rowsum_apply _ q)

/-- The column-sum-of-squares update: what the accumulator held at q plus the sum of the squares of the block's
    column q. -/
theorem r0_pay5_apply (x0 : Vec Ideal S2048x784 .f32) (x1 : Vec Ideal S784x512 .bf16) (x2 : Vec Ideal S512 .f32)
    (acc : Vec Ideal S1x512 .f32) (q : Fin 512) :
    k0_pay5 (F := Ideal) x0 x1 x2 acc (ix2 (0 : Fin 1) q)
      = acc (ix2 (0 : Fin 1) q)
        + ∑ p : Fin 2048, k0_pay3 (F := Ideal) x0 x1 x2 (ix2 p q) * k0_pay3 (F := Ideal) x0 x1 x2 (ix2 p q) := by
  unfold k0_pay5
  refine (addf_apply _ _ _).trans ?_
  refine congr (congrArg HAdd.hAdd ?_) ?_
  · rw [shapeCast_self]
  · exact (shapeCast_a_1a_apply _ _ 0 q).trans (r0_rowsum_apply _ q)

/-- The reset blocks are zero. -/
theorem r0_pay1_apply (q : Fin 512) : k0_pay1 (F := Ideal) (ix2 (0 : Fin 1) q) = 0 := Ideal.ofBits_zero_f32
theorem r0_pay2_apply (q : Fin 512) : k0_pay2 (F := Ideal) (ix2 (0 : Fin 1) q) = 0 := Ideal.ofBits_zero_f32

/-! ## The blocks the body reads, as rows of the arrays

At grid point t the input window holds rows 2048·t … 2048·t + 2047 of the input; the weight and the bias windows
hold the whole arrays at every point. -/

/-- Row p of block s of a 32768-row array (s below 16). -/
def r0_row (s : ℕ) (p : Fin 2048) : Fin 32768 := ⟨(2048 * s + p.val) % 32768, Nat.mod_lt _ (by decide)⟩

/-- The printed index maps, decided over the grid: the input and the first output move one block of rows per point;
    every other window stays at block zero. -/
theorem r0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The three input blocks at point t, at their literal types. -/
abbrev r0_xblk (c : Dev nD) (t : Fin cfg0.N) : Vec Ideal S2048x784 .f32 := iblk0 V c 0 t
abbrev r0_wblk (c : Dev nD) (t : Fin cfg0.N) : Vec Ideal S784x512 .bf16 := iblk0 V c 1 t
abbrev r0_bblk (c : Dev nD) (t : Fin cfg0.N) : Vec Ideal S512 .f32 := iblk0 V c 2 t

theorem r0_xblk_apply (c : Dev nD) (t : Fin cfg0.N) (p : Fin 2048) (k : Fin 784) :
    r0_xblk V c t (ix2 p k) = X0 V c (r0_row t.val p) k := by
  have ht : t.val < 16 := lt_of_lt_of_eq t.isLt (show cfg0.N = 16 from N_0)
  obtain ⟨e0, e1, -⟩ := r0_idx_facts t
  unfold X0
  show (V c main_arg0 : Vec Ideal S32768x784 .f32) (((cfg0.win 0).blk t).view.emb (ix2 p k)) = _
  refine congrArg _ ?_
  funext a; apply Fin.ext
  match a with
  | ⟨0, _⟩ => show win0_0.index t (0 : Fin 2) * 2048 + 1 * p.val = (2048 * t.val + p.val) % 32768; rw [e0]; omega
  | ⟨1, _⟩ => show win0_0.index t (1 : Fin 2) * 784 + 1 * k.val = k.val; rw [e1]; omega

theorem r0_wblk_apply (c : Dev nD) (t : Fin cfg0.N) (k : Fin 784) (q : Fin 512) :
    r0_wblk V c t (ix2 k q) = Wt0 V c q k := by
  obtain ⟨-, -, e0, e1, -⟩ := r0_idx_facts t
  unfold Wt0
  show (V c main_v1 : Vec Ideal S784x512 .bf16) (((cfg0.win 1).blk t).view.emb (ix2 k q)) = _
  refine congrArg _ ?_
  funext a; apply Fin.ext
  match a with
  | ⟨0, _⟩ => show win0_1.index t (0 : Fin 2) * 784 + 1 * k.val = k.val; rw [e0]; omega
  | ⟨1, _⟩ => show win0_1.index t (1 : Fin 2) * 512 + 1 * q.val = q.val; rw [e1]; omega

theorem r0_bblk_apply (c : Dev nD) (t : Fin cfg0.N) (q : Fin 512) :
    r0_bblk V c t (ix1 q) = B0 V c q := by
  obtain ⟨-, -, -, -, e0, -⟩ := r0_idx_facts t
  unfold B0
  show (V c main_arg2 : Vec Ideal S512 .f32) (((cfg0.win 2).blk t).view.emb (ix1 q)) = _
  refine congrArg _ ?_
  funext a; apply Fin.ext
  match a with
  | ⟨0, _⟩ => show win0_2.index t (0 : Fin 1) * 512 + 1 * q.val = q.val; rw [e0]; omega

/-- The first layer's block at point t is rows 2048·t … of the first layer. -/
theorem r0_pay3_blk (c : Dev nD) (t : Fin cfg0.N) (p : Fin 2048) (q : Fin 512) :
    k0_pay3 (F := Ideal) (r0_xblk V c t) (r0_wblk V c t) (r0_bblk V c t) (ix2 p q) = H0 V c (r0_row t.val p) q := by
  refine (r0_pay3_apply _ _ _ p q).trans ?_
  unfold H0 Spec.lin
  refine congr (congrArg HAdd.hAdd (Finset.sum_congr rfl fun k _ => ?_)) (r0_bblk_apply V c t q)
  rw [r0_xblk_apply, r0_wblk_apply]

/-! ## What the three staging buffers hold after each grid point -/

/-- After point t the first output's buffer holds the first layer's block t. -/
theorem r0_inv3 (c : Dev nD) (t : Fin cfg0.N) :
    (outsAt0 V c t.val t.isLt).1 = k0_pay3 (F := Ideal) (r0_xblk V c t) (r0_wblk V c t) (r0_bblk V c t) := by
  by_cases h0 : t.val % 16 = 0
  · rw [outsAt0_A V c t h0]
    dsimp only
    exact r0_out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    exact r0_out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

/-- After point n the column-sum buffer holds, at column q, the sum of the first layer's column q over the rows of
    blocks 0 … n: zero plus block 0 at the first point, the point before plus block n afterwards. -/
theorem r0_inv4 (c : Dev nD) : ∀ (n : ℕ) (h : n < cfg0.N) (q : Fin 512),
    (outsAt0 V c n h).2.1 (ix2 (0 : Fin 1) q) = ∑ s : Fin (n + 1), ∑ p : Fin 2048, H0 V c (r0_row s.val p) q
  | 0, h, q => by
    rw [outsAt0_A V c ⟨0, h⟩ rfl]
    dsimp only
    refine (congrFun (r0_out_A_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk0 V c 0 ⟨0, h⟩) (iblk0 V c 1 ⟨0, h⟩) (iblk0 V c 2 ⟨0, h⟩)) (ix2 (0 : Fin 1) q)).trans ?_
    refine (r0_pay4_apply _ _ _ _ q).trans ?_
    refine Eq.trans ?_ (Fin.sum_univ_castSucc (fun s : Fin (0 + 1) => ∑ p : Fin 2048, H0 V c (r0_row s.val p) q)).symm
    rw [Fin.sum_univ_zero]
    exact congr (congrArg HAdd.hAdd (r0_pay1_apply q)) (Finset.sum_congr rfl fun p _ => r0_pay3_blk V c ⟨0, h⟩ p q)
  | n + 1, h, q => by
    have hN : cfg0.N = 16 := N_0
    have hB : ¬(⟨n + 1, h⟩ : Fin cfg0.N).val % 16 = 0 := by dsimp only; omega
    rw [outsAt0_B V c ⟨n + 1, h⟩ hB]
    dsimp only
    refine (congrFun (r0_out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (outsAt0 V c n (Nat.lt_of_succ_lt h)).2.1 (outsAt0 V c n (Nat.lt_of_succ_lt h)).2.2) (ix2 (0 : Fin 1) q)).trans ?_
    refine (r0_pay4_apply _ _ _ _ q).trans ?_
    refine Eq.trans ?_ (Fin.sum_univ_castSucc (fun s : Fin (n + 1 + 1) => ∑ p : Fin 2048, H0 V c (r0_row s.val p) q)).symm
    exact congr (congrArg HAdd.hAdd (r0_inv4 c n (Nat.lt_of_succ_lt h) q)) (Finset.sum_congr rfl fun p _ => r0_pay3_blk V c ⟨n + 1, h⟩ p q)

/-- The same for the squares. -/
theorem r0_inv5 (c : Dev nD) : ∀ (n : ℕ) (h : n < cfg0.N) (q : Fin 512),
    (outsAt0 V c n h).2.2 (ix2 (0 : Fin 1) q)
      = ∑ s : Fin (n + 1), ∑ p : Fin 2048, H0 V c (r0_row s.val p) q * H0 V c (r0_row s.val p) q
  | 0, h, q => by
    rw [outsAt0_A V c ⟨0, h⟩ rfl]
    dsimp only
    refine (congrFun (r0_out_A_5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) ((hcond0_0 ⟨0, h⟩).mpr rfl) (iblk0 V c 0 ⟨0, h⟩) (iblk0 V c 1 ⟨0, h⟩) (iblk0 V c 2 ⟨0, h⟩)) (ix2 (0 : Fin 1) q)).trans ?_
    refine (r0_pay5_apply _ _ _ _ q).trans ?_
    refine Eq.trans ?_ (Fin.sum_univ_castSucc (fun s : Fin (0 + 1) => ∑ p : Fin 2048, H0 V c (r0_row s.val p) q * H0 V c (r0_row s.val p) q)).symm
    rw [Fin.sum_univ_zero]
    exact congr (congrArg HAdd.hAdd (r0_pay2_apply q)) (Finset.sum_congr rfl fun p _ =>
      congr (congrArg HMul.hMul (r0_pay3_blk V c ⟨0, h⟩ p q)) (r0_pay3_blk V c ⟨0, h⟩ p q))
  | n + 1, h, q => by
    have hN : cfg0.N = 16 := N_0
    have hB : ¬(⟨n + 1, h⟩ : Fin cfg0.N).val % 16 = 0 := by dsimp only; omega
    rw [outsAt0_B V c ⟨n + 1, h⟩ hB]
    dsimp only
    refine (congrFun (r0_out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (outsAt0 V c n (Nat.lt_of_succ_lt h)).2.1 (outsAt0 V c n (Nat.lt_of_succ_lt h)).2.2) (ix2 (0 : Fin 1) q)).trans ?_
    refine (r0_pay5_apply _ _ _ _ q).trans ?_
    refine Eq.trans ?_ (Fin.sum_univ_castSucc (fun s : Fin (n + 1 + 1) => ∑ p : Fin 2048, H0 V c (r0_row s.val p) q * H0 V c (r0_row s.val p) q)).symm
    exact congr (congrArg HAdd.hAdd (r0_inv5 c n (Nat.lt_of_succ_lt h) q)) (Finset.sum_congr rfl fun p _ =>
      congr (congrArg HMul.hMul (r0_pay3_blk V c ⟨n + 1, h⟩ p q)) (r0_pay3_blk V c ⟨n + 1, h⟩ p q))

/-! ## From the blocks to the arrays

The first output is written back at every point, block t covering rows 2048·t … 2048·t + 2047: the point that
covers row r is r / 2048, so after the run the array is the first layer. The two accumulators have one block, written
back after the last point only: the array is what the last point left, the sum over all sixteen blocks, which is the
sum over all 32768 rows. -/

/-- Sixteen blocks of 2048 rows are the 32768 rows. -/
theorem r0_sum_blocks (f : Fin 32768 → EReal) :
    ∑ s : Fin 16, ∑ p : Fin 2048, f (r0_row s.val p) = ∑ i : Fin 32768, f i := by
  rw [← Fintype.sum_prod_type' (f := fun (s : Fin 16) (p : Fin 2048) => f (r0_row s.val p))]
  exact Fintype.sum_equiv (finProdFinEquiv (m := 16) (n := 2048)) _ (fun i : Fin (16 * 2048) => f i)
    (fun x => congrArg f (Fin.ext (by
      have h1 := x.1.isLt; have h2 := x.2.isLt
      show (2048 * x.1.val + x.2.val) % 32768 = x.2.val + 2048 * x.1.val; omega)))

/-- The claimed contents of the three output arrays. -/
def r0_G3 (c : Dev nD) : Vec Ideal S32768x512 .f32 := fun i => H0 V c (i 0) (i 1)
def r0_G4 (c : Dev nD) : Vec Ideal S1x512 .f32 := fun i => Spec.colSum (H0 V c) (i 1)
def r0_G5 (c : Dev nD) : Vec Ideal S1x512 .f32 := fun i => Spec.colSumSq (H0 V c) (i 1)

/-- What point t writes back to the first output is block t of the first layer. -/
theorem r0_flushed3_eq (c : Dev nD) (t : Fin cfg0.N) :
    (dat0 V c).flushed 3 t = ((cfg0.win 3).blk t).view.read (Elt Ideal) (r0_G3 V c) := by
  have ht : t.val < 16 := lt_of_lt_of_eq t.isLt (show cfg0.N = 16 from N_0)
  obtain ⟨-, -, -, -, -, e0, e1, -⟩ := r0_idx_facts t
  show (cfg0.win 3).cut (grid0.coords t) ((dat0 V c).after 3 t) = _
  rw [after0_3, r0_inv3]
  funext y
  obtain ⟨p, q, rfl⟩ : ∃ (p : Fin 2048) (q : Fin 512), y = ix2 p q := ⟨y 0, y 1, eq_ix2 y⟩
  show k0_pay3 (F := Ideal) (r0_xblk V c t) (r0_wblk V c t) (r0_bblk V c t) (ix2 p q)
    = r0_G3 V c (((cfg0.win 3).blk t).view.emb (ix2 p q))
  have e : ((cfg0.win 3).blk t).view.emb (ix2 p q) = ix2 (r0_row t.val p) q := by
    funext a; apply Fin.ext
    match a with
    | ⟨0, _⟩ => show win0_3.index t (0 : Fin 2) * 2048 + 1 * p.val = (2048 * t.val + p.val) % 32768; rw [e0]; omega
    | ⟨1, _⟩ => show win0_3.index t (1 : Fin 2) * 512 + 1 * q.val = q.val; rw [e1]; omega
  exact (r0_pay3_blk V c t p q).trans (congrArg (r0_G3 V c) e).symm

/-- An index of the first output array is in point t's block iff each coordinate is in the block's range. -/
theorem r0_mem_blk3 (t : Fin cfg0.N) (i : S32768x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v6_0).slice (win0_3.rect t)).set ↔ _
  rw [View.set_slice_whole, Rect.mem_set_unit]
  exact Iff.rfl

/-- Row r of the first output is covered by point r / 2048. -/
theorem r0_cover3 (i : S32768x512.Idx) :
    ∃ t : Fin cfg0.N, (cfg0.win 3).flush t = true ∧ i ∈ ((cfg0.win 3).blk t).view.set := by
  have h0 : (i 0).val < 32768 := idx2_lt0 i
  have h1 : (i 1).val < 512 := idx2_lt1 i
  have hN : cfg0.N = 16 := N_0
  obtain ⟨t, ht⟩ : ∃ t : Fin cfg0.N, t.val = (i 0).val / 2048 := ⟨⟨(i 0).val / 2048, by rw [hN]; omega⟩, rfl⟩
  obtain ⟨-, -, -, -, -, e0, e1, -⟩ := r0_idx_facts t
  refine ⟨t, flush0_3 t, ?_⟩
  rw [r0_mem_blk3]
  intro a
  match a with
  | ⟨0, _⟩ =>
    show win0_3.index t (0 : Fin 2) * 2048 ≤ (i 0).val ∧ (i 0).val < win0_3.index t (0 : Fin 2) * 2048 + 2048
    rw [e0, ht]; omega
  | ⟨1, _⟩ =>
    show win0_3.index t (1 : Fin 2) * 512 ≤ (i 1).val ∧ (i 1).val < win0_3.index t (1 : Fin 2) * 512 + 512
    rw [e1]; omega

/-- What the last point writes back to each accumulator's array is the whole-column sum: the block is the array. -/
theorem r0_flushed4_eq (c : Dev nD) (t : Fin cfg0.N) (hf : (cfg0.win 4).flush t = true) :
    (dat0 V c).flushed 4 t = ((cfg0.win 4).blk t).view.read (Elt Ideal) (r0_G4 V c) := by
  have hN : cfg0.N = 16 := N_0
  have h15 : t.val = 15 := by have := (flush0_4 t).mp hf; have := t.isLt; omega
  obtain ⟨-, -, -, -, -, -, -, e0, e1, -⟩ := r0_idx_facts t
  have hfun : (outsAt0 V c t.val t.isLt).2.1 = r0_G4 V c := by
    funext y
    obtain ⟨u, q, rfl⟩ : ∃ (u : Fin 1) (q : Fin 512), y = ix2 u q := ⟨y 0, y 1, eq_ix2 y⟩
    obtain rfl : u = 0 := Subsingleton.elim _ _
    refine (r0_inv4 V c t.val t.isLt q).trans ?_
    obtain ⟨n, hn⟩ := t
    dsimp only at h15
    subst h15
    exact r0_sum_blocks (fun i => H0 V c i q)
  show (cfg0.win 4).cut (grid0.coords t) ((dat0 V c).after 4 t) = _
  rw [after0_4, hfun]
  have hz' : (fun a => win0_4.index t a * main_v6_1.ty.shape.size a) = fun _ => 0 := funext fun a =>
    match a with
    | ⟨0, _⟩ => by show win0_4.index t (0 : Fin 2) * 1 = 0; rw [e0]
    | ⟨1, _⟩ => by show win0_4.index t (1 : Fin 2) * 512 = 0; rw [e1]
  exact (Memref.read_access_unit_zero (Elt Ideal) main_v6_1 hz' (fun a => by rw [congrFun hz' a]; simp) (r0_G4 V c)).symm

theorem r0_flushed5_eq (c : Dev nD) (t : Fin cfg0.N) (hf : (cfg0.win 5).flush t = true) :
    (dat0 V c).flushed 5 t = ((cfg0.win 5).blk t).view.read (Elt Ideal) (r0_G5 V c) := by
  have hN : cfg0.N = 16 := N_0
  have h15 : t.val = 15 := by have := (flush0_5 t).mp hf; have := t.isLt; omega
  obtain ⟨-, -, -, -, -, -, -, -, -, e0, e1⟩ := r0_idx_facts t
  have hfun : (outsAt0 V c t.val t.isLt).2.2 = r0_G5 V c := by
    funext y
    obtain ⟨u, q, rfl⟩ : ∃ (u : Fin 1) (q : Fin 512), y = ix2 u q := ⟨y 0, y 1, eq_ix2 y⟩
    obtain rfl : u = 0 := Subsingleton.elim _ _
    refine (r0_inv5 V c t.val t.isLt q).trans ?_
    obtain ⟨n, hn⟩ := t
    dsimp only at h15
    subst h15
    exact r0_sum_blocks (fun i => H0 V c i q * H0 V c i q)
  show (cfg0.win 5).cut (grid0.coords t) ((dat0 V c).after 5 t) = _
  rw [after0_5, hfun]
  have hz' : (fun a => win0_5.index t a * main_v6_2.ty.shape.size a) = fun _ => 0 := funext fun a =>
    match a with
    | ⟨0, _⟩ => by show win0_5.index t (0 : Fin 2) * 1 = 0; rw [e0]
    | ⟨1, _⟩ => by show win0_5.index t (1 : Fin 2) * 512 = 0; rw [e1]
  exact (Memref.read_access_unit_zero (Elt Ideal) main_v6_2 hz' (fun a => by rw [congrFun hz' a]; simp) (r0_G5 V c)).symm

theorem r0_mem_blk4 (t : Fin cfg0.N) (i : S1x512.Idx) :
    i ∈ ((cfg0.win 4).blk t).view.set ↔ ∀ a : Fin 2, win0_4.index t a * S1x512.size a ≤ (i a).val
      ∧ (i a).val < win0_4.index t a * S1x512.size a + S1x512.size a := by
  show i ∈ ((View.whole main_v6_1).slice (win0_4.rect t)).set ↔ _
  rw [View.set_slice_whole, Rect.mem_set_unit]
  exact Iff.rfl

theorem r0_mem_blk5 (t : Fin cfg0.N) (i : S1x512.Idx) :
    i ∈ ((cfg0.win 5).blk t).view.set ↔ ∀ a : Fin 2, win0_5.index t a * S1x512.size a ≤ (i a).val
      ∧ (i a).val < win0_5.index t a * S1x512.size a + S1x512.size a := by
  show i ∈ ((View.whole main_v6_2).slice (win0_5.rect t)).set ↔ _
  rw [View.set_slice_whole, Rect.mem_set_unit]
  exact Iff.rfl

/-- The last point's block is the whole one-row array. -/
theorem r0_cover4 (i : S1x512.Idx) :
    ∃ t : Fin cfg0.N, (cfg0.win 4).flush t = true ∧ i ∈ ((cfg0.win 4).blk t).view.set := by
  have h0 : (i 0).val < 1 := idx2_lt0 i
  have h1 : (i 1).val < 512 := idx2_lt1 i
  have hN : cfg0.N = 16 := N_0
  obtain ⟨t, ht⟩ : ∃ t : Fin cfg0.N, t.val = 15 := ⟨⟨15, by rw [hN]; decide⟩, rfl⟩
  obtain ⟨-, -, -, -, -, -, -, e0, e1, -⟩ := r0_idx_facts t
  refine ⟨t, (flush0_4 t).mpr (by rw [ht]), ?_⟩
  rw [r0_mem_blk4]
  intro a
  match a with
  | ⟨0, _⟩ =>
    show win0_4.index t (0 : Fin 2) * 1 ≤ (i 0).val ∧ (i 0).val < win0_4.index t (0 : Fin 2) * 1 + 1
    rw [e0]; omega
  | ⟨1, _⟩ =>
    show win0_4.index t (1 : Fin 2) * 512 ≤ (i 1).val ∧ (i 1).val < win0_4.index t (1 : Fin 2) * 512 + 512
    rw [e1]; omega

theorem r0_cover5 (i : S1x512.Idx) :
    ∃ t : Fin cfg0.N, (cfg0.win 5).flush t = true ∧ i ∈ ((cfg0.win 5).blk t).view.set := by
  have h0 : (i 0).val < 1 := idx2_lt0 i
  have h1 : (i 1).val < 512 := idx2_lt1 i
  have hN : cfg0.N = 16 := N_0
  obtain ⟨t, ht⟩ : ∃ t : Fin cfg0.N, t.val = 15 := ⟨⟨15, by rw [hN]; decide⟩, rfl⟩
  obtain ⟨-, -, -, -, -, -, -, -, -, e0, e1⟩ := r0_idx_facts t
  refine ⟨t, (flush0_5 t).mpr (by rw [ht]), ?_⟩
  rw [r0_mem_blk5]
  intro a
  match a with
  | ⟨0, _⟩ =>
    show win0_5.index t (0 : Fin 2) * 1 ≤ (i 0).val ∧ (i 0).val < win0_5.index t (0 : Fin 2) * 1 + 1
    rw [e0]; omega
  | ⟨1, _⟩ =>
    show win0_5.index t (1 : Fin 2) * 512 ≤ (i 1).val ∧ (i 1).val < win0_5.index t (1 : Fin 2) * 512 + 512
    rw [e1]; omega

/-! ## Region 0's value -/

theorem reg0_h (c : Dev nD) (i : Fin 32768) (j : Fin 512) :
    (dat0 (F := Ideal) V c).arrAt 3 cfg0.N (ix2 i j) = H0 V c i j :=
  congrFun ((dat0 (F := Ideal) V c).arrAt_eq_of_cover 3 (r0_G3 V c) (fun t _ => r0_flushed3_eq V c t) r0_cover3) (ix2 i j)

theorem reg0_sum (c : Dev nD) (j : Fin 512) :
    (dat0 (F := Ideal) V c).arrAt 4 cfg0.N (ix2 (0 : Fin 1) j) = Spec.colSum (H0 V c) j :=
  congrFun ((dat0 (F := Ideal) V c).arrAt_eq_of_cover 4 (r0_G4 V c) (r0_flushed4_eq V c) r0_cover4) (ix2 (0 : Fin 1) j)

theorem reg0_sumsq (c : Dev nD) (j : Fin 512) :
    (dat0 (F := Ideal) V c).arrAt 5 cfg0.N (ix2 (0 : Fin 1) j) = Spec.colSumSq (H0 V c) j :=
  congrFun ((dat0 (F := Ideal) V c).arrAt_eq_of_cover 5 (r0_G5 V c) (r0_flushed5_eq V c) r0_cover5) (ix2 (0 : Fin 1) j)

end Cert.KV

end
-- ==== Proof.KReg1.lean ====
/-
  Region 1's value: after all sixteen grid points the first output array holds the second layer's pre-activation,
  and the two one-row outputs hold its column sums and its column sums of squares.

  The road. Each of the body's two cases (the first grid point, where the two statistics rows are reset, and the
  fifteen later points) leaves in each output's buffer the payload of its last store; the payloads are read at an index
  over the extended reals: the block's pre-activation at (p, q) is the normalised, rectified, masked and rescaled row
  p of the input block against column q of the weight plus the bias, and a statistics row is what it held plus the
  block's column sums (of squares). Each window's block is its array read where the index map says: the activations,
  the mask and the first output move by 2048 rows a point, everything else stays put. By induction on the point the
  first output's buffer holds rows 2048·n … 2048·n + 2047 of the pre-activation and the statistics rows hold the sums
  over its first 2048·(n + 1) rows. The first output is written back at every point and its blocks tile the array; the
  statistics rows are written back once, after the last point, when the sums run over all 32768 rows.
-/
import proofs.«125560_j53815940219270_1_alg».proof.Proof.KDefs
import Idealize.ShloMosaic.Lib.Pipeline.Value
import Idealize.ShloMosaic.Lib.ValueLayout
import Idealize.ShloMosaic.PureOps.Ideal.Laws
import Idealize.ShloMosaic.Lib.Tactic

noncomputable section

namespace Cert.KV

open Idealize.ShloMosaic Idealize.ShloMosaic.TcCoe Idealize.SL.Sem Idealize.ShloMosaic.ValueIdx
open Idealize.ShloMosaic.Pipeline (Dat)
open Cert.KernelIdeal Cert.KernelIdeal.Gen

namespace Reg1

variable {F : FTy → Type} [FloatOps F]

/-! ## What each case of the body leaves in each output's buffer

The body loads whole buffers and stores whole buffers, so each output's buffer ends at the payload of the last store
into it. The mean row is the region's second input and the variance row its third; the arithmetic takes the variance
before the mean. -/

/-- The all-zero offsets of a rank-2 buffer. -/
theorem hz2 : (![0, 0] : Fin 2 → Nat) = fun _ => 0 := funext fun a => by fin_cases a <;> rfl
/-- The all-zero offset of a rank-1 buffer. -/
theorem hz1 : (![0] : Fin 1 → Nat) = fun _ => 0 := funext fun a => by fin_cases a <;> rfl

/-- At the first point the first output's buffer ends at the block's pre-activation. -/
theorem o8A (c : Dev nD) (i : grid1.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S512 .f32) (h4 : a4.IsWhole) (a5 : Memref sig .tc .vmem S512 .f32) (h5 : a5.IsWhole) (a6 : Memref sig .tc .vmem S2048x512 .f32) (h6 : a6.IsWhole) (a7 : Memref sig .tc .vmem S512x512 .bf16) (h7 : a7.IsWhole) (a8 : Memref sig .tc .vmem S512 .f32) (h8 : a8.IsWhole) (a9 : Memref sig .tc .vmem S2048x512 .f32) (h9 : a9.IsWhole) (a10 : Memref sig .tc .vmem S1x512 .f32) (h10 : a10.IsWhole) (a11 : Memref sig .tc .vmem S1x512 .f32) (h11 : a11.IsWhole) (hc : cond1_0 i) (x0 : Vec F S2048x512 .f32) (x1 : Vec F S1x512 .f32) (x2 : Vec F S1x512 .f32) (x3 : Vec F S512 .f32) (x4 : Vec F S512 .f32) (x5 : Vec F S2048x512 .f32) (x6 : Vec F S512x512 .bf16) (x7 : Vec F S512 .f32) :
    out1_A_8 c i a1 h1 a2 h2 a3 h3 a4 h4 a5 h5 a6 h6 a7 h7 a8 h8 a9 h9 a10 h10 a11 h11 hc x0 x1 x2 x3 x4 x5 x6 x7 = k1_pay5 x0 x2 x1 x3 x4 x5 x6 x7 := by
  unfold out1_A_8
  rw [View.read_writes_eq_canon _ _ _ (cover1_A_8 c i a1 h1 a2 h2 a3 h3 a4 h4 a5 h5 a6 h6 a7 h7 a8 h8 a9 h9 a10 h10 a11 h11 hc x0 x1 x2 x3 x4 x5 x6 x7)]
  unfold kernelRun1_A
  dsimp only
  sl_unfold_words
  rw [View.canon_unit_zero hz2]
  simp only [View.readAt_eq_ld, h1.read_unread, h2.read_unread, h3.read_unread, h4.read_unread, h5.read_unread, h6.read_unread, h7.read_unread, h8.read_unread, h10.read_unread, h11.read_unread, View.ld_unit_zero (S := S2048x512) hz2, View.ld_unit_zero (S := S1x512) hz2, View.ld_unit_zero (S := S512x512) hz2, View.ld_unit_zero (S := S512) hz1, View.readCov_unit_zero (S := S1x512) _ hz2]

/-- At the first point the second output's buffer is reset to the zero row, read back, and ends at the zero row
    updated by the block's column sums. -/
theorem o9A (c : Dev nD) (i : grid1.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S512 .f32) (h4 : a4.IsWhole) (a5 : Memref sig .tc .vmem S512 .f32) (h5 : a5.IsWhole) (a6 : Memref sig .tc .vmem S2048x512 .f32) (h6 : a6.IsWhole) (a7 : Memref sig .tc .vmem S512x512 .bf16) (h7 : a7.IsWhole) (a8 : Memref sig .tc .vmem S512 .f32) (h8 : a8.IsWhole) (a9 : Memref sig .tc .vmem S2048x512 .f32) (h9 : a9.IsWhole) (a10 : Memref sig .tc .vmem S1x512 .f32) (h10 : a10.IsWhole) (a11 : Memref sig .tc .vmem S1x512 .f32) (h11 : a11.IsWhole) (hc : cond1_0 i) (x0 : Vec F S2048x512 .f32) (x1 : Vec F S1x512 .f32) (x2 : Vec F S1x512 .f32) (x3 : Vec F S512 .f32) (x4 : Vec F S512 .f32) (x5 : Vec F S2048x512 .f32) (x6 : Vec F S512x512 .bf16) (x7 : Vec F S512 .f32) :
    out1_A_9 c i a1 h1 a2 h2 a3 h3 a4 h4 a5 h5 a6 h6 a7 h7 a8 h8 a9 h9 a10 h10 a11 h11 hc x0 x1 x2 x3 x4 x5 x6 x7 = k1_pay1 (k1_pay5 x0 x2 x1 x3 x4 x5 x6 x7) (k1_pay3 (F := F)) := by
  unfold out1_A_9
  rw [View.read_writes_eq_canon _ _ _ (cover1_A_9 c i a1 h1 a2 h2 a3 h3 a4 h4 a5 h5 a6 h6 a7 h7 a8 h8 a9 h9 a10 h10 a11 h11 hc x0 x1 x2 x3 x4 x5 x6 x7)]
  unfold kernelRun1_A
  dsimp only
  sl_unfold_words
  rw [View.canon_cons_unit_zero (S := S1x512) hz2]
  simp only [View.readAt_eq_ld, h1.read_unread, h2.read_unread, h3.read_unread, h4.read_unread, h5.read_unread, h6.read_unread, h7.read_unread, h8.read_unread, h10.read_unread, h11.read_unread, View.ld_unit_zero (S := S2048x512) hz2, View.ld_unit_zero (S := S1x512) hz2, View.ld_unit_zero (S := S512x512) hz2, View.ld_unit_zero (S := S512) hz1, View.readCov_unit_zero (S := S1x512) _ hz2]

/-- At the first point the third output's buffer is reset to the zero row, read back, and ends at the zero row
    updated by the block's column sums of squares. -/
theorem o10A (c : Dev nD) (i : grid1.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S512 .f32) (h4 : a4.IsWhole) (a5 : Memref sig .tc .vmem S512 .f32) (h5 : a5.IsWhole) (a6 : Memref sig .tc .vmem S2048x512 .f32) (h6 : a6.IsWhole) (a7 : Memref sig .tc .vmem S512x512 .bf16) (h7 : a7.IsWhole) (a8 : Memref sig .tc .vmem S512 .f32) (h8 : a8.IsWhole) (a9 : Memref sig .tc .vmem S2048x512 .f32) (h9 : a9.IsWhole) (a10 : Memref sig .tc .vmem S1x512 .f32) (h10 : a10.IsWhole) (a11 : Memref sig .tc .vmem S1x512 .f32) (h11 : a11.IsWhole) (hc : cond1_0 i) (x0 : Vec F S2048x512 .f32) (x1 : Vec F S1x512 .f32) (x2 : Vec F S1x512 .f32) (x3 : Vec F S512 .f32) (x4 : Vec F S512 .f32) (x5 : Vec F S2048x512 .f32) (x6 : Vec F S512x512 .bf16) (x7 : Vec F S512 .f32) :
    out1_A_10 c i a1 h1 a2 h2 a3 h3 a4 h4 a5 h5 a6 h6 a7 h7 a8 h8 a9 h9 a10 h10 a11 h11 hc x0 x1 x2 x3 x4 x5 x6 x7 = k1_pay2 (k1_pay5 x0 x2 x1 x3 x4 x5 x6 x7) (k1_pay4 (F := F)) := by
  unfold out1_A_10
  rw [View.read_writes_eq_canon _ _ _ (cover1_A_10 c i a1 h1 a2 h2 a3 h3 a4 h4 a5 h5 a6 h6 a7 h7 a8 h8 a9 h9 a10 h10 a11 h11 hc x0 x1 x2 x3 x4 x5 x6 x7)]
  unfold kernelRun1_A
  dsimp only
  sl_unfold_words
  rw [View.canon_cons_unit_zero (S := S1x512) hz2]
  simp only [View.readAt_eq_ld, h1.read_unread, h2.read_unread, h3.read_unread, h4.read_unread, h5.read_unread, h6.read_unread, h7.read_unread, h8.read_unread, h10.read_unread, h11.read_unread, View.ld_unit_zero (S := S2048x512) hz2, View.ld_unit_zero (S := S1x512) hz2, View.ld_unit_zero (S := S512x512) hz2, View.ld_unit_zero (S := S512) hz1, View.readCov_unit_zero (S := S1x512) _ hz2]

/-- At a later point the first output's buffer ends at the block's pre-activation. -/
theorem o8B (c : Dev nD) (i : grid1.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S512 .f32) (h4 : a4.IsWhole) (a5 : Memref sig .tc .vmem S512 .f32) (h5 : a5.IsWhole) (a6 : Memref sig .tc .vmem S2048x512 .f32) (h6 : a6.IsWhole) (a7 : Memref sig .tc .vmem S512x512 .bf16) (h7 : a7.IsWhole) (a8 : Memref sig .tc .vmem S512 .f32) (h8 : a8.IsWhole) (a9 : Memref sig .tc .vmem S2048x512 .f32) (h9 : a9.IsWhole) (a10 : Memref sig .tc .vmem S1x512 .f32) (h10 : a10.IsWhole) (a11 : Memref sig .tc .vmem S1x512 .f32) (h11 : a11.IsWhole) (hc : ¬cond1_0 i) (x0 : Vec F S2048x512 .f32) (x1 : Vec F S1x512 .f32) (x2 : Vec F S1x512 .f32) (x3 : Vec F S512 .f32) (x4 : Vec F S512 .f32) (x5 : Vec F S2048x512 .f32) (x6 : Vec F S512x512 .bf16) (x7 : Vec F S512 .f32) (xo9 : Vec F S1x512 .f32) (xo10 : Vec F S1x512 .f32) :
    out1_B_8 c i a1 h1 a2 h2 a3 h3 a4 h4 a5 h5 a6 h6 a7 h7 a8 h8 a9 h9 a10 h10 a11 h11 hc x0 x1 x2 x3 x4 x5 x6 x7 xo9 xo10 = k1_pay5 x0 x2 x1 x3 x4 x5 x6 x7 := by
  unfold out1_B_8
  rw [View.read_writes_eq_canon _ _ _ (cover1_B_8 c i a1 h1 a2 h2 a3 h3 a4 h4 a5 h5 a6 h6 a7 h7 a8 h8 a9 h9 a10 h10 a11 h11 hc x0 x1 x2 x3 x4 x5 x6 x7 xo9 xo10)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h8.read_unread, h10.read_unread, h11.read_unread, View.ld_unit_zero (S := S2048x512) hz2, View.ld_unit_zero (S := S1x512) hz2, View.ld_unit_zero (S := S512x512) hz2, View.ld_unit_zero (S := S512) hz1, View.readCov_unit_zero (S := S1x512) _ hz2]

/-- At a later point the second output's buffer, holding what the point before left, ends at that row updated by
    the block's column sums. -/
theorem o9B (c : Dev nD) (i : grid1.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S512 .f32) (h4 : a4.IsWhole) (a5 : Memref sig .tc .vmem S512 .f32) (h5 : a5.IsWhole) (a6 : Memref sig .tc .vmem S2048x512 .f32) (h6 : a6.IsWhole) (a7 : Memref sig .tc .vmem S512x512 .bf16) (h7 : a7.IsWhole) (a8 : Memref sig .tc .vmem S512 .f32) (h8 : a8.IsWhole) (a9 : Memref sig .tc .vmem S2048x512 .f32) (h9 : a9.IsWhole) (a10 : Memref sig .tc .vmem S1x512 .f32) (h10 : a10.IsWhole) (a11 : Memref sig .tc .vmem S1x512 .f32) (h11 : a11.IsWhole) (hc : ¬cond1_0 i) (x0 : Vec F S2048x512 .f32) (x1 : Vec F S1x512 .f32) (x2 : Vec F S1x512 .f32) (x3 : Vec F S512 .f32) (x4 : Vec F S512 .f32) (x5 : Vec F S2048x512 .f32) (x6 : Vec F S512x512 .bf16) (x7 : Vec F S512 .f32) (xo9 : Vec F S1x512 .f32) (xo10 : Vec F S1x512 .f32) :
    out1_B_9 c i a1 h1 a2 h2 a3 h3 a4 h4 a5 h5 a6 h6 a7 h7 a8 h8 a9 h9 a10 h10 a11 h11 hc x0 x1 x2 x3 x4 x5 x6 x7 xo9 xo10 = k1_pay1 (k1_pay5 x0 x2 x1 x3 x4 x5 x6 x7) xo9 := by
  unfold out1_B_9
  rw [View.read_writes_eq_canon _ _ _ (cover1_B_9 c i a1 h1 a2 h2 a3 h3 a4 h4 a5 h5 a6 h6 a7 h7 a8 h8 a9 h9 a10 h10 a11 h11 hc x0 x1 x2 x3 x4 x5 x6 x7 xo9 xo10)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h8.read_unread, h10.read_unread, h11.read_unread, View.ld_unit_zero (S := S2048x512) hz2, View.ld_unit_zero (S := S1x512) hz2, View.ld_unit_zero (S := S512x512) hz2, View.ld_unit_zero (S := S512) hz1, View.readCov_unit_zero (S := S1x512) _ hz2]

/-- At a later point the third output's buffer, holding what the point before left, ends at that row updated by
    the block's column sums of squares. -/
theorem o10B (c : Dev nD) (i : grid1.Coords) (a1 : Memref sig .tc .vmem S2048x512 .f32) (h1 : a1.IsWhole) (a2 : Memref sig .tc .vmem S1x512 .f32) (h2 : a2.IsWhole) (a3 : Memref sig .tc .vmem S1x512 .f32) (h3 : a3.IsWhole) (a4 : Memref sig .tc .vmem S512 .f32) (h4 : a4.IsWhole) (a5 : Memref sig .tc .vmem S512 .f32) (h5 : a5.IsWhole) (a6 : Memref sig .tc .vmem S2048x512 .f32) (h6 : a6.IsWhole) (a7 : Memref sig .tc .vmem S512x512 .bf16) (h7 : a7.IsWhole) (a8 : Memref sig .tc .vmem S512 .f32) (h8 : a8.IsWhole) (a9 : Memref sig .tc .vmem S2048x512 .f32) (h9 : a9.IsWhole) (a10 : Memref sig .tc .vmem S1x512 .f32) (h10 : a10.IsWhole) (a11 : Memref sig .tc .vmem S1x512 .f32) (h11 : a11.IsWhole) (hc : ¬cond1_0 i) (x0 : Vec F S2048x512 .f32) (x1 : Vec F S1x512 .f32) (x2 : Vec F S1x512 .f32) (x3 : Vec F S512 .f32) (x4 : Vec F S512 .f32) (x5 : Vec F S2048x512 .f32) (x6 : Vec F S512x512 .bf16) (x7 : Vec F S512 .f32) (xo9 : Vec F S1x512 .f32) (xo10 : Vec F S1x512 .f32) :
    out1_B_10 c i a1 h1 a2 h2 a3 h3 a4 h4 a5 h5 a6 h6 a7 h7 a8 h8 a9 h9 a10 h10 a11 h11 hc x0 x1 x2 x3 x4 x5 x6 x7 xo9 xo10 = k1_pay2 (k1_pay5 x0 x2 x1 x3 x4 x5 x6 x7) xo10 := by
  unfold out1_B_10
  rw [View.read_writes_eq_canon _ _ _ (cover1_B_10 c i a1 h1 a2 h2 a3 h3 a4 h4 a5 h5 a6 h6 a7 h7 a8 h8 a9 h9 a10 h10 a11 h11 hc x0 x1 x2 x3 x4 x5 x6 x7 xo9 xo10)]
  unfold kernelRun1_B
  dsimp only
  sl_unfold_words
  rw [View.canon_unit_zero hz2]
  simp only [View.readAt_eq_ld, h1.read_unread, h2.read_unread, h3.read_unread, h4.read_unread, h5.read_unread, h6.read_unread, h7.read_unread, h8.read_unread, h10.read_unread, h11.read_unread, View.ld_unit_zero (S := S2048x512) hz2, View.ld_unit_zero (S := S1x512) hz2, View.ld_unit_zero (S := S512x512) hz2, View.ld_unit_zero (S := S512) hz1, View.readCov_unit_zero (S := S1x512) _ hz2]

/-! ## The body's arithmetic at an index, over the extended reals -/

/-- The product of a 2048 × 512 block by a 512 × 512 matrix onto zero, at (p, q): the sum over the contracted
    coordinate of the products of the entries. -/
theorem mm_apply (A : FVec Ideal S2048x512 .bf16) (B : FVec Ideal S512x512 .bf16) (p : Fin 2048) (q : Fin 512) :
    matmul dot_S2048x512_S512x512_S2048x512_1_0_0_1_n_n none A B (constant (F := Ideal) S2048x512 .f32 0x00000000#32) (ix2 p q)
      = ∑ t : Fin 512, A (ix2 p t) * B (ix2 t q) := by
  refine (Ideal.matmul_constant_zero_apply dot_S2048x512_S512x512_S2048x512_1_0_0_1_n_n none A B (ix2 p q)).trans ?_
  rw [← Equiv.sum_comp (contrEquiv1 dot_S2048x512_S512x512_S2048x512_1_0_0_1_n_n 512 rfl rfl).symm]
  refine Finset.sum_congr rfl fun t _ => ?_
  have c2 := contrEquiv1_symm_val dot_S2048x512_S512x512_S2048x512_1_0_0_1_n_n 512 rfl rfl t
  have l2 : (dot_S2048x512_S512x512_S2048x512_1_0_0_1_n_n).lhsIdx (ix2 p q) ((contrEquiv1 _ 512 rfl rfl).symm t) = ix2 p t := by
    funext ax; apply Fin.ext
    match ax with
    | ⟨0, _⟩ => simp [DotDims.lhsIdx, dot_S2048x512_S512x512_S2048x512_1_0_0_1_n_n]; rfl
    | ⟨1, _⟩ => simp [DotDims.lhsIdx, dot_S2048x512_S512x512_S2048x512_1_0_0_1_n_n]; exact c2
  have r2 : (dot_S2048x512_S512x512_S2048x512_1_0_0_1_n_n).rhsIdx (ix2 p q) ((contrEquiv1 _ 512 rfl rfl).symm t) = ix2 t q := by
    funext ax; apply Fin.ext
    match ax with
    | ⟨0, _⟩ => simp [DotDims.rhsIdx, dot_S2048x512_S512x512_S2048x512_1_0_0_1_n_n]; exact c2
    | ⟨1, _⟩ => simp [DotDims.rhsIdx, dot_S2048x512_S512x512_S2048x512_1_0_0_1_n_n]; rfl
  rw [l2, r2]

/-- The sum of a 2048 × 512 block down its rows, at column q. -/
theorem colred_apply (v : FVec Ideal S2048x512 .f32) (q : Fin 512) :
    multiReduction .add [0] S512 v 0x00000000#32 reduces_S2048x512_S512 (.inl rfl) rfl (ix1 q)
      = ∑ r : Fin 2048, v (ix2 r q) := by
  refine (Ideal.multiReduction_add_single v 0x00000000#32 reduces_S2048x512_S512 (.inl rfl) rfl (ix1 q)).trans ?_
  refine Finset.sum_congr rfl fun r _ => congrArg v ?_
  funext ax; apply Fin.ext
  match ax with
  | ⟨0, _⟩ => rfl
  | ⟨1, _⟩ => rfl

/-- A reciprocal root at an index is the reciprocal root of the element. -/
theorem rsqrt_apply {s : Shape} {φ : FTy} (a : FVec Ideal s φ) (i : s.Idx) : rsqrt a i = Ideal.rsqrt (a i) := rfl

/-- The block's second-layer pre-activation at (p, q): the normalised, rectified, masked and rescaled row p of the
    input block against column q of the weight, plus the bias. -/
theorem pay5_apply (x0 : Vec Ideal S2048x512 .f32) (xv xm : Vec Ideal S1x512 .f32) (xg xb : Vec Ideal S512 .f32)
    (xk : Vec Ideal S2048x512 .f32) (xw : Vec Ideal S512x512 .bf16) (xc : Vec Ideal S512 .f32) (p : Fin 2048) (q : Fin 512) :
    k1_pay5 x0 xv xm xg xb xk xw xc (ix2 p q)
      = Spec.lin (Spec.actK (fun i j => x0 (ix2 i j)) (fun j => xm (ix2 (0 : Fin 1) j)) (fun j => xv (ix2 (0 : Fin 1) j))
          (fun j => xg (ix1 j)) (fun j => xb (ix1 j)) (fun i j => xk (ix2 i j))) (fun j t => xw (ix2 t j)) (fun j => xc (ix1 j)) p q := by
  unfold k1_pay5
  refine (addf_apply _ _ (ix2 p q)).trans ?_
  unfold Spec.lin
  refine congrArg₂ (· + ·) ?_ ?_
  · refine (mm_apply _ _ p q).trans ?_
    refine Finset.sum_congr rfl fun t _ => ?_
    refine congrArg₂ (· * ·) ?_ ?_
    · unfold Spec.actK
      simp only [truncf_apply, mulf_apply, maximumf_apply, addf_apply, subf_apply, broadcast_apply, rsqrt_apply,
        broadcastTo_1b_ab_apply, shapeCast_self, shapeCast_a_1a_apply]
      rfl
    · exact congrFun (shapeCast_self xw _) (ix2 t q)
  · exact (broadcastTo_1b_ab_apply _ _ p q).trans (shapeCast_a_1a_apply xc _ 0 q)

/-- The running column sums after a block: what was there plus the block's column sums. -/
theorem pay1_apply (v : FVec Ideal S2048x512 .f32) (acc : Vec Ideal S1x512 .f32) (q : Fin 512) :
    k1_pay1 v acc (ix2 (0 : Fin 1) q) = acc (ix2 (0 : Fin 1) q) + ∑ r : Fin 2048, v (ix2 r q) := by
  unfold k1_pay1
  dsimp only
  refine (addf_apply _ _ _).trans ?_
  refine congrArg₂ (· + ·) (congrFun (shapeCast_self acc _) _) ?_
  exact (shapeCast_a_1a_apply _ _ 0 q).trans (colred_apply v q)

/-- The running column sums of squares after a block: what was there plus the block's column sums of squares. -/
theorem pay2_apply (v : FVec Ideal S2048x512 .f32) (acc : Vec Ideal S1x512 .f32) (q : Fin 512) :
    k1_pay2 v acc (ix2 (0 : Fin 1) q) = acc (ix2 (0 : Fin 1) q) + ∑ r : Fin 2048, v (ix2 r q) * v (ix2 r q) := by
  unfold k1_pay2
  dsimp only
  refine (addf_apply _ _ _).trans ?_
  refine congrArg₂ (· + ·) (congrFun (shapeCast_self acc _) _) ?_
  exact (shapeCast_a_1a_apply _ _ 0 q).trans (colred_apply (mulf v v) q)

/-- The reset of the sums stores zero. -/
theorem pay3_apply (y : S1x512.Idx) : (k1_pay3 (F := Ideal)) y = 0 := Ideal.ofBits_zero_f32
/-- The reset of the sums of squares stores zero. -/
theorem pay4_apply (y : S1x512.Idx) : (k1_pay4 (F := Ideal)) y = 0 := Ideal.ofBits_zero_f32

variable (V : Entry)

/-! ## The windows' blocks, read where the index maps say -/

/-- The printed index maps, decided over the grid: the row blocks of the activations, of the mask and of the first
    output move with the point; every other window stays on its one block. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 1) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

/-- Each input window's block at a point, under its literal type. -/
abbrev bH (c : Dev nD) (t : Fin cfg1.N) : Vec Ideal S2048x512 .f32 := iblk1 V c 0 t
abbrev bM (c : Dev nD) (t : Fin cfg1.N) : Vec Ideal S1x512 .f32 := iblk1 V c 1 t
abbrev bV (c : Dev nD) (t : Fin cfg1.N) : Vec Ideal S1x512 .f32 := iblk1 V c 2 t
abbrev bG (c : Dev nD) (t : Fin cfg1.N) : Vec Ideal S512 .f32 := iblk1 V c 3 t
abbrev bB (c : Dev nD) (t : Fin cfg1.N) : Vec Ideal S512 .f32 := iblk1 V c 4 t
abbrev bK (c : Dev nD) (t : Fin cfg1.N) : Vec Ideal S2048x512 .f32 := iblk1 V c 5 t
abbrev bW (c : Dev nD) (t : Fin cfg1.N) : Vec Ideal S512x512 .bf16 := iblk1 V c 6 t
abbrev bC (c : Dev nD) (t : Fin cfg1.N) : Vec Ideal S512 .f32 := iblk1 V c 7 t

/-- Row p of the activations' block at point t is row 2048·t + p of the activations. -/
theorem bH_apply (c : Dev nD) (t : Fin cfg1.N) (p : Fin 2048) (j : Fin 512) (i : Fin 32768) (hi : i.val = 2048 * t.val + p.val) :
    bH V c t (ix2 p j) = Hin1 V c i j := by
  obtain ⟨e00, e01, e10, e11, e20, e21, e30, e40, e50, e51, e60, e61, e70, e80, e81, e90, e91, e100, e101⟩ := idx1 t
  unfold bH iblk1 Hin1
  rw [View.read_apply]
  show (V c main_v6_0 : Vec Ideal S32768x512 .f32) _ = (V c main_v6_0 : Vec Ideal S32768x512 .f32) _
  congr 1
  funext a; apply Fin.ext
  match a with
  | ⟨0, _⟩ => show win1_0.index t (0 : Fin 2) * 2048 + 1 * p.val = i.val; rw [e00, hi]; omega
  | ⟨1, _⟩ => show win1_0.index t (1 : Fin 2) * 512 + 1 * j.val = j.val; rw [e01]; omega

/-- Row p of the mask's block at point t is row 2048·t + p of the mask. -/
theorem bK_apply (c : Dev nD) (t : Fin cfg1.N) (p : Fin 2048) (j : Fin 512) (i : Fin 32768) (hi : i.val = 2048 * t.val + p.val) :
    bK V c t (ix2 p j) = Msk1 V c i j := by
  obtain ⟨e00, e01, e10, e11, e20, e21, e30, e40, e50, e51, e60, e61, e70, e80, e81, e90, e91, e100, e101⟩ := idx1 t
  unfold bK iblk1 Msk1
  rw [View.read_apply]
  show (V c main_arg11 : Vec Ideal S32768x512 .f32) _ = (V c main_arg11 : Vec Ideal S32768x512 .f32) _
  congr 1
  funext a; apply Fin.ext
  match a with
  | ⟨0, _⟩ => show win1_5.index t (0 : Fin 2) * 2048 + 1 * p.val = i.val; rw [e50, hi]; omega
  | ⟨1, _⟩ => show win1_5.index t (1 : Fin 2) * 512 + 1 * j.val = j.val; rw [e51]; omega

/-- The mean row's one block is the mean row. -/
theorem bM_apply (c : Dev nD) (t : Fin cfg1.N) (j : Fin 512) : bM V c t (ix2 (0 : Fin 1) j) = Mean1 V c j := by
  obtain ⟨e00, e01, e10, e11, e20, e21, e30, e40, e50, e51, e60, e61, e70, e80, e81, e90, e91, e100, e101⟩ := idx1 t
  unfold bM iblk1 Mean1
  rw [View.read_apply]
  show (V c main_v8 : Vec Ideal S1x512 .f32) _ = (V c main_v8 : Vec Ideal S1x512 .f32) _
  congr 1
  funext a; apply Fin.ext
  match a with
  | ⟨0, _⟩ => show win1_1.index t (0 : Fin 2) * 1 + 1 * 0 = 0; rw [e10]
  | ⟨1, _⟩ => show win1_1.index t (1 : Fin 2) * 512 + 1 * j.val = j.val; rw [e11]; omega

/-- The variance row's one block is the variance row. -/
theorem bV_apply (c : Dev nD) (t : Fin cfg1.N) (j : Fin 512) : bV V c t (ix2 (0 : Fin 1) j) = Var1 V c j := by
  obtain ⟨e00, e01, e10, e11, e20, e21, e30, e40, e50, e51, e60, e61, e70, e80, e81, e90, e91, e100, e101⟩ := idx1 t
  unfold bV iblk1 Var1
  rw [View.read_apply]
  show (V c main_v12 : Vec Ideal S1x512 .f32) _ = (V c main_v12 : Vec Ideal S1x512 .f32) _
  congr 1
  funext a; apply Fin.ext
  match a with
  | ⟨0, _⟩ => show win1_2.index t (0 : Fin 2) * 1 + 1 * 0 = 0; rw [e20]
  | ⟨1, _⟩ => show win1_2.index t (1 : Fin 2) * 512 + 1 * j.val = j.val; rw [e21]; omega

/-- The scale vector's one block is the scale vector. -/
theorem bG_apply (c : Dev nD) (t : Fin cfg1.N) (j : Fin 512) : bG V c t (ix1 j) = Gam1 V c j := by
  obtain ⟨e00, e01, e10, e11, e20, e21, e30, e40, e50, e51, e60, e61, e70, e80, e81, e90, e91, e100, e101⟩ := idx1 t
  unfold bG iblk1 Gam1
  rw [View.read_apply]
  show (V c main_arg3 : Vec Ideal S512 .f32) _ = (V c main_arg3 : Vec Ideal S512 .f32) _
  congr 1
  funext a; apply Fin.ext
  match a with
  | ⟨0, _⟩ => show win1_3.index t (0 : Fin 1) * 512 + 1 * j.val = j.val; rw [e30]; omega

/-- The shift vector's one block is the shift vector. -/
theorem bB_apply (c : Dev nD) (t : Fin cfg1.N) (j : Fin 512) : bB V c t (ix1 j) = Bet1 V c j := by
  obtain ⟨e00, e01, e10, e11, e20, e21, e30, e40, e50, e51, e60, e61, e70, e80, e81, e90, e91, e100, e101⟩ := idx1 t
  unfold bB iblk1 Bet1
  rw [View.read_apply]
  show (V c main_arg4 : Vec Ideal S512 .f32) _ = (V c main_arg4 : Vec Ideal S512 .f32) _
  congr 1
  funext a; apply Fin.ext
  match a with
  | ⟨0, _⟩ => show win1_4.index t (0 : Fin 1) * 512 + 1 * j.val = j.val; rw [e40]; omega

/-- The weight's one block is the transposed weight: entry (a, b) of the block is entry (b, a) of the weight read as [out, in]. -/
theorem bW_apply (c : Dev nD) (t : Fin cfg1.N) (a b : Fin 512) : bW V c t (ix2 a b) = Wt1 V c b a := by
  obtain ⟨e00, e01, e10, e11, e20, e21, e30, e40, e50, e51, e60, e61, e70, e80, e81, e90, e91, e100, e101⟩ := idx1 t
  unfold bW iblk1 Wt1
  rw [View.read_apply]
  show (V c main_v3 : Vec Ideal S512x512 .bf16) _ = (V c main_v3 : Vec Ideal S512x512 .bf16) _
  congr 1
  funext ax; apply Fin.ext
  match ax with
  | ⟨0, _⟩ => show win1_6.index t (0 : Fin 2) * 512 + 1 * a.val = a.val; rw [e60]; omega
  | ⟨1, _⟩ => show win1_6.index t (1 : Fin 2) * 512 + 1 * b.val = b.val; rw [e61]; omega

/-- The bias vector's one block is the bias vector. -/
theorem bC_apply (c : Dev nD) (t : Fin cfg1.N) (j : Fin 512) : bC V c t (ix1 j) = B1 V c j := by
  obtain ⟨e00, e01, e10, e11, e20, e21, e30, e40, e50, e51, e60, e61, e70, e80, e81, e90, e91, e100, e101⟩ := idx1 t
  unfold bC iblk1 B1
  rw [View.read_apply]
  show (V c main_arg6 : Vec Ideal S512 .f32) _ = (V c main_arg6 : Vec Ideal S512 .f32) _
  congr 1
  funext a; apply Fin.ext
  match a with
  | ⟨0, _⟩ => show win1_7.index t (0 : Fin 1) * 512 + 1 * j.val = j.val; rw [e70]; omega

/-! ## What a point computes: rows 2048·t … 2048·t + 2047 of the second layer's pre-activation -/

/-- The block of the second layer's pre-activation the body computes at point t. -/
abbrev P5 (c : Dev nD) (t : Fin cfg1.N) : FVec Ideal S2048x512 .f32 :=
  k1_pay5 (bH V c t) (bV V c t) (bM V c t) (bG V c t) (bB V c t) (bK V c t) (bW V c t) (bC V c t)

/-- Its row p is row 2048·t + p of the pre-activation: a linear layer and the normalisation are row by row. -/
theorem P5_row (c : Dev nD) (t : Fin cfg1.N) (p : Fin 2048) (q : Fin 512) (i : Fin 32768) (hi : i.val = 2048 * t.val + p.val) :
    P5 V c t (ix2 p q) = H1 V c i q := by
  refine (pay5_apply (bH V c t) (bV V c t) (bM V c t) (bG V c t) (bB V c t) (bK V c t) (bW V c t) (bC V c t) p q).trans ?_
  unfold H1 Spec.lin Spec.actK
  simp only [fun j => bH_apply V c t p j i hi, fun j => bK_apply V c t p j i hi, bM_apply V c t, bV_apply V c t,
    bG_apply V c t, bB_apply V c t, bW_apply V c t, bC_apply V c t]

/-- The pre-activation by a row NUMBER, zero past the last row, so that partial sums run over ranges of row numbers. -/
def H1x (c : Dev nD) (i : ℕ) (q : Fin 512) : EReal := if h : i < 32768 then H1 V c ⟨i, h⟩ q else 0

theorem H1x_of_lt (c : Dev nD) (i : Fin 32768) (q : Fin 512) : H1x V c i.val q = H1 V c i q := by
  unfold H1x; rw [dif_pos i.isLt]

theorem P5_apply (c : Dev nD) (n : ℕ) (h : n < cfg1.N) (p : Fin 2048) (q : Fin 512) :
    P5 V c ⟨n, h⟩ (ix2 p q) = H1x V c (2048 * n + p.val) q := by
  have hN : cfg1.N = 16 := N_1
  have hlt : 2048 * n + p.val < 32768 := by have := p.isLt; omega
  unfold H1x; rw [dif_pos hlt]
  exact P5_row V c ⟨n, h⟩ p q ⟨_, hlt⟩ rfl

/-- A function of the block's column q summed over its rows is that function of the pre-activation summed over
    the row numbers 2048·t … 2048·t + 2047. -/
theorem blk_sum (c : Dev nD) (n : ℕ) (h : n < cfg1.N) (q : Fin 512) (g : EReal → EReal) :
    ∑ r : Fin 2048, g (P5 V c ⟨n, h⟩ (ix2 r q)) = ∑ r ∈ Finset.range 2048, g (H1x V c (2048 * n + r) q) := by
  rw [← Fin.sum_univ_eq_sum_range (fun r => g (H1x V c (2048 * n + r) q)) 2048]
  exact Finset.sum_congr rfl fun r _ => congrArg g (P5_apply V c n h r q)

/-! ## The outputs' staging buffers after each point -/

/-- At the first point: the block, and the two statistics rows reset to zero and then updated. -/
theorem outs_A (c : Dev nD) (t : Fin cfg1.N) (h0 : t.val % 16 = 0) :
    outsAt1 V c t.val t.isLt
      = (P5 V c t, k1_pay1 (P5 V c t) (k1_pay3 (F := Ideal)), k1_pay2 (P5 V c t) (k1_pay4 (F := Ideal))) :=
  (outsAt1_A V c t h0).trans (congrArg₂ Prod.mk (o8A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (bH V c t) (bM V c t) (bV V c t) (bG V c t) (bB V c t) (bK V c t) (bW V c t) (bC V c t))
    (congrArg₂ Prod.mk (o9A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (bH V c t) (bM V c t) (bV V c t) (bG V c t) (bB V c t) (bK V c t) (bW V c t) (bC V c t)) (o10A (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (bH V c t) (bM V c t) (bV V c t) (bG V c t) (bB V c t) (bK V c t) (bW V c t) (bC V c t))))

/-- At every later point: the block, and the two statistics rows updated from what the point before left. -/
theorem outs_B (c : Dev nD) (t : Fin cfg1.N) (h0 : ¬t.val % 16 = 0) :
    outsAt1 V c t.val t.isLt
      = (P5 V c t, k1_pay1 (P5 V c t) (outsAt1 V c (t.val - 1) (Nat.lt_of_le_of_lt (Nat.sub_le _ _) t.isLt)).2.1, k1_pay2 (P5 V c t) (outsAt1 V c (t.val - 1) (Nat.lt_of_le_of_lt (Nat.sub_le _ _) t.isLt)).2.2) :=
  (outsAt1_B V c t h0).trans (congrArg₂ Prod.mk (o8B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (bH V c t) (bM V c t) (bV V c t) (bG V c t) (bB V c t) (bK V c t) (bW V c t) (bC V c t) (outsAt1 V c (t.val - 1) (Nat.lt_of_le_of_lt (Nat.sub_le _ _) t.isLt)).2.1 (outsAt1 V c (t.val - 1) (Nat.lt_of_le_of_lt (Nat.sub_le _ _) t.isLt)).2.2)
    (congrArg₂ Prod.mk (o9B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (bH V c t) (bM V c t) (bV V c t) (bG V c t) (bB V c t) (bK V c t) (bW V c t) (bC V c t) (outsAt1 V c (t.val - 1) (Nat.lt_of_le_of_lt (Nat.sub_le _ _) t.isLt)).2.1 (outsAt1 V c (t.val - 1) (Nat.lt_of_le_of_lt (Nat.sub_le _ _) t.isLt)).2.2) (o10B (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (bH V c t) (bM V c t) (bV V c t) (bG V c t) (bB V c t) (bK V c t) (bW V c t) (bC V c t) (outsAt1 V c (t.val - 1) (Nat.lt_of_le_of_lt (Nat.sub_le _ _) t.isLt)).2.1 (outsAt1 V c (t.val - 1) (Nat.lt_of_le_of_lt (Nat.sub_le _ _) t.isLt)).2.2)))

/-- THE INVARIANT, by induction on the point: after point n the first output's buffer holds rows 2048·n … of the
    pre-activation, and the two statistics rows hold the column sums and the column sums of squares of its first
    2048·(n + 1) rows. -/
theorem outs_inv (c : Dev nD) : ∀ (n : ℕ) (h : n < cfg1.N),
    (∀ (p : Fin 2048) (q : Fin 512), (outsAt1 V c n h).1 (ix2 p q) = H1x V c (2048 * n + p.val) q)
    ∧ (∀ q : Fin 512, (outsAt1 V c n h).2.1 (ix2 (0 : Fin 1) q) = ∑ i ∈ Finset.range (2048 * (n + 1)), H1x V c i q)
    ∧ (∀ q : Fin 512, (outsAt1 V c n h).2.2 (ix2 (0 : Fin 1) q)
        = ∑ i ∈ Finset.range (2048 * (n + 1)), H1x V c i q * H1x V c i q)
  | 0, h => by
    have e : outsAt1 V c 0 h = _ := outs_A V c ⟨0, h⟩ rfl
    rw [e]
    dsimp only
    refine ⟨fun p q => P5_apply V c 0 h p q, fun q => ?_, fun q => ?_⟩
    · refine (pay1_apply (P5 V c ⟨0, h⟩) (k1_pay3 (F := Ideal)) q).trans ?_
      rw [pay3_apply, zero_add]
      have hb := blk_sum V c 0 h q (fun x => x)
      simp only [Nat.mul_zero, Nat.zero_add] at hb
      exact hb
    · refine (pay2_apply (P5 V c ⟨0, h⟩) (k1_pay4 (F := Ideal)) q).trans ?_
      rw [pay4_apply, zero_add]
      have hb := blk_sum V c 0 h q (fun x => x * x)
      simp only [Nat.mul_zero, Nat.zero_add] at hb
      exact hb
  | n + 1, h => by
    have hN : cfg1.N = 16 := N_1
    have hB : ¬(⟨n + 1, h⟩ : Fin cfg1.N).val % 16 = 0 := by dsimp only; omega
    obtain ⟨-, ih9, ih10⟩ := outs_inv c n (Nat.lt_of_succ_lt h)
    have e : outsAt1 V c (n + 1) h = _ := outs_B V c ⟨n + 1, h⟩ hB
    rw [e]
    dsimp only
    refine ⟨fun p q => P5_apply V c (n + 1) h p q, fun q => ?_, fun q => ?_⟩
    · refine (pay1_apply (P5 V c ⟨n + 1, h⟩) _ q).trans ?_
      refine (congrArg₂ (· + ·) (ih9 q) (blk_sum V c (n + 1) h q (fun x => x))).trans ?_
      rw [show 2048 * (n + 1 + 1) = 2048 * (n + 1) + 2048 by omega, Finset.sum_range_add]
    · refine (pay2_apply (P5 V c ⟨n + 1, h⟩) _ q).trans ?_
      refine (congrArg₂ (· + ·) (ih10 q) (blk_sum V c (n + 1) h q (fun x => x * x))).trans ?_
      rw [show 2048 * (n + 1 + 1) = 2048 * (n + 1) + 2048 by omega, Finset.sum_range_add]

/-! ## The first output array: every point writes its block of rows back -/

/-- The second layer's pre-activation as contents of the first output array. -/
def G8 (c : Dev nD) : Vec Ideal S32768x512 .f32 := fun i => H1 V c ⟨(i 0).val, idx2_lt0 i⟩ ⟨(i 1).val, idx2_lt1 i⟩

/-- What point t writes back is block t of it: row p of the block sits at row 2048·t + p of the array. -/
theorem flushed8_eq (c : Dev nD) (t : Fin cfg1.N) :
    (dat1 V c).flushed 8 t = ((cfg1.win 8).blk t).view.read (Elt Ideal) (G8 V c) := by
  have hN : cfg1.N = 16 := N_1
  obtain ⟨e00, e01, e10, e11, e20, e21, e30, e40, e50, e51, e60, e61, e70, e80, e81, e90, e91, e100, e101⟩ := idx1 t
  have key : ∀ (p : Fin 2048) (q : Fin 512), (outsAt1 V c t.val t.isLt).1 (ix2 p q)
      = G8 V c (((cfg1.win 8).blk t).view.emb (ix2 p q)) := fun p q => by
    have hlt : 2048 * t.val + p.val < 32768 := by have := t.isLt; have := p.isLt; omega
    refine ((outs_inv V c t.val t.isLt).1 p q).trans ?_
    unfold H1x G8
    rw [dif_pos hlt]
    have e0 : (⟨((((cfg1.win 8).blk t).view.emb (ix2 p q)) 0).val, idx2_lt0 _⟩ : Fin 32768) = ⟨2048 * t.val + p.val, hlt⟩ :=
      Fin.ext (by show win1_8.index t (0 : Fin 2) * 2048 + 1 * p.val = 2048 * t.val + p.val; rw [e80]; omega)
    have e1 : (⟨((((cfg1.win 8).blk t).view.emb (ix2 p q)) 1).val, idx2_lt1 _⟩ : Fin 512) = q :=
      Fin.ext (by show win1_8.index t (1 : Fin 2) * 512 + 1 * q.val = q.val; rw [e81]; omega)
    rw [e0, e1]
  show (cfg1.win 8).cut (grid1.coords t) ((dat1 V c).after 8 t) = _
  rw [after1_8]
  funext y
  obtain ⟨p, q, rfl⟩ : ∃ (p : Fin 2048) (q : Fin 512), y = ix2 p q := ⟨y 0, y 1, eq_ix2 (n0 := 2048) (n1 := 512) y⟩
  exact key p q

/-- An index of the array is in point t's block iff each coordinate is in the block's range on its axis. -/
theorem mem_blk8 (t : Fin cfg1.N) (i : S32768x512.Idx) :
    i ∈ ((cfg1.win 8).blk t).view.set ↔ ∀ a : Fin 2, win1_8.index t a * S2048x512.size a ≤ (i a).val ∧ (i a).val < win1_8.index t a * S2048x512.size a + S2048x512.size a := by
  show i ∈ ((View.whole main_v13_0).slice (win1_8.rect t)).set ↔ _
  rw [View.set_slice_whole, Rect.mem_set_unit]
  exact Iff.rfl

/-- Row r of the array is in the block of point r / 2048. -/
theorem cover8 (i : S32768x512.Idx) : ∃ t : Fin cfg1.N, (cfg1.win 8).flush t = true ∧ i ∈ ((cfg1.win 8).blk t).view.set := by
  have hN : cfg1.N = 16 := N_1
  have h0 : (i 0).val < 32768 := idx2_lt0 i
  have h1 : (i 1).val < 512 := idx2_lt1 i
  refine ⟨⟨(i 0).val / 2048, by omega⟩, flush1_8 _, ?_⟩
  rw [mem_blk8]
  obtain ⟨e00, e01, e10, e11, e20, e21, e30, e40, e50, e51, e60, e61, e70, e80, e81, e90, e91, e100, e101⟩ := idx1 (⟨(i 0).val / 2048, by omega⟩ : Fin cfg1.N)
  intro a
  match a with
  | ⟨0, _⟩ =>
    show win1_8.index _ (0 : Fin 2) * 2048 ≤ (i 0).val ∧ (i 0).val < win1_8.index _ (0 : Fin 2) * 2048 + 2048
    rw [e80]; dsimp only; omega
  | ⟨1, _⟩ =>
    show win1_8.index _ (1 : Fin 2) * 512 ≤ (i 1).val ∧ (i 1).val < win1_8.index _ (1 : Fin 2) * 512 + 512
    rw [e81]; omega

/-- So the first output array ends holding the pre-activation. -/
theorem final8 (c : Dev nD) : (dat1 V c).arrAt 8 cfg1.N = G8 V c :=
  (dat1 V c).arrAt_eq_of_cover 8 (G8 V c) (fun t _ => flushed8_eq V c t) (cover8)

/-! ## The two statistics rows: one block, written back after the last point -/

/-- The pre-activation's column sums as contents of the second output row. -/
def G9 (c : Dev nD) : Vec Ideal S1x512 .f32 := fun i => Spec.colSum (H1 V c) ⟨(i 1).val, idx2_lt1 i⟩

/-- Reading a row's contents through a point's block reads them where the block's index sits in the row. -/
theorem read_blk9 (t : Fin cfg1.N) (G : Vec Ideal S1x512 .f32) (u : Fin 1) (q : Fin 512) :
    ((cfg1.win 9).blk t).view.read (Elt Ideal) G (ix2 u q) = G (((cfg1.win 9).blk t).view.emb (ix2 u q)) := rfl

/-- The one write-back of this row, at the last point, writes it: the invariant after point 15 is the sum over all
    32768 rows, and the row's one block is the row. -/
theorem flushed9_eq (c : Dev nD) (t : Fin cfg1.N) (hf : (cfg1.win 9).flush t = true) :
    (dat1 V c).flushed 9 t = ((cfg1.win 9).blk t).view.read (Elt Ideal) (G9 V c) := by
  have hN : cfg1.N = 16 := N_1
  have h15 : t.val = 15 := by have := (flush1_9 t).mp hf; have := t.isLt; omega
  obtain ⟨e00, e01, e10, e11, e20, e21, e30, e40, e50, e51, e60, e61, e70, e80, e81, e90, e91, e100, e101⟩ := idx1 t
  have key : ∀ (u : Fin 1) (q : Fin 512), (outsAt1 V c t.val t.isLt).2.1 (ix2 u q)
      = G9 V c (((cfg1.win 9).blk t).view.emb (ix2 u q)) := fun u q => by
    obtain rfl : u = 0 := Subsingleton.elim _ _
    refine ((outs_inv V c t.val t.isLt).2.1 q).trans ?_
    rw [h15]
    show ∑ i ∈ Finset.range 32768, H1x V c i q = _
    rw [Finset.sum_range]
    unfold G9 Spec.colSum
    refine Finset.sum_congr rfl fun i _ => ?_
    have eq : (⟨((((cfg1.win 9).blk t).view.emb (ix2 (0 : Fin 1) q)) 1).val, idx2_lt1 _⟩ : Fin 512) = q :=
      Fin.ext (by show win1_9.index t (1 : Fin 2) * 512 + 1 * q.val = q.val; rw [e91]; omega)
    rw [eq, H1x_of_lt]
  show (cfg1.win 9).cut (grid1.coords t) ((dat1 V c).after 9 t) = _
  rw [after1_9]
  funext y
  obtain ⟨u, q, rfl⟩ : ∃ (u : Fin 1) (q : Fin 512), y = ix2 u q := ⟨y 0, y 1, eq_ix2 (n0 := 1) (n1 := 512) y⟩
  exact (key u q).trans (read_blk9 t (G9 V c) u q).symm

/-- An index of the row is in a point's block iff each coordinate is in the block's range on its axis. -/
theorem mem_blk9 (t : Fin cfg1.N) (i : S1x512.Idx) :
    i ∈ ((cfg1.win 9).blk t).view.set ↔ ∀ a : Fin 2, win1_9.index t a * S1x512.size a ≤ (i a).val ∧ (i a).val < win1_9.index t a * S1x512.size a + S1x512.size a := by
  show i ∈ ((View.whole main_v13_1).slice (win1_9.rect t)).set ↔ _
  rw [View.set_slice_whole, Rect.mem_set_unit]
  exact Iff.rfl

/-- The last point's block is the whole row. -/
theorem cover9 (i : S1x512.Idx) : ∃ t : Fin cfg1.N, (cfg1.win 9).flush t = true ∧ i ∈ ((cfg1.win 9).blk t).view.set := by
  have hN : cfg1.N = 16 := N_1
  refine ⟨⟨15, by omega⟩, (flush1_9 _).mpr rfl, ?_⟩
  rw [mem_blk9]
  obtain ⟨e00, e01, e10, e11, e20, e21, e30, e40, e50, e51, e60, e61, e70, e80, e81, e90, e91, e100, e101⟩ := idx1 (⟨15, by omega⟩ : Fin cfg1.N)
  intro a
  match a with
  | ⟨0, _⟩ =>
    show win1_9.index _ (0 : Fin 2) * 1 ≤ (i 0).val ∧ (i 0).val < win1_9.index _ (0 : Fin 2) * 1 + 1
    have h0 : (i 0).val < 1 := idx2_lt0 i
    rw [e90]; omega
  | ⟨1, _⟩ =>
    show win1_9.index _ (1 : Fin 2) * 512 ≤ (i 1).val ∧ (i 1).val < win1_9.index _ (1 : Fin 2) * 512 + 512
    have h1 : (i 1).val < 512 := idx2_lt1 i
    rw [e91]; omega

/-- So the row ends holding it. -/
theorem final9 (c : Dev nD) : (dat1 V c).arrAt 9 cfg1.N = G9 V c :=
  (dat1 V c).arrAt_eq_of_cover 9 (G9 V c) (flushed9_eq V c) (cover9)

/-- The pre-activation's column sums of squares as contents of the third output row. -/
def G10 (c : Dev nD) : Vec Ideal S1x512 .f32 := fun i => Spec.colSumSq (H1 V c) ⟨(i 1).val, idx2_lt1 i⟩

/-- Reading a row's contents through a point's block reads them where the block's index sits in the row. -/
theorem read_blk10 (t : Fin cfg1.N) (G : Vec Ideal S1x512 .f32) (u : Fin 1) (q : Fin 512) :
    ((cfg1.win 10).blk t).view.read (Elt Ideal) G (ix2 u q) = G (((cfg1.win 10).blk t).view.emb (ix2 u q)) := rfl

/-- The one write-back of this row, at the last point, writes it: the invariant after point 15 is the sum over all
    32768 rows, and the row's one block is the row. -/
theorem flushed10_eq (c : Dev nD) (t : Fin cfg1.N) (hf : (cfg1.win 10).flush t = true) :
    (dat1 V c).flushed 10 t = ((cfg1.win 10).blk t).view.read (Elt Ideal) (G10 V c) := by
  have hN : cfg1.N = 16 := N_1
  have h15 : t.val = 15 := by have := (flush1_10 t).mp hf; have := t.isLt; omega
  obtain ⟨e00, e01, e10, e11, e20, e21, e30, e40, e50, e51, e60, e61, e70, e80, e81, e90, e91, e100, e101⟩ := idx1 t
  have key : ∀ (u : Fin 1) (q : Fin 512), (outsAt1 V c t.val t.isLt).2.2 (ix2 u q)
      = G10 V c (((cfg1.win 10).blk t).view.emb (ix2 u q)) := fun u q => by
    obtain rfl : u = 0 := Subsingleton.elim _ _
    refine ((outs_inv V c t.val t.isLt).2.2 q).trans ?_
    rw [h15]
    show ∑ i ∈ Finset.range 32768, H1x V c i q * H1x V c i q = _
    rw [Finset.sum_range]
    unfold G10 Spec.colSumSq
    refine Finset.sum_congr rfl fun i _ => ?_
    have eq : (⟨((((cfg1.win 10).blk t).view.emb (ix2 (0 : Fin 1) q)) 1).val, idx2_lt1 _⟩ : Fin 512) = q :=
      Fin.ext (by show win1_10.index t (1 : Fin 2) * 512 + 1 * q.val = q.val; rw [e101]; omega)
    rw [eq, H1x_of_lt]
  show (cfg1.win 10).cut (grid1.coords t) ((dat1 V c).after 10 t) = _
  rw [after1_10]
  funext y
  obtain ⟨u, q, rfl⟩ : ∃ (u : Fin 1) (q : Fin 512), y = ix2 u q := ⟨y 0, y 1, eq_ix2 (n0 := 1) (n1 := 512) y⟩
  exact (key u q).trans (read_blk10 t (G10 V c) u q).symm

/-- An index of the row is in a point's block iff each coordinate is in the block's range on its axis. -/
theorem mem_blk10 (t : Fin cfg1.N) (i : S1x512.Idx) :
    i ∈ ((cfg1.win 10).blk t).view.set ↔ ∀ a : Fin 2, win1_10.index t a * S1x512.size a ≤ (i a).val ∧ (i a).val < win1_10.index t a * S1x512.size a + S1x512.size a := by
  show i ∈ ((View.whole main_v13_2).slice (win1_10.rect t)).set ↔ _
  rw [View.set_slice_whole, Rect.mem_set_unit]
  exact Iff.rfl

/-- The last point's block is the whole row. -/
theorem cover10 (i : S1x512.Idx) : ∃ t : Fin cfg1.N, (cfg1.win 10).flush t = true ∧ i ∈ ((cfg1.win 10).blk t).view.set := by
  have hN : cfg1.N = 16 := N_1
  refine ⟨⟨15, by omega⟩, (flush1_10 _).mpr rfl, ?_⟩
  rw [mem_blk10]
  obtain ⟨e00, e01, e10, e11, e20, e21, e30, e40, e50, e51, e60, e61, e70, e80, e81, e90, e91, e100, e101⟩ := idx1 (⟨15, by omega⟩ : Fin cfg1.N)
  intro a
  match a with
  | ⟨0, _⟩ =>
    show win1_10.index _ (0 : Fin 2) * 1 ≤ (i 0).val ∧ (i 0).val < win1_10.index _ (0 : Fin 2) * 1 + 1
    have h0 : (i 0).val < 1 := idx2_lt0 i
    rw [e100]; omega
  | ⟨1, _⟩ =>
    show win1_10.index _ (1 : Fin 2) * 512 ≤ (i 1).val ∧ (i 1).val < win1_10.index _ (1 : Fin 2) * 512 + 512
    have h1 : (i 1).val < 512 := idx2_lt1 i
    rw [e101]; omega

/-- So the row ends holding it. -/
theorem final10 (c : Dev nD) : (dat1 V c).arrAt 10 cfg1.N = G10 V c :=
  (dat1 V c).arrAt_eq_of_cover 10 (G10 V c) (flushed10_eq V c) (cover10)

end Reg1

open Reg1

variable (V : Entry)

theorem reg1_h (c : Dev nD) (i : Fin 32768) (j : Fin 512) :
    (dat1 (F := Ideal) V c).arrAt 8 cfg1.N (ix2 i j) = H1 V c i j :=
  congrFun (final8 V c) (ix2 i j)

theorem reg1_sum (c : Dev nD) (j : Fin 512) :
    (dat1 (F := Ideal) V c).arrAt 9 cfg1.N (ix2 (0 : Fin 1) j) = Spec.colSum (H1 V c) j :=
  congrFun (final9 V c) (ix2 (0 : Fin 1) j)

theorem reg1_sumsq (c : Dev nD) (j : Fin 512) :
    (dat1 (F := Ideal) V c).arrAt 10 cfg1.N (ix2 (0 : Fin 1) j) = Spec.colSumSq (H1 V c) j :=
  congrFun (final10 V c) (ix2 (0 : Fin 1) j)

end Cert.KV

end
-- ==== Proof.KReg2.lean ====
/-
  Region 2's value: after all sixteen grid points the output array holds the network's output.
-/
import proofs.«125560_j53815940219270_1_alg».proof.Proof.KDefs
import Idealize.ShloMosaic.Lib.Pipeline.Value
import Idealize.ShloMosaic.Lib.ValueLayout
import Idealize.ShloMosaic.PureOps.Ideal.Laws

noncomputable section

namespace Cert.KV

open Idealize.ShloMosaic Idealize.ShloMosaic.TcCoe Idealize.SL.Sem Idealize.ShloMosaic.ValueIdx
open Cert.KernelIdeal Cert.KernelIdeal.Gen

/-! ## The last product at an index

The product contracts the left operand's second axis with the right operand's first. At output index `(p, q)` and
contraction position `k` the left operand is read at `(p, k)` and the right at `(k, q)`. -/

/-- The left operand's row is the output's row. -/
private theorem lhs_mm2_0 (i : S2048x10.Idx) (q : dot_S2048x512_S512x10_S2048x10_1_0_0_1_n_n.contr.Idx) :
    (dot_S2048x512_S512x10_S2048x10_1_0_0_1_n_n.lhsIdx i q 0).val = (i 0).val := by
  unfold DotDims.lhsIdx
  rw [dif_neg (show ¬(0 : Fin S2048x512.rank) ∈ dot_S2048x512_S512x10_S2048x10_1_0_0_1_n_n.lhsBatch by decide),
    dif_pos (show (0 : Fin S2048x512.rank) ∈ dot_S2048x512_S512x10_S2048x10_1_0_0_1_n_n.lhsNonContracting by decide)]
  rfl

/-- The left operand's column is the contraction position. -/
private theorem lhs_mm2_1 (i : S2048x10.Idx) (q : dot_S2048x512_S512x10_S2048x10_1_0_0_1_n_n.contr.Idx) :
    (dot_S2048x512_S512x10_S2048x10_1_0_0_1_n_n.lhsIdx i q 1).val = (q ⟨0, by decide⟩).val :=
  dot_S2048x512_S512x10_S2048x10_1_0_0_1_n_n.lhsIdx_val_of_single rfl i q

/-- The right operand's row is the contraction position. -/
private theorem rhs_mm2_0 (i : S2048x10.Idx) (q : dot_S2048x512_S512x10_S2048x10_1_0_0_1_n_n.contr.Idx) :
    (dot_S2048x512_S512x10_S2048x10_1_0_0_1_n_n.rhsIdx i q 0).val = (q ⟨0, by decide⟩).val :=
  dot_S2048x512_S512x10_S2048x10_1_0_0_1_n_n.rhsIdx_val_of_single rfl i q

/-- The right operand's column is the output's column. -/
private theorem rhs_mm2_1 (i : S2048x10.Idx) (q : dot_S2048x512_S512x10_S2048x10_1_0_0_1_n_n.contr.Idx) :
    (dot_S2048x512_S512x10_S2048x10_1_0_0_1_n_n.rhsIdx i q 1).val = (i 1).val := by
  unfold DotDims.rhsIdx
  rw [dif_neg (show ¬(1 : Fin S512x10.rank) ∈ dot_S2048x512_S512x10_S2048x10_1_0_0_1_n_n.rhsBatch by decide),
    dif_pos (show (1 : Fin S512x10.rank) ∈ dot_S2048x512_S512x10_S2048x10_1_0_0_1_n_n.rhsNonContracting by decide)]
  rfl

/-- The product into the zero accumulator, at `(p, q)`: the sum over `k` of left `(p, k)` times right `(k, q)`. -/
private theorem mm2_apply (l : FVec Ideal S2048x512 .bf16) (r : FVec Ideal S512x10 .bf16) (p : Fin 2048) (q : Fin 10) :
    matmul dot_S2048x512_S512x10_S2048x10_1_0_0_1_n_n none l r (constant (F := Ideal) S2048x10 .f32 0x00000000#32) (ix2 p q)
      = ∑ k : Fin 512, l (ix2 p k) * r (ix2 k q) := by
  simp only [matmul]
  rw [Ideal.matmul_constant_zero_apply,
    ← Equiv.sum_comp (contrEquiv1 dot_S2048x512_S512x10_S2048x10_1_0_0_1_n_n 512 rfl rfl).symm]
  refine Finset.sum_congr rfl fun k _ => ?_
  have hk := contrEquiv1_symm_val dot_S2048x512_S512x10_S2048x10_1_0_0_1_n_n 512 rfl rfl k
  have el : dot_S2048x512_S512x10_S2048x10_1_0_0_1_n_n.lhsIdx (ix2 p q)
      ((contrEquiv1 dot_S2048x512_S512x10_S2048x10_1_0_0_1_n_n 512 rfl rfl).symm k) = ix2 p k :=
    funext fun a => Fin.ext (by
      match a with
      | ⟨0, _⟩ => exact lhs_mm2_0 _ _
      | ⟨1, _⟩ => exact (lhs_mm2_1 _ _).trans hk)
  have er : dot_S2048x512_S512x10_S2048x10_1_0_0_1_n_n.rhsIdx (ix2 p q)
      ((contrEquiv1 dot_S2048x512_S512x10_S2048x10_1_0_0_1_n_n 512 rfl rfl).symm k) = ix2 k q :=
    funext fun a => Fin.ext (by
      match a with
      | ⟨0, _⟩ => exact (rhs_mm2_0 _ _).trans hk
      | ⟨1, _⟩ => exact rhs_mm2_1 _ _)
  rw [el, er]

/-! ## The body's arithmetic at an index -/

/-- What the body stores, at row `p` and column `q` of its block: the normalised, rectified, masked and rescaled
    row `p` of the activations block against row `q` of the weights read back as [out, in], plus the bias. -/
private theorem pay2_apply (x0 : Vec Ideal S2048x512 .f32) (xv xm : Vec Ideal S1x512 .f32) (g b : Vec Ideal S512 .f32)
    (mk : Vec Ideal S2048x512 .f32) (w : Vec Ideal S512x10 .bf16) (bi : Vec Ideal S10 .f32) (p : Fin 2048) (q : Fin 10) :
    k2_pay1 (F := Ideal) x0 xv xm g b mk w bi (ix2 p q)
      = Spec.lin (Spec.actK (fun i j => x0 (ix2 i j)) (fun j => xm (ix2 (0 : Fin 1) j)) (fun j => xv (ix2 (0 : Fin 1) j))
          (fun j => g (ix1 j)) (fun j => b (ix1 j)) (fun i j => mk (ix2 i j)))
        (fun j t => w (ix2 t j)) (fun j => bi (ix1 j)) p q := by
  unfold k2_pay1 Spec.lin Spec.actK
  simp only [addf_apply, mm2_apply, truncf_apply, mulf_apply, maximumf_apply, subf_apply, broadcast_apply, shapeCast_self,
    broadcastTo_1b_ab_apply, shapeCast_a_1a_apply]
  rfl

variable (V : Entry)

/-! ## The blocks the body reads, as parts of the arrays

A block's coordinate on an axis is the block index times the block's size plus the coordinate inside the block. The
activations, the mask and the output move down the rows with the grid point (block index `t` on the row axis, 0 on
the column axis); every other input is one block, the whole array, at every point. -/

private theorem origin2 : (![0, 0] : Fin 2 → Nat) = fun _ => 0 := funext fun a => by fin_cases a <;> rfl
private theorem origin1 : (![0] : Fin 1 → Nat) = fun _ => 0 := funext fun a => by fin_cases a; rfl

/-- The printed index maps over the sixteen grid points. -/
private theorem index_maps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 1) = 0
    ∧ win2_4.index t (0 : Fin 1) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- Row `p` of the activations block at point `t` is row `2048 t + p` of the activations. -/
private theorem blk0_apply (c : Dev nD) (t : Fin cfg2.N) (p : Fin 2048) (k : Fin 512) (i : Fin 32768)
    (hi : i.val = t.val * 2048 + p.val) :
    (iblk2 (F := Ideal) V c 0 t : Vec Ideal S2048x512 .f32) (ix2 p k) = Hin2 V c i k := by
  obtain ⟨e0, e1, -⟩ := index_maps2 t
  show (V c main_v13_0 : Vec Ideal S32768x512 .f32) (((cfg2.win 0).blk t).view.emb (ix2 p k)) = V c main_v13_0 (ix2 i k)
  refine congrArg _ (funext fun a => Fin.ext ?_)
  match a with
  | ⟨0, _⟩ => show win2_0.index t (0 : Fin 2) * 2048 + 1 * p.val = i.val; omega
  | ⟨1, _⟩ => show win2_0.index t (1 : Fin 2) * 512 + 1 * k.val = k.val; omega

/-- Row `p` of the mask block at point `t` is row `2048 t + p` of the mask. -/
private theorem blk5_apply (c : Dev nD) (t : Fin cfg2.N) (p : Fin 2048) (k : Fin 512) (i : Fin 32768)
    (hi : i.val = t.val * 2048 + p.val) :
    (iblk2 (F := Ideal) V c 5 t : Vec Ideal S2048x512 .f32) (ix2 p k) = Msk2 V c i k := by
  obtain ⟨-, -, -, -, -, -, -, -, e0, e1, -⟩ := index_maps2 t
  show (V c main_arg12 : Vec Ideal S32768x512 .f32) (((cfg2.win 5).blk t).view.emb (ix2 p k)) = V c main_arg12 (ix2 i k)
  refine congrArg _ (funext fun a => Fin.ext ?_)
  match a with
  | ⟨0, _⟩ => show win2_5.index t (0 : Fin 2) * 2048 + 1 * p.val = i.val; omega
  | ⟨1, _⟩ => show win2_5.index t (1 : Fin 2) * 512 + 1 * k.val = k.val; omega

/-- The mean row's block is the mean row. -/
private theorem blk1_apply (c : Dev nD) (t : Fin cfg2.N) (k : Fin 512) :
    (iblk2 (F := Ideal) V c 1 t : Vec Ideal S1x512 .f32) (ix2 (0 : Fin 1) k) = Mean2 V c k := by
  obtain ⟨-, -, e0, e1, -⟩ := index_maps2 t
  show (V c main_v15 : Vec Ideal S1x512 .f32) (((cfg2.win 1).blk t).view.emb (ix2 (0 : Fin 1) k)) = V c main_v15 (ix2 (0 : Fin 1) k)
  refine congrArg _ (funext fun a => Fin.ext ?_)
  match a with
  | ⟨0, _⟩ => show win2_1.index t (0 : Fin 2) * 1 + 1 * 0 = 0; omega
  | ⟨1, _⟩ => show win2_1.index t (1 : Fin 2) * 512 + 1 * k.val = k.val; omega

/-- The variance row's block is the variance row. -/
private theorem blk2_apply (c : Dev nD) (t : Fin cfg2.N) (k : Fin 512) :
    (iblk2 (F := Ideal) V c 2 t : Vec Ideal S1x512 .f32) (ix2 (0 : Fin 1) k) = Var2 V c k := by
  obtain ⟨-, -, -, -, e0, e1, -⟩ := index_maps2 t
  show (V c main_v19 : Vec Ideal S1x512 .f32) (((cfg2.win 2).blk t).view.emb (ix2 (0 : Fin 1) k)) = V c main_v19 (ix2 (0 : Fin 1) k)
  refine congrArg _ (funext fun a => Fin.ext ?_)
  match a with
  | ⟨0, _⟩ => show win2_2.index t (0 : Fin 2) * 1 + 1 * 0 = 0; omega
  | ⟨1, _⟩ => show win2_2.index t (1 : Fin 2) * 512 + 1 * k.val = k.val; omega

/-- The scale's block is the scale. -/
private theorem blk3_apply (c : Dev nD) (t : Fin cfg2.N) (k : Fin 512) :
    (iblk2 (F := Ideal) V c 3 t : Vec Ideal S512 .f32) (ix1 k) = Gam2 V c k := by
  obtain ⟨-, -, -, -, -, -, e0, -⟩ := index_maps2 t
  show (V c main_arg7 : Vec Ideal S512 .f32) (((cfg2.win 3).blk t).view.emb (ix1 k)) = V c main_arg7 (ix1 k)
  refine congrArg _ (funext fun a => Fin.ext ?_)
  match a with
  | ⟨0, _⟩ => show win2_3.index t (0 : Fin 1) * 512 + 1 * k.val = k.val; omega

/-- The shift's block is the shift. -/
private theorem blk4_apply (c : Dev nD) (t : Fin cfg2.N) (k : Fin 512) :
    (iblk2 (F := Ideal) V c 4 t : Vec Ideal S512 .f32) (ix1 k) = Bet2 V c k := by
  obtain ⟨-, -, -, -, -, -, -, e0, -⟩ := index_maps2 t
  show (V c main_arg8 : Vec Ideal S512 .f32) (((cfg2.win 4).blk t).view.emb (ix1 k)) = V c main_arg8 (ix1 k)
  refine congrArg _ (funext fun a => Fin.ext ?_)
  match a with
  | ⟨0, _⟩ => show win2_4.index t (0 : Fin 1) * 512 + 1 * k.val = k.val; omega

/-- The transposed weights' block is the transposed weights: entry `(k, q)` is the weight of output `q` at input `k`. -/
private theorem blk6_apply (c : Dev nD) (t : Fin cfg2.N) (k : Fin 512) (q : Fin 10) :
    (iblk2 (F := Ideal) V c 6 t : Vec Ideal S512x10 .bf16) (ix2 k q) = Wt2 V c q k := by
  obtain ⟨-, -, -, -, -, -, -, -, -, -, e0, e1, -⟩ := index_maps2 t
  show (V c main_v5 : Vec Ideal S512x10 .bf16) (((cfg2.win 6).blk t).view.emb (ix2 k q)) = V c main_v5 (ix2 k q)
  refine congrArg _ (funext fun a => Fin.ext ?_)
  match a with
  | ⟨0, _⟩ => show win2_6.index t (0 : Fin 2) * 512 + 1 * k.val = k.val; omega
  | ⟨1, _⟩ => show win2_6.index t (1 : Fin 2) * 10 + 1 * q.val = q.val; omega

/-- The bias' block is the bias. -/
private theorem blk7_apply (c : Dev nD) (t : Fin cfg2.N) (q : Fin 10) :
    (iblk2 (F := Ideal) V c 7 t : Vec Ideal S10 .f32) (ix1 q) = B2 V c q := by
  obtain ⟨-, -, -, -, -, -, -, -, -, -, -, -, e0, -⟩ := index_maps2 t
  show (V c main_arg10 : Vec Ideal S10 .f32) (((cfg2.win 7).blk t).view.emb (ix1 q)) = V c main_arg10 (ix1 q)
  refine congrArg _ (funext fun a => Fin.ext ?_)
  match a with
  | ⟨0, _⟩ => show win2_7.index t (0 : Fin 1) * 10 + 1 * q.val = q.val; omega

/-! ## What a point writes back, and the array after the last point -/

/-- The body's result at point `t`, at row `p` and column `q` of the block, is the network's output at row
    `2048 t + p`: the row of the normalised activations depends on that row of the activations and of the mask only. -/
private theorem body2_apply (c : Dev nD) (t : Fin cfg2.N) (p : Fin 2048) (q : Fin 10) (i : Fin 32768)
    (hi : i.val = t.val * 2048 + p.val) :
    k2_pay1 (F := Ideal) (iblk2 (F := Ideal) V c 0 t) (iblk2 (F := Ideal) V c 2 t) (iblk2 (F := Ideal) V c 1 t)
        (iblk2 (F := Ideal) V c 3 t) (iblk2 (F := Ideal) V c 4 t) (iblk2 (F := Ideal) V c 5 t) (iblk2 (F := Ideal) V c 6 t)
        (iblk2 (F := Ideal) V c 7 t) (ix2 p q)
      = Out2 V c i q := by
  refine (pay2_apply (iblk2 (F := Ideal) V c 0 t) (iblk2 (F := Ideal) V c 2 t) (iblk2 (F := Ideal) V c 1 t)
    (iblk2 (F := Ideal) V c 3 t) (iblk2 (F := Ideal) V c 4 t) (iblk2 (F := Ideal) V c 5 t) (iblk2 (F := Ideal) V c 6 t)
    (iblk2 (F := Ideal) V c 7 t) p q).trans ?_
  unfold Out2 Spec.lin Spec.actK
  refine congrArg₂ (· + ·) (Finset.sum_congr rfl fun k _ => ?_) (blk7_apply V c t q)
  dsimp only
  rw [blk0_apply V c t p k i hi, blk1_apply V c t k, blk2_apply V c t k, blk3_apply V c t k, blk4_apply V c t k,
    blk5_apply V c t p k i hi, blk6_apply V c t k q]

/-- The output array as one function of its index. -/
private def netOut2 (c : Dev nD) : S32768x10.Idx → Elt Ideal .f32 :=
  fun i => Out2 V c ⟨(i 0).val, idx2_lt0 i⟩ ⟨(i 1).val, idx2_lt1 i⟩

/-- What point `t` writes back is block `t` of the output. -/
private theorem block_written2 (c : Dev nD) (t : Fin cfg2.N) :
    (dat2 (F := Ideal) V c).flushed 8 t = ((cfg2.win 8).blk t).view.read (Elt Ideal) (netOut2 V c) := by
  show (cfg2.win 8).cut (grid2.coords t) ((dat2 (F := Ideal) V c).after 8 t) = _
  rw [after2_8]
  unfold out2_8
  rw [View.canon_unit_zero origin2]
  simp only [View.ld_unit_zero (S := S2048x512) origin2, View.ld_unit_zero (S := S1x512) origin2, View.ld_unit_zero (S := S512) origin1,
    View.ld_unit_zero (S := S512x10) origin2, View.ld_unit_zero (S := S10) origin1]
  funext y
  obtain ⟨p, q, rfl⟩ : ∃ (p : Fin 2048) (q : Fin 10), y = ix2 p q := ⟨y 0, y 1, eq_ix2 y⟩
  have hN : cfg2.N = 16 := N_2
  have ht : t.val < 16 := hN ▸ t.isLt
  obtain ⟨-, -, -, -, -, -, -, -, -, -, -, -, -, e0, e1⟩ := index_maps2 t
  refine (body2_apply V c t p q ⟨t.val * 2048 + p.val, by omega⟩ rfl).trans ?_
  show Out2 V c _ _ = netOut2 V c (((cfg2.win 8).blk t).view.emb (ix2 p q))
  unfold netOut2
  refine congrArg₂ (Out2 V c) (Fin.ext ?_) (Fin.ext ?_)
  · show t.val * 2048 + p.val = win2_8.index t (0 : Fin 2) * 2048 + 1 * p.val; omega
  · show q.val = win2_8.index t (1 : Fin 2) * 10 + 1 * q.val; omega

/-- An index of the output array is in point `t`'s block iff its row is one of the block's 2048 rows. -/
private theorem row_in_block2 (t : Fin cfg2.N) (i : S32768x10.Idx) :
    i ∈ ((cfg2.win 8).blk t).view.set ↔ ∀ a : Fin 2, win2_8.index t a * S2048x10.size a ≤ (i a).val ∧ (i a).val < win2_8.index t a * S2048x10.size a + S2048x10.size a := by
  show i ∈ ((View.whole main_v20).slice (win2_8.rect t)).set ↔ _
  rw [View.set_slice_whole, Rect.mem_set_unit]
  exact Iff.rfl

/-- The sixteen blocks cover the array: row `r` is in the block of point `r / 2048`. -/
private theorem rows_covered2 (i : S32768x10.Idx) :
    ∃ t : Fin cfg2.N, (cfg2.win 8).flush t = true ∧ i ∈ ((cfg2.win 8).blk t).view.set := by
  have hN : cfg2.N = 16 := N_2
  have hi0 : (i 0).val < 32768 := idx2_lt0 i
  have hi1 : (i 1).val < 10 := idx2_lt1 i
  refine ⟨⟨(i 0).val / 2048, by omega⟩, flush2_8 _, ?_⟩
  rw [row_in_block2]
  obtain ⟨-, -, -, -, -, -, -, -, -, -, -, -, -, e0, e1⟩ := index_maps2 ⟨(i 0).val / 2048, by omega⟩
  intro a
  match a with
  | ⟨0, _⟩ =>
    show win2_8.index _ (0 : Fin 2) * 2048 ≤ (i 0).val ∧ (i 0).val < win2_8.index _ (0 : Fin 2) * 2048 + 2048
    rw [e0]; show (i 0).val / 2048 * 2048 ≤ (i 0).val ∧ (i 0).val < (i 0).val / 2048 * 2048 + 2048; omega
  | ⟨1, _⟩ =>
    show win2_8.index _ (1 : Fin 2) * 10 ≤ (i 1).val ∧ (i 1).val < win2_8.index _ (1 : Fin 2) * 10 + 10
    rw [e1]; omega

/-- So after the last point the output array holds the network's output. -/
private theorem output_array2 (c : Dev nD) : (dat2 (F := Ideal) V c).arrAt 8 cfg2.N = netOut2 V c :=
  (dat2 (F := Ideal) V c).arrAt_eq_of_cover 8 (netOut2 V c) (fun t _ => block_written2 V c t) rows_covered2

theorem reg2_out (c : Dev nD) (i : Fin 32768) (j : Fin 10) :
    (dat2 (F := Ideal) V c).arrAt 8 cfg2.N (ix2 i j) = Out2 V c i j := by
  rw [output_array2]
  rfl

end Cert.KV

end
-- ==== Proof.KHost.lean ====
/-
  The buffer contents each region is entered with, read back through the host operations and the earlier regions
  to the launch memory: an argument array is the launch memory's; a transposed and converted weight is the argument
  with its coordinates swapped (a change of format is the identity on the extended reals); the mean and the variance
  rows are the earlier region's column sums divided by the row count, the variance less the squared mean; a hidden
  activation array is what the earlier region left.
-/
import proofs.«125560_j53815940219270_1_alg».proof.Proof.KDefs
import Idealize.ShloMosaic.Lib.ValueLayout
import Idealize.ShloMosaic.Lib.StableHlo.Run

noncomputable section

namespace Cert.KV

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## What each host stretch writes; every other buffer it keeps -/

/-- The buffers the first host stretch writes: each weight transposed, then converted. -/
abbrev hostW0 : List (Ref sig .tc) := [main_v0, main_v1, main_v2, main_v3, main_v4, main_v5]
/-- The buffers the second host stretch writes: the row count, broadcast; the mean; the mean of squares; the
    squared mean; the variance. -/
abbrev hostW1 : List (Ref sig .tc) := [main_cst, main_v7, main_v8, main_cst_0, main_v9, main_v10, main_v11, main_v12]
/-- The buffers the third host stretch writes: the same eight for the second layer. -/
abbrev hostW2 : List (Ref sig .tc) := [main_cst_1, main_v14, main_v15, main_cst_2, main_v16, main_v17, main_v18, main_v19]

theorem hostOps0_writes : (hostOps0 (F := Ideal)).Forall fun op =>
    op.writes ⊆ (hostW0.map (Proc.devRef (τ := τ) .tc)).toFinset := by
  simp [List.Forall, hostW0]
theorem hostOps1_writes : (hostOps1 (F := Ideal)).Forall fun op =>
    op.writes ⊆ (hostW1.map (Proc.devRef (τ := τ) .tc)).toFinset := by
  simp [List.Forall, hostW1]
theorem hostOps2_writes : (hostOps2 (F := Ideal)).Forall fun op =>
    op.writes ⊆ (hostW2.map (Proc.devRef (τ := τ) .tc)).toFinset := by
  simp [List.Forall, hostW2]

/-- A buffer the first host stretch does not write holds, at region 0's entry, the launch memory's contents. -/
theorem W1_keep (c : Dev nD) (r : Ref sig .tc) (h : r ∉ hostW0) :
    W1 (F := Ideal) m ρ c (Proc.devRef .tc r) = m ((c : Thread nD τ).loc r) :=
  (StableHlo.after_of_writes_sub hostOps0 _ hostOps0_writes h).trans rfl

/-- A buffer the second host stretch does not write holds, at region 1's entry, what region 0 left. -/
theorem W3_keep (c : Dev nD) (r : Ref sig .tc) (h : r ∉ hostW1) :
    W3 (F := Ideal) m ρ c (Proc.devRef .tc r) = W2 m ρ c (Proc.devRef .tc r) :=
  StableHlo.after_of_writes_sub hostOps1 _ hostOps1_writes h

/-- A buffer the third host stretch does not write holds, at region 2's entry, what region 1 left. -/
theorem W5_keep (c : Dev nD) (r : Ref sig .tc) (h : r ∉ hostW2) :
    W5 (F := Ideal) m ρ c (Proc.devRef .tc r) = W4 m ρ c (Proc.devRef .tc r) :=
  StableHlo.after_of_writes_sub hostOps2 _ hostOps2_writes h

/-- A buffer that neither region 0 nor the second host stretch touches holds, at region 1's entry, what it held at
    region 0's entry. -/
theorem W3_back (c : Dev nD) (r : Ref sig .tc) (h1 : r ∉ hostW1) (ha : ∀ w, Pipeline.arrRef spec0 w ≠ r) :
    W3 (F := Ideal) m ρ c (Proc.devRef .tc r) = W1 m ρ c (Proc.devRef .tc r) :=
  (W3_keep m ρ c r h1).trans (W2_of_ne m ρ c r ha)

/-- A buffer that neither region 1 nor the third host stretch touches holds, at region 2's entry, what it held at
    region 1's entry. -/
theorem W5_back (c : Dev nD) (r : Ref sig .tc) (h2 : r ∉ hostW2) (ha : ∀ w, Pipeline.arrRef spec1 w ≠ r) :
    W5 (F := Ideal) m ρ c (Proc.devRef .tc r) = W3 m ρ c (Proc.devRef .tc r) :=
  (W5_keep m ρ c r h2).trans (W4_of_ne m ρ c r ha)

/-- An argument that only region 1 reads is the launch memory's at region 1's entry. -/
theorem W3_arg (c : Dev nD) (r : Ref sig .tc) (h1 : r ∉ hostW1) (ha : ∀ w, Pipeline.arrRef spec0 w ≠ r) (h0 : r ∉ hostW0) :
    W3 (F := Ideal) m ρ c (Proc.devRef .tc r) = m ((c : Thread nD τ).loc r) :=
  (W3_back m ρ c r h1 ha).trans (W1_keep m ρ c r h0)

/-- An argument that only region 2 reads is the launch memory's at region 2's entry. -/
theorem W5_arg (c : Dev nD) (r : Ref sig .tc) (h2 : r ∉ hostW2) (ha1 : ∀ w, Pipeline.arrRef spec1 w ≠ r)
    (h1 : r ∉ hostW1) (ha0 : ∀ w, Pipeline.arrRef spec0 w ≠ r) (h0 : r ∉ hostW0) :
    W5 (F := Ideal) m ρ c (Proc.devRef .tc r) = m ((c : Thread nD τ).loc r) :=
  (W5_back m ρ c r h2 ha1).trans (W3_arg m ρ c r h1 ha0 h0)

/-! ## The three weights after the first host stretch: transposed, the conversion being the identity -/

theorem W1_v1 (c : Dev nD) :
    (W1 (F := Ideal) m ρ c (Proc.devRef .tc main_v1) : Vec Ideal S784x512 .bf16)
      = (truncf (F := Ideal) .bf16 (transpose S784x512 [1, 0] (m ((c : Thread nD τ).loc main_arg1) : Vec Ideal S512x784 .f32)
          transposes_S512x784_S784x512_1_0) bitsLt_bf16_f32 : Vec Ideal S784x512 .bf16) := by
  show StableHlo.after hostOps0 _ (Proc.devRef .tc main_v1) = _
  after_results

theorem W1_v3 (c : Dev nD) :
    (W1 (F := Ideal) m ρ c (Proc.devRef .tc main_v3) : Vec Ideal S512x512 .bf16)
      = (truncf (F := Ideal) .bf16 (transpose S512x512 [1, 0] (m ((c : Thread nD τ).loc main_arg5) : Vec Ideal S512x512 .f32)
          transposes_S512x512_S512x512_1_0) bitsLt_bf16_f32 : Vec Ideal S512x512 .bf16) := by
  show StableHlo.after hostOps0 _ (Proc.devRef .tc main_v3) = _
  after_results

theorem W1_v5 (c : Dev nD) :
    (W1 (F := Ideal) m ρ c (Proc.devRef .tc main_v5) : Vec Ideal S512x10 .bf16)
      = (truncf (F := Ideal) .bf16 (transpose S512x10 [1, 0] (m ((c : Thread nD τ).loc main_arg9) : Vec Ideal S10x512 .f32)
          transposes_S10x512_S512x10_1_0) bitsLt_bf16_f32 : Vec Ideal S512x10 .bf16) := by
  show StableHlo.after hostOps0 _ (Proc.devRef .tc main_v5) = _
  after_results

/-! ## What the first two regions leave in their output arrays -/

theorem W2_v6_0 (c : Dev nD) :
    W2 (F := Ideal) m ρ c (Proc.devRef .tc main_v6_0) = (dat0 (F := Ideal) (V1 m ρ) c).arrAt 3 cfg0.N := W2_arr m ρ c 3
theorem W2_v6_1 (c : Dev nD) :
    W2 (F := Ideal) m ρ c (Proc.devRef .tc main_v6_1) = (dat0 (F := Ideal) (V1 m ρ) c).arrAt 4 cfg0.N := W2_arr m ρ c 4
theorem W2_v6_2 (c : Dev nD) :
    W2 (F := Ideal) m ρ c (Proc.devRef .tc main_v6_2) = (dat0 (F := Ideal) (V1 m ρ) c).arrAt 5 cfg0.N := W2_arr m ρ c 5
theorem W4_v13_0 (c : Dev nD) :
    W4 (F := Ideal) m ρ c (Proc.devRef .tc main_v13_0) = (dat1 (F := Ideal) (V3 m ρ) c).arrAt 8 cfg1.N := W4_arr m ρ c 8
theorem W4_v13_1 (c : Dev nD) :
    W4 (F := Ideal) m ρ c (Proc.devRef .tc main_v13_1) = (dat1 (F := Ideal) (V3 m ρ) c).arrAt 9 cfg1.N := W4_arr m ρ c 9
theorem W4_v13_2 (c : Dev nD) :
    W4 (F := Ideal) m ρ c (Proc.devRef .tc main_v13_2) = (dat1 (F := Ideal) (V3 m ρ) c).arrAt 10 cfg1.N := W4_arr m ρ c 10

/-! ## The statistics rows after the second and the third host stretch -/

/-- The row-count constant as the host stretches build it: one word, broadcast along the row. -/
abbrev hostRowCount : FVec Ideal S1x512 .f32 :=
  broadcastInDim S1x512 ![] bcast_S_S1x512 (constant (F := Ideal) S_ .f32 0x47000000#32)

/-- A row of column sums over the row count. -/
abbrev hostOverCount (x : FVec Ideal S1x512 .f32) : FVec Ideal S1x512 .f32 := Host.divf x hostRowCount

/-- The mean of squares less the squared mean, from the two rows of column sums. -/
abbrev hostVarRow (sq s : FVec Ideal S1x512 .f32) : FVec Ideal S1x512 .f32 :=
  subf (hostOverCount sq) (mulf (hostOverCount s) (hostOverCount s))

/-- The mean row of the first layer: region 0's column sums over the row count. -/
theorem W3_v8 (c : Dev nD) :
    (W3 (F := Ideal) m ρ c (Proc.devRef .tc main_v8) : Vec Ideal S1x512 .f32)
      = hostOverCount ((dat0 (F := Ideal) (V1 m ρ) c).arrAt 4 cfg0.N) := by
  show StableHlo.after hostOps1 _ (Proc.devRef .tc main_v8) = _
  after_results
  exact congrArg (fun x => hostOverCount x) (W2_v6_1 m ρ c)

/-- The variance row of the first layer: region 0's column sums of squares over the row count, less the squared mean. -/
theorem W3_v12 (c : Dev nD) :
    (W3 (F := Ideal) m ρ c (Proc.devRef .tc main_v12) : Vec Ideal S1x512 .f32)
      = hostVarRow ((dat0 (F := Ideal) (V1 m ρ) c).arrAt 5 cfg0.N) ((dat0 (F := Ideal) (V1 m ρ) c).arrAt 4 cfg0.N) := by
  show StableHlo.after hostOps1 _ (Proc.devRef .tc main_v12) = _
  after_results
  exact congrArg₂ (fun x y => hostVarRow x y) (W2_v6_2 m ρ c) (W2_v6_1 m ρ c)

/-- The mean row of the second layer: region 1's column sums over the row count. -/
theorem W5_v15 (c : Dev nD) :
    (W5 (F := Ideal) m ρ c (Proc.devRef .tc main_v15) : Vec Ideal S1x512 .f32)
      = hostOverCount ((dat1 (F := Ideal) (V3 m ρ) c).arrAt 9 cfg1.N) := by
  show StableHlo.after hostOps2 _ (Proc.devRef .tc main_v15) = _
  after_results
  exact congrArg (fun x => hostOverCount x) (W4_v13_1 m ρ c)

/-- The variance row of the second layer: region 1's column sums of squares over the row count, less the squared mean. -/
theorem W5_v19 (c : Dev nD) :
    (W5 (F := Ideal) m ρ c (Proc.devRef .tc main_v19) : Vec Ideal S1x512 .f32)
      = hostVarRow ((dat1 (F := Ideal) (V3 m ρ) c).arrAt 10 cfg1.N) ((dat1 (F := Ideal) (V3 m ρ) c).arrAt 9 cfg1.N) := by
  show StableHlo.after hostOps2 _ (Proc.devRef .tc main_v19) = _
  after_results
  exact congrArg₂ (fun x y => hostVarRow x y) (W4_v13_2 m ρ c) (W4_v13_1 m ρ c)

/-! ## Region 0 is entered with the arguments and the transposed first weight -/

theorem X0_V1 (c : Dev nD) : X0 (V1 m ρ) c = A0 m c := by
  funext i t
  exact congrFun (W1_keep m ρ c main_arg0 (by decide)) (ix2 i t)
theorem Wt0_V1 (c : Dev nD) : Wt0 (V1 m ρ) c = A1 m c := by
  funext j t
  refine (congrFun (W1_v1 m ρ c) (ix2 t j)).trans ?_
  exact transpose_ix2_apply (m ((c : Thread nD τ).loc main_arg1) : Vec Ideal S512x784 .f32) _ t j
theorem B0_V1 (c : Dev nD) : B0 (V1 m ρ) c = A2 m c := by
  funext j
  exact congrFun (W1_keep m ρ c main_arg2 (by decide)) (ix1 j)

/-! ## Region 1 is entered with region 0's outputs turned into statistics -/

theorem Hin1_V3 (c : Dev nD) : Hin1 (V3 m ρ) c = fun i j => (dat0 (F := Ideal) (V1 m ρ) c).arrAt 3 cfg0.N (ix2 i j) := by
  funext i j
  exact congrFun ((W3_keep m ρ c main_v6_0 (by decide)).trans (W2_v6_0 m ρ c)) (ix2 i j)
theorem Mean1_V3 (c : Dev nD) :
    Mean1 (V3 m ρ) c = fun j => Ideal.div ((dat0 (F := Ideal) (V1 m ρ) c).arrAt 4 cfg0.N (ix2 (0 : Fin 1) j)) Spec.cB := by
  funext j
  exact congrFun (W3_v8 m ρ c) (ix2 (0 : Fin 1) j)
theorem Var1_V3 (c : Dev nD) :
    Var1 (V3 m ρ) c = fun j => Ideal.div ((dat0 (F := Ideal) (V1 m ρ) c).arrAt 5 cfg0.N (ix2 (0 : Fin 1) j)) Spec.cB
      - Mean1 (V3 m ρ) c j * Mean1 (V3 m ρ) c j := by
  funext j
  rw [congrFun (Mean1_V3 m ρ c) j]
  exact congrFun (W3_v12 m ρ c) (ix2 (0 : Fin 1) j)
theorem Gam1_V3 (c : Dev nD) : Gam1 (V3 m ρ) c = A3 m c := by
  funext j
  exact congrFun (W3_arg m ρ c main_arg3 (by decide) (by decide) (by decide)) (ix1 j)
theorem Bet1_V3 (c : Dev nD) : Bet1 (V3 m ρ) c = A4 m c := by
  funext j
  exact congrFun (W3_arg m ρ c main_arg4 (by decide) (by decide) (by decide)) (ix1 j)
theorem Msk1_V3 (c : Dev nD) : Msk1 (V3 m ρ) c = A11 m c := by
  funext i j
  exact congrFun (W3_arg m ρ c main_arg11 (by decide) (by decide) (by decide)) (ix2 i j)
theorem Wt1_V3 (c : Dev nD) : Wt1 (V3 m ρ) c = A5 m c := by
  funext j t
  refine (congrFun ((W3_back m ρ c main_v3 (by decide) (by decide)).trans (W1_v3 m ρ c)) (ix2 t j)).trans ?_
  exact transpose_ix2_apply (m ((c : Thread nD τ).loc main_arg5) : Vec Ideal S512x512 .f32) _ t j
theorem B1_V3 (c : Dev nD) : B1 (V3 m ρ) c = A6 m c := by
  funext j
  exact congrFun (W3_arg m ρ c main_arg6 (by decide) (by decide) (by decide)) (ix1 j)

/-! ## Region 2 is entered with region 1's outputs turned into statistics -/

theorem Hin2_V5 (c : Dev nD) : Hin2 (V5 m ρ) c = fun i j => (dat1 (F := Ideal) (V3 m ρ) c).arrAt 8 cfg1.N (ix2 i j) := by
  funext i j
  exact congrFun ((W5_keep m ρ c main_v13_0 (by decide)).trans (W4_v13_0 m ρ c)) (ix2 i j)
theorem Mean2_V5 (c : Dev nD) :
    Mean2 (V5 m ρ) c = fun j => Ideal.div ((dat1 (F := Ideal) (V3 m ρ) c).arrAt 9 cfg1.N (ix2 (0 : Fin 1) j)) Spec.cB := by
  funext j
  exact congrFun (W5_v15 m ρ c) (ix2 (0 : Fin 1) j)
theorem Var2_V5 (c : Dev nD) :
    Var2 (V5 m ρ) c = fun j => Ideal.div ((dat1 (F := Ideal) (V3 m ρ) c).arrAt 10 cfg1.N (ix2 (0 : Fin 1) j)) Spec.cB
      - Mean2 (V5 m ρ) c j * Mean2 (V5 m ρ) c j := by
  funext j
  rw [congrFun (Mean2_V5 m ρ c) j]
  exact congrFun (W5_v19 m ρ c) (ix2 (0 : Fin 1) j)
theorem Gam2_V5 (c : Dev nD) : Gam2 (V5 m ρ) c = A7 m c := by
  funext j
  exact congrFun (W5_arg m ρ c main_arg7 (by decide) (by decide) (by decide) (by decide) (by decide)) (ix1 j)
theorem Bet2_V5 (c : Dev nD) : Bet2 (V5 m ρ) c = A8 m c := by
  funext j
  exact congrFun (W5_arg m ρ c main_arg8 (by decide) (by decide) (by decide) (by decide) (by decide)) (ix1 j)
theorem Msk2_V5 (c : Dev nD) : Msk2 (V5 m ρ) c = A12 m c := by
  funext i j
  exact congrFun (W5_arg m ρ c main_arg12 (by decide) (by decide) (by decide) (by decide) (by decide)) (ix2 i j)
theorem Wt2_V5 (c : Dev nD) : Wt2 (V5 m ρ) c = A9 m c := by
  funext j t
  refine (congrFun ((W5_back m ρ c main_v5 (by decide) (by decide)).trans
    ((W3_back m ρ c main_v5 (by decide) (by decide)).trans (W1_v5 m ρ c))) (ix2 t j)).trans ?_
  exact transpose_ix2_apply (m ((c : Thread nD τ).loc main_arg9) : Vec Ideal S10x512 .f32) _ t j
theorem B2_V5 (c : Dev nD) : B2 (V5 m ρ) c = A10 m c := by
  funext j
  exact congrFun (W5_arg m ρ c main_arg10 (by decide) (by decide) (by decide) (by decide) (by decide)) (ix1 j)

/-! ## The result buffer after the last region -/

theorem W6_out (c : Dev nD) :
    W6 m ρ c (Proc.devRef .tc main_v20) = (dat2 (F := Ideal) (V5 m ρ) c).arrAt 8 cfg2.N := by
  exact W6_arr m ρ c 8

end Cert.KV

end
-- ==== Proof.KValue.lean ====
/-
  The kernel's value: the result buffer after the last region, entry by entry, is the first form of the network in
  the specification, of the launch memory's argument arrays.
  Region 0 is entered with the arguments (the first weight transposed), so what it leaves is the first layer's
  pre-activation with its column sums and column sums of squares; the host divides those by the row count, so region 1
  is entered with that layer's mean and its variance as mean of squares less squared mean, and what it leaves is the
  second layer's pre-activation with ITS statistics; the same once more gives the output.
-/
import proofs.«125560_j53815940219270_1_alg».proof.Proof.KDefs
import proofs.«125560_j53815940219270_1_alg».proof.Proof.KReg0
import proofs.«125560_j53815940219270_1_alg».proof.Proof.KReg1
import proofs.«125560_j53815940219270_1_alg».proof.Proof.KReg2
import proofs.«125560_j53815940219270_1_alg».proof.Proof.KHost

noncomputable section

namespace Cert.KV

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The first layer's pre-activation, of the launch arguments. -/
abbrev L1 (c : Dev nD) : Fin 32768 → Fin 512 → EReal := Spec.lin (A0 m c) (A1 m c) (A2 m c)
/-- The second layer's pre-activation, of the launch arguments. -/
abbrev L2 (c : Dev nD) : Fin 32768 → Fin 512 → EReal :=
  Spec.lin (Spec.layerK (L1 m c) (A3 m c) (A4 m c) (A11 m c)) (A5 m c) (A6 m c)

/-- Region 0 computes the first layer of the launch arguments. -/
theorem h0_eq (c : Dev nD) : H0 (V1 m ρ) c = L1 m c := by
  unfold H0 L1; rw [X0_V1, Wt0_V1, B0_V1]

/-- Region 1 is entered with the first layer's pre-activation, -/
theorem hin1_eq (c : Dev nD) : Hin1 (V3 m ρ) c = L1 m c := by
  rw [Hin1_V3]; funext i j; rw [reg0_h, h0_eq]

/-- its column mean, -/
theorem mean1_eq (c : Dev nD) : Mean1 (V3 m ρ) c = Spec.meanK (L1 m c) := by
  rw [Mean1_V3]; funext j; rw [reg0_sum, h0_eq]; rfl

/-- and its variance as mean of squares less squared mean. -/
theorem var1_eq (c : Dev nD) : Var1 (V3 m ρ) c = Spec.varK (L1 m c) := by
  rw [Var1_V3]; funext j; rw [reg0_sumsq, mean1_eq, h0_eq]; rfl

/-- Region 1 computes the second layer of the launch arguments. -/
theorem h1_eq (c : Dev nD) : H1 (V3 m ρ) c = L2 m c := by
  unfold H1 L2 Spec.layerK
  rw [hin1_eq, mean1_eq, var1_eq, Gam1_V3, Bet1_V3, Msk1_V3, Wt1_V3, B1_V3]

/-- Region 2 is entered with the second layer's pre-activation, -/
theorem hin2_eq (c : Dev nD) : Hin2 (V5 m ρ) c = L2 m c := by
  rw [Hin2_V5]; funext i j; rw [reg1_h, h1_eq]

/-- its column mean, -/
theorem mean2_eq (c : Dev nD) : Mean2 (V5 m ρ) c = Spec.meanK (L2 m c) := by
  rw [Mean2_V5]; funext j; rw [reg1_sum, h1_eq]; rfl

/-- and its variance as mean of squares less squared mean. -/
theorem var2_eq (c : Dev nD) : Var2 (V5 m ρ) c = Spec.varK (L2 m c) := by
  rw [Var2_V5]; funext j; rw [reg1_sumsq, mean2_eq, h1_eq]; rfl

/-- Region 2 computes the network's output of the launch arguments. -/
theorem out2_eq (c : Dev nD) : Out2 (V5 m ρ) c = KOut m c := by
  unfold Out2 KOut Spec.outK
  rw [hin2_eq, mean2_eq, var2_eq, Gam2_V5, Bet2_V5, Msk2_V5, Wt2_V5, B2_V5]
  rfl

/-- The result buffer after the run, entry by entry. -/
theorem value (c : Dev nD) (i : Fin 32768) (j : Fin 10) :
    (W6 m ρ c (Proc.devRef .tc main_v20) : Vec Ideal S32768x10 .f32) (ix2 i j) = KOut m c i j := by
  have h : (W6 m ρ c (Proc.devRef .tc main_v20) : Vec Ideal S32768x10 .f32) (ix2 i j)
      = (dat2 (F := Ideal) (V5 m ρ) c).arrAt 8 cfg2.N (ix2 i j) := congrFun (W6_out m ρ c) (ix2 i j)
  rw [h, reg2_out, out2_eq]

end Cert.KV

end
-- ==== Proof.RefStages.lean ====
/-
  The reference program's result as ONE composed term of its argument arrays, stage by stage, at any float family:
  the first linear layer (a host contraction against the transposed weight, plus the bias broadcast along the rows),
  the column mean (a host sum over the rows divided by the row count), the variance as jnp computes it (the mean,
  broadcast back; the squared deviations summed; divided by the row count less the degrees-of-freedom correction, which
  is the integer zero converted; kept where that divisor is positive and a NaN pattern otherwise), the normalisation
  (deviation over the root of variance plus ε, times γ, plus β), the rectification, mask and rescaling, and the next
  linear layer; twice; then the last linear layer.
-/
import proofs.«125560_j53815940219270_1_alg».proof.ReferenceIdeal

noncomputable section

namespace Cert.RV

open Idealize.ShloMosaic Idealize.ShloMosaic.TcCoe Idealize.SL.Sem
open Cert.ReferenceIdeal Cert.ReferenceIdeal.Facts₀

variable {F : FTy → Type} [FloatOps F] [Cert.ReferenceIdeal.Facts]

/-- A bias or scale vector broadcast along the 32768 rows. -/
def rows512 (b : Vec F S512 .f32) : Vec F S32768x512 .f32 :=
  broadcastInDim S32768x512 ![0, 1] bcast_S1x512_S32768x512_0_1 (broadcastInDim S1x512 ![1] bcast_S512_S1x512_1 b)

/-- The first linear layer. -/
def lin1 (x : Vec F S32768x784 .f32) (w : Vec F S512x784 .f32) (b : Vec F S512 .f32) : Vec F S32768x512 .f32 :=
  addf (Host.dotGeneral dot_S32768x784_S784x512_S32768x512_1_0_0_1_n_n none x (transpose S784x512 [1, 0] w transposes_S512x784_S784x512_1_0))
    (rows512 b)

/-- The column mean. -/
def mean (h : Vec F S32768x512 .f32) : Vec F S512 .f32 :=
  Host.divf (Host.reduceAdd h (constant S_ .f32 0x00000000#32) reducesTo_S32768x512_S512_d0 h_S_)
    (broadcastInDim S512 ![] bcast_S_S512 (constant S_ .f32 0x47000000#32))

/-- The divisor of the variance: the row count less the converted correction (the integer zero). -/
def varDen : Vec F S_ .f32 :=
  subf (constant S_ .f32 0x47000000#32) (sitofp .f32 (constantI S_ 32 0#32))

/-- The squared deviations from the column mean, as the variance's callee computes them. -/
def sqDev (h : Vec F S32768x512 .f32) : Vec F S32768x512 .f32 :=
  let d := subf h (broadcastInDim S32768x512 ![0, 1] bcast_S1x512_S32768x512_0_1
    (Host.divf (broadcastInDim S1x512 ![1] bcast_S512_S1x512_1 (Host.reduceAdd h (constant S_ .f32 0x00000000#32) reducesTo_S32768x512_S512_d0 h_S_))
      (broadcastInDim S1x512 ![] bcast_S_S1x512 (constant S_ .f32 0x47000000#32))))
  mulf d d

/-- The column variance, with the guard on the divisor. -/
def var (h : Vec F S32768x512 .f32) : Vec F S512 .f32 :=
  select (broadcastInDim S512 ![] bcast_S_S512 (cmpf .ogt (varDen (F := F)) (constant S_ .f32 0x00000000#32)))
    (Host.divf (Host.reduceAdd (sqDev h) (constant S_ .f32 0x00000000#32) reducesTo_S32768x512_S512_d0 h_S_)
      (broadcastInDim S512 ![] bcast_S_S512 (varDen (F := F))))
    (broadcastInDim S512 ![] bcast_S_S512 (id (constant S_ .f32 0x7FC00000#32)))

/-- Normalise, scale, shift, rectify, mask, rescale. -/
def act (h : Vec F S32768x512 .f32) (gamma beta : Vec F S512 .f32) (mask : Vec F S32768x512 .f32) : Vec F S32768x512 .f32 :=
  mulf (mulf (maximumf
    (addf (mulf (Host.divf (subf h (rows512 (mean h)))
        (rows512 (Host.sqrt (addf (var h) (broadcastInDim S512 ![] bcast_S_S512 (constant S_ .f32 0x3727C5AC#32))))))
      (rows512 gamma)) (rows512 beta))
    (broadcastInDim S32768x512 ![] bcast_S_S32768x512 (constant S_ .f32 0x00000000#32))) mask)
    (broadcastInDim S32768x512 ![] bcast_S_S32768x512 (constant S_ .f32 0x3FB6DB6E#32))

/-- The second linear layer. -/
def lin2 (a : Vec F S32768x512 .f32) (w : Vec F S512x512 .f32) (b : Vec F S512 .f32) : Vec F S32768x512 .f32 :=
  addf (Host.dotGeneral dot_S32768x512_S512x512_S32768x512_1_0_0_1_n_n none a (transpose S512x512 [1, 0] w transposes_S512x512_S512x512_1_0))
    (rows512 b)

/-- The last linear layer. -/
def lin3 (a : Vec F S32768x512 .f32) (w : Vec F S10x512 .f32) (b : Vec F S10 .f32) : Vec F S32768x10 .f32 :=
  addf (Host.dotGeneral dot_S32768x512_S512x10_S32768x10_1_0_0_1_n_n none a (transpose S512x10 [1, 0] w transposes_S10x512_S512x10_1_0))
    (broadcastInDim S32768x10 ![0, 1] bcast_S1x10_S32768x10_0_1 (broadcastInDim S1x10 ![1] bcast_S10_S1x10_1 b))

/-- The reference's result, of its thirteen arguments in order. -/
def out (a0 : Vec F S32768x784 .f32) (a1 : Vec F S512x784 .f32) (a2 a3 a4 : Vec F S512 .f32) (a5 : Vec F S512x512 .f32)
    (a6 a7 a8 : Vec F S512 .f32) (a9 : Vec F S10x512 .f32) (a10 : Vec F S10 .f32) (a11 a12 : Vec F S32768x512 .f32) :
    Vec F S32768x10 .f32 :=
  lin3 (act (lin2 (act (lin1 a0 a1 a2) a3 a4 a11) a5 a6) a7 a8 a12) a9 a10

end Cert.RV

end
-- ==== Proof.RRun.lean ====
/-
  The reference program's run: @main is a straight line of host operations (its two calls of the variance function
  unfolded at the call sites over the calls' own buffers), every weakly fair execution of it terminates, the result
  buffer ends at the composed term of the argument arrays as launched, and the arguments end unchanged.

  The line is read in six stretches: the first linear layer with its column mean; the first call of the variance
  function; the normalisation, rectification and mask of the first layer with the second linear layer and its column
  mean; the second call of the variance function; the normalisation of the second layer up to the scaling by γ; the
  shift, rectification and mask of the second layer with the last linear layer. After each stretch the buffers still
  read later are named by their composed terms of the launch contents; a buffer a stretch does not write keeps what it
  held.
-/
import proofs.«125560_j53815940219270_1_alg».proof.Proof.Gen.ReferenceIdeal
import proofs.«125560_j53815940219270_1_alg».proof.Proof.RefStages
import Idealize.ShloMosaic.Lib.StableHlo.Run

noncomputable section

namespace Cert.RV

open Idealize.ShloMosaic Idealize.ShloMosaic.TcCoe Idealize.SL.Sem Idealize.ShloMosaic.StableHlo
open Cert.ReferenceIdeal Cert.ReferenceIdeal.Gen

variable {F : FTy → Type} [FloatOps F]

/-! ## The operations, stretch by stretch -/

/-- The variance function's twenty-two operations over one call's two operands and its buffer record: the column sum
    and the mean broadcast back, the squared deviations and their column sum, the divisor (the row count less the
    converted correction), the quotient, the test of the divisor against zero, the NaN pattern, and the selection
    function's three (the pattern converted to its own type, broadcast, the select). -/
abbrev varOps (a0 : StableHlo.TRef sig ⟨S32768x512, .f32⟩) (a1 : StableHlo.TRef sig ⟨S_, .i32⟩) (φ : fn_var.Bufs) : List (HloOp τ sig (Elt F)) :=
  [ StableHlo.TRef.nullary φ.cst (constant S_ .f32 0x00000000#32),
    StableHlo.TRef.binary a0 φ.cst φ.v0 (fun x v => Host.reduceAdd x v reducesTo_S32768x512_S512_d0 h_S_),
    StableHlo.TRef.unary φ.v0 φ.v1 (broadcastInDim S1x512 ![1] bcast_S512_S1x512_1),
    StableHlo.TRef.nullary φ.cst_0 (constant S_ .f32 0x47000000#32),
    StableHlo.TRef.unary φ.cst_0 φ.v2 (broadcastInDim S1x512 ![] bcast_S_S1x512),
    StableHlo.TRef.binary φ.v1 φ.v2 φ.v3 Host.divf,
    StableHlo.TRef.unary φ.v3 φ.v4 (broadcastInDim S32768x512 ![0, 1] bcast_S1x512_S32768x512_0_1),
    StableHlo.TRef.binary a0 φ.v4 φ.v5 subf,
    StableHlo.TRef.binary φ.v5 φ.v5 φ.v6 mulf,
    StableHlo.TRef.unary a1 φ.v7 (sitofp .f32),
    StableHlo.TRef.nullary φ.cst_1 (constant S_ .f32 0x47000000#32),
    StableHlo.TRef.binary φ.cst_1 φ.v7 φ.v8 subf,
    StableHlo.TRef.nullary φ.cst_2 (constant S_ .f32 0x00000000#32),
    StableHlo.TRef.binary φ.v6 φ.cst_2 φ.v9 (fun x v => Host.reduceAdd x v reducesTo_S32768x512_S512_d0 h_S_),
    StableHlo.TRef.unary φ.v8 φ.v10 (broadcastInDim S512 ![] bcast_S_S512),
    StableHlo.TRef.binary φ.v9 φ.v10 φ.v11 Host.divf,
    StableHlo.TRef.nullary φ.cst_3 (constant S_ .f32 0x00000000#32),
    StableHlo.TRef.binary φ.v8 φ.cst_3 φ.v12 (cmpf .ogt),
    StableHlo.TRef.nullary φ.cst_4 (constant S_ .f32 0x7FC00000#32),
    StableHlo.TRef.unary φ.cst_4 φ.call0.v0 id,
    StableHlo.TRef.unary φ.call0.v0 φ.call0.v1 (broadcastInDim S512 ![] bcast_S_S512),
    StableHlo.TRef.ternary φ.v12 φ.v11 φ.call0.v1 φ.call0.v2 (fun p a b => select (broadcastInDim S512 ![] bcast_S_S512 p) a b) ]

/-- The operand records of the two calls. -/
abbrev call0_h : StableHlo.TRef sig ⟨S32768x512, .f32⟩ := .of main_v4
abbrev call0_c : StableHlo.TRef sig ⟨S_, .i32⟩ := .of main_c
abbrev call1_h : StableHlo.TRef sig ⟨S32768x512, .f32⟩ := .of main_v33
abbrev call1_c : StableHlo.TRef sig ⟨S_, .i32⟩ := .of main_c_6

/-- The first linear layer, its column mean, and the integer zero the first call takes. -/
abbrev opsA : List (HloOp τ sig (Elt F)) :=
  [ StableHlo.unary main_arg1 main_v0 ((transpose S784x512 [1, 0] · transposes_S512x784_S784x512_1_0) : (⟨S512x784, .f32⟩ : BufTy).Contents (Elt F) → (⟨S784x512, .f32⟩ : BufTy).Contents (Elt F)),
    StableHlo.binary main_arg0 main_v0 main_v1 ((fun l r => Host.dotGeneral dot_S32768x784_S784x512_S32768x512_1_0_0_1_n_n none l r) : (⟨S32768x784, .f32⟩ : BufTy).Contents (Elt F) → (⟨S784x512, .f32⟩ : BufTy).Contents (Elt F) → (⟨S32768x512, .f32⟩ : BufTy).Contents (Elt F)),
    StableHlo.unary main_arg2 main_v2 (broadcastInDim S1x512 ![1] bcast_S512_S1x512_1 : (⟨S512, .f32⟩ : BufTy).Contents (Elt F) → (⟨S1x512, .f32⟩ : BufTy).Contents (Elt F)),
    StableHlo.unary main_v2 main_v3 (broadcastInDim S32768x512 ![0, 1] bcast_S1x512_S32768x512_0_1 : (⟨S1x512, .f32⟩ : BufTy).Contents (Elt F) → (⟨S32768x512, .f32⟩ : BufTy).Contents (Elt F)),
    StableHlo.binary main_v1 main_v3 main_v4 (addf : (⟨S32768x512, .f32⟩ : BufTy).Contents (Elt F) → (⟨S32768x512, .f32⟩ : BufTy).Contents (Elt F) → (⟨S32768x512, .f32⟩ : BufTy).Contents (Elt F)),
    StableHlo.nullary main_cst (constant S_ .f32 0x00000000#32),
    StableHlo.binary main_v4 main_cst main_v5 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_0 (constant S_ .f32 0x47000000#32),
    StableHlo.unary main_cst_0 main_v6 (broadcastInDim S512 ![] bcast_S_S512 : (⟨S_, .f32⟩ : BufTy).Contents (Elt F) → (⟨S512, .f32⟩ : BufTy).Contents (Elt F)),
    StableHlo.binary main_v5 main_v6 main_v7 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32) ]

/-- The first call of the variance function. -/
abbrev opsB : List (HloOp τ sig (Elt F)) := varOps call0_h call0_c main_call0

/-- The first layer normalised, scaled, shifted, rectified, masked and rescaled; the second linear layer, its column
    mean, and the integer zero the second call takes. -/
abbrev opsC : List (HloOp τ sig (Elt F)) :=
  [ StableHlo.unary main_v7 main_v9 (broadcastInDim S1x512 ![1] bcast_S512_S1x512_1 : (⟨S512, .f32⟩ : BufTy).Contents (Elt F) → (⟨S1x512, .f32⟩ : BufTy).Contents (Elt F)),
    StableHlo.unary main_v9 main_v10 (broadcastInDim S32768x512 ![0, 1] bcast_S1x512_S32768x512_0_1 : (⟨S1x512, .f32⟩ : BufTy).Contents (Elt F) → (⟨S32768x512, .f32⟩ : BufTy).Contents (Elt F)),
    StableHlo.binary main_v4 main_v10 main_v11 (subf : (⟨S32768x512, .f32⟩ : BufTy).Contents (Elt F) → (⟨S32768x512, .f32⟩ : BufTy).Contents (Elt F) → (⟨S32768x512, .f32⟩ : BufTy).Contents (Elt F)),
    StableHlo.nullary main_cst_1 (constant S_ .f32 0x3727C5AC#32),
    StableHlo.unary main_cst_1 main_v12 (broadcastInDim S512 ![] bcast_S_S512 : (⟨S_, .f32⟩ : BufTy).Contents (Elt F) → (⟨S512, .f32⟩ : BufTy).Contents (Elt F)),
    StableHlo.binary main_v8 main_v12 main_v13 (addf : (⟨S512, .f32⟩ : BufTy).Contents (Elt F) → (⟨S512, .f32⟩ : BufTy).Contents (Elt F) → (⟨S512, .f32⟩ : BufTy).Contents (Elt F)),
    StableHlo.unary main_v13 main_v14 (Host.sqrt : (⟨S512, .f32⟩ : BufTy).Contents (Elt F) → (⟨S512, .f32⟩ : BufTy).Contents (Elt F)),
    StableHlo.unary main_v14 main_v15 (broadcastInDim S1x512 ![1] bcast_S512_S1x512_1 : (⟨S512, .f32⟩ : BufTy).Contents (Elt F) → (⟨S1x512, .f32⟩ : BufTy).Contents (Elt F)),
    StableHlo.unary main_v15 main_v16 (broadcastInDim S32768x512 ![0, 1] bcast_S1x512_S32768x512_0_1 : (⟨S1x512, .f32⟩ : BufTy).Contents (Elt F) → (⟨S32768x512, .f32⟩ : BufTy).Contents (Elt F)),
    StableHlo.binary main_v11 main_v16 main_v17 (Host.divf : (⟨S32768x512, .f32⟩ : BufTy).Contents (Elt F) → (⟨S32768x512, .f32⟩ : BufTy).Contents (Elt F) → (⟨S32768x512, .f32⟩ : BufTy).Contents (Elt F)),
    StableHlo.unary main_arg3 main_v18 (broadcastInDim S1x512 ![1] bcast_S512_S1x512_1 : (⟨S512, .f32⟩ : BufTy).Contents (Elt F) → (⟨S1x512, .f32⟩ : BufTy).Contents (Elt F)),
    StableHlo.unary main_v18 main_v19 (broadcastInDim S32768x512 ![0, 1] bcast_S1x512_S32768x512_0_1 : (⟨S1x512, .f32⟩ : BufTy).Contents (Elt F) → (⟨S32768x512, .f32⟩ : BufTy).Contents (Elt F)),
    StableHlo.binary main_v17 main_v19 main_v20 (mulf : (⟨S32768x512, .f32⟩ : BufTy).Contents (Elt F) → (⟨S32768x512, .f32⟩ : BufTy).Contents (Elt F) → (⟨S32768x512, .f32⟩ : BufTy).Contents (Elt F)),
    StableHlo.unary main_arg4 main_v21 (broadcastInDim S1x512 ![1] bcast_S512_S1x512_1 : (⟨S512, .f32⟩ : BufTy).Contents (Elt F) → (⟨S1x512, .f32⟩ : BufTy).Contents (Elt F)),
    StableHlo.unary main_v21 main_v22 (broadcastInDim S32768x512 ![0, 1] bcast_S1x512_S32768x512_0_1 : (⟨S1x512, .f32⟩ : BufTy).Contents (Elt F) → (⟨S32768x512, .f32⟩ : BufTy).Contents (Elt F)),
    StableHlo.binary main_v20 main_v22 main_v23 (addf : (⟨S32768x512, .f32⟩ : BufTy).Contents (Elt F) → (⟨S32768x512, .f32⟩ : BufTy).Contents (Elt F) → (⟨S32768x512, .f32⟩ : BufTy).Contents (Elt F)),
    StableHlo.nullary main_cst_2 (constant S_ .f32 0x00000000#32),
    StableHlo.unary main_cst_2 main_v24 (broadcastInDim S32768x512 ![] bcast_S_S32768x512 : (⟨S_, .f32⟩ : BufTy).Contents (Elt F) → (⟨S32768x512, .f32⟩ : BufTy).Contents (Elt F)),
    StableHlo.binary main_v23 main_v24 main_v25 (maximumf : (⟨S32768x512, .f32⟩ : BufTy).Contents (Elt F) → (⟨S32768x512, .f32⟩ : BufTy).Contents (Elt F) → (⟨S32768x512, .f32⟩ : BufTy).Contents (Elt F)),
    StableHlo.binary main_v25 main_arg11 main_v26 (mulf : (⟨S32768x512, .f32⟩ : BufTy).Contents (Elt F) → (⟨S32768x512, .f32⟩ : BufTy).Contents (Elt F) → (⟨S32768x512, .f32⟩ : BufTy).Contents (Elt F)),
    StableHlo.nullary main_cst_3 (constant S_ .f32 0x3FB6DB6E#32),
    StableHlo.unary main_cst_3 main_v27 (broadcastInDim S32768x512 ![] bcast_S_S32768x512 : (⟨S_, .f32⟩ : BufTy).Contents (Elt F) → (⟨S32768x512, .f32⟩ : BufTy).Contents (Elt F)),
    StableHlo.binary main_v26 main_v27 main_v28 (mulf : (⟨S32768x512, .f32⟩ : BufTy).Contents (Elt F) → (⟨S32768x512, .f32⟩ : BufTy).Contents (Elt F) → (⟨S32768x512, .f32⟩ : BufTy).Contents (Elt F)),
    StableHlo.unary main_arg5 main_v29 ((transpose S512x512 [1, 0] · transposes_S512x512_S512x512_1_0) : (⟨S512x512, .f32⟩ : BufTy).Contents (Elt F) → (⟨S512x512, .f32⟩ : BufTy).Contents (Elt F)),
    StableHlo.binary main_v28 main_v29 main_v30 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    StableHlo.unary main_arg6 main_v31 (broadcastInDim S1x512 ![1] bcast_S512_S1x512_1 : (⟨S512, .f32⟩ : BufTy).Contents (Elt F) → (⟨S1x512, .f32⟩ : BufTy).Contents (Elt F)),
    StableHlo.unary main_v31 main_v32 (broadcastInDim S32768x512 ![0, 1] bcast_S1x512_S32768x512_0_1 : (⟨S1x512, .f32⟩ : BufTy).Contents (Elt F) → (⟨S32768x512, .f32⟩ : BufTy).Contents (Elt F)),
    StableHlo.binary main_v30 main_v32 main_v33 (addf : (⟨S32768x512, .f32⟩ : BufTy).Contents (Elt F) → (⟨S32768x512, .f32⟩ : BufTy).Contents (Elt F) → (⟨S32768x512, .f32⟩ : BufTy).Contents (Elt F)),
    StableHlo.nullary main_cst_4 (constant S_ .f32 0x00000000#32),
    StableHlo.binary main_v33 main_cst_4 main_v34 ((fun x v => Host.reduceAdd x v reducesTo_S32768x512_S512_d0 h_S_) : (⟨S32768x512, .f32⟩ : BufTy).Contents (Elt F) → (⟨S_, .f32⟩ : BufTy).Contents (Elt F) → (⟨S512, .f32⟩ : BufTy).Contents (Elt F)),
    StableHlo.nullary main_cst_5 (constant S_ .f32 0x47000000#32),
    StableHlo.unary main_cst_5 main_v35 (broadcastInDim S512 ![] bcast_S_S512 : (⟨S_, .f32⟩ : BufTy).Contents (Elt F) → (⟨S512, .f32⟩ : BufTy).Contents (Elt F)),
    StableHlo.binary main_v34 main_v35 main_v36 (Host.divf : (⟨S512, .f32⟩ : BufTy).Contents (Elt F) → (⟨S512, .f32⟩ : BufTy).Contents (Elt F) → (⟨S512, .f32⟩ : BufTy).Contents (Elt F)),
    StableHlo.nullary main_c_6 (constantI S_ 32 0#32) ]

/-- The second call of the variance function. -/
abbrev opsD : List (HloOp τ sig (Elt F)) := varOps call1_h call1_c main_call1

/-- The second layer normalised and scaled by γ. -/
abbrev opsE : List (HloOp τ sig (Elt F)) :=
  [ StableHlo.unary main_v36 main_v38 (broadcastInDim S1x512 ![1] bcast_S512_S1x512_1 : (⟨S512, .f32⟩ : BufTy).Contents (Elt F) → (⟨S1x512, .f32⟩ : BufTy).Contents (Elt F)),
    StableHlo.unary main_v38 main_v39 (broadcastInDim S32768x512 ![0, 1] bcast_S1x512_S32768x512_0_1 : (⟨S1x512, .f32⟩ : BufTy).Contents (Elt F) → (⟨S32768x512, .f32⟩ : BufTy).Contents (Elt F)),
    StableHlo.binary main_v33 main_v39 main_v40 (subf : (⟨S32768x512, .f32⟩ : BufTy).Contents (Elt F) → (⟨S32768x512, .f32⟩ : BufTy).Contents (Elt F) → (⟨S32768x512, .f32⟩ : BufTy).Contents (Elt F)),
    StableHlo.nullary main_cst_7 (constant S_ .f32 0x3727C5AC#32),
    StableHlo.unary main_cst_7 main_v41 (broadcastInDim S512 ![] bcast_S_S512 : (⟨S_, .f32⟩ : BufTy).Contents (Elt F) → (⟨S512, .f32⟩ : BufTy).Contents (Elt F)),
    StableHlo.binary main_v37 main_v41 main_v42 (addf : (⟨S512, .f32⟩ : BufTy).Contents (Elt F) → (⟨S512, .f32⟩ : BufTy).Contents (Elt F) → (⟨S512, .f32⟩ : BufTy).Contents (Elt F)),
    StableHlo.unary main_v42 main_v43 (Host.sqrt : (⟨S512, .f32⟩ : BufTy).Contents (Elt F) → (⟨S512, .f32⟩ : BufTy).Contents (Elt F)),
    StableHlo.unary main_v43 main_v44 (broadcastInDim S1x512 ![1] bcast_S512_S1x512_1 : (⟨S512, .f32⟩ : BufTy).Contents (Elt F) → (⟨S1x512, .f32⟩ : BufTy).Contents (Elt F)),
    StableHlo.unary main_v44 main_v45 (broadcastInDim S32768x512 ![0, 1] bcast_S1x512_S32768x512_0_1 : (⟨S1x512, .f32⟩ : BufTy).Contents (Elt F) → (⟨S32768x512, .f32⟩ : BufTy).Contents (Elt F)),
    StableHlo.binary main_v40 main_v45 main_v46 (Host.divf : (⟨S32768x512, .f32⟩ : BufTy).Contents (Elt F) → (⟨S32768x512, .f32⟩ : BufTy).Contents (Elt F) → (⟨S32768x512, .f32⟩ : BufTy).Contents (Elt F)),
    StableHlo.unary main_arg7 main_v47 (broadcastInDim S1x512 ![1] bcast_S512_S1x512_1 : (⟨S512, .f32⟩ : BufTy).Contents (Elt F) → (⟨S1x512, .f32⟩ : BufTy).Contents (Elt F)),
    StableHlo.unary main_v47 main_v48 (broadcastInDim S32768x512 ![0, 1] bcast_S1x512_S32768x512_0_1 : (⟨S1x512, .f32⟩ : BufTy).Contents (Elt F) → (⟨S32768x512, .f32⟩ : BufTy).Contents (Elt F)),
    StableHlo.binary main_v46 main_v48 main_v49 (mulf : (⟨S32768x512, .f32⟩ : BufTy).Contents (Elt F) → (⟨S32768x512, .f32⟩ : BufTy).Contents (Elt F) → (⟨S32768x512, .f32⟩ : BufTy).Contents (Elt F)) ]

/-- The second layer shifted, rectified, masked and rescaled; the last linear layer. -/
abbrev opsG : List (HloOp τ sig (Elt F)) :=
  [ StableHlo.unary main_arg8 main_v50 (broadcastInDim S1x512 ![1] bcast_S512_S1x512_1 : (⟨S512, .f32⟩ : BufTy).Contents (Elt F) → (⟨S1x512, .f32⟩ : BufTy).Contents (Elt F)),
    StableHlo.unary main_v50 main_v51 (broadcastInDim S32768x512 ![0, 1] bcast_S1x512_S32768x512_0_1 : (⟨S1x512, .f32⟩ : BufTy).Contents (Elt F) → (⟨S32768x512, .f32⟩ : BufTy).Contents (Elt F)),
    StableHlo.binary main_v49 main_v51 main_v52 (addf : (⟨S32768x512, .f32⟩ : BufTy).Contents (Elt F) → (⟨S32768x512, .f32⟩ : BufTy).Contents (Elt F) → (⟨S32768x512, .f32⟩ : BufTy).Contents (Elt F)),
    StableHlo.nullary main_cst_8 (constant S_ .f32 0x00000000#32),
    StableHlo.unary main_cst_8 main_v53 (broadcastInDim S32768x512 ![] bcast_S_S32768x512 : (⟨S_, .f32⟩ : BufTy).Contents (Elt F) → (⟨S32768x512, .f32⟩ : BufTy).Contents (Elt F)),
    StableHlo.binary main_v52 main_v53 main_v54 (maximumf : (⟨S32768x512, .f32⟩ : BufTy).Contents (Elt F) → (⟨S32768x512, .f32⟩ : BufTy).Contents (Elt F) → (⟨S32768x512, .f32⟩ : BufTy).Contents (Elt F)),
    StableHlo.binary main_v54 main_arg12 main_v55 (mulf : (⟨S32768x512, .f32⟩ : BufTy).Contents (Elt F) → (⟨S32768x512, .f32⟩ : BufTy).Contents (Elt F) → (⟨S32768x512, .f32⟩ : BufTy).Contents (Elt F)),
    StableHlo.nullary main_cst_9 (constant S_ .f32 0x3FB6DB6E#32),
    StableHlo.unary main_cst_9 main_v56 (broadcastInDim S32768x512 ![] bcast_S_S32768x512 : (⟨S_, .f32⟩ : BufTy).Contents (Elt F) → (⟨S32768x512, .f32⟩ : BufTy).Contents (Elt F)),
    StableHlo.binary main_v55 main_v56 main_v57 (mulf : (⟨S32768x512, .f32⟩ : BufTy).Contents (Elt F) → (⟨S32768x512, .f32⟩ : BufTy).Contents (Elt F) → (⟨S32768x512, .f32⟩ : BufTy).Contents (Elt F)),
    StableHlo.unary main_arg9 main_v58 ((transpose S512x10 [1, 0] · transposes_S10x512_S512x10_1_0) : (⟨S10x512, .f32⟩ : BufTy).Contents (Elt F) → (⟨S512x10, .f32⟩ : BufTy).Contents (Elt F)),
    StableHlo.binary main_v57 main_v58 main_v59 ((fun l r => Host.dotGeneral dot_S32768x512_S512x10_S32768x10_1_0_0_1_n_n none l r) : (⟨S32768x512, .f32⟩ : BufTy).Contents (Elt F) → (⟨S512x10, .f32⟩ : BufTy).Contents (Elt F) → (⟨S32768x10, .f32⟩ : BufTy).Contents (Elt F)),
    StableHlo.unary main_arg10 main_v60 (broadcastInDim S1x10 ![1] bcast_S10_S1x10_1 : (⟨S10, .f32⟩ : BufTy).Contents (Elt F) → (⟨S1x10, .f32⟩ : BufTy).Contents (Elt F)),
    StableHlo.unary main_v60 main_v61 (broadcastInDim S32768x10 ![0, 1] bcast_S1x10_S32768x10_0_1 : (⟨S1x10, .f32⟩ : BufTy).Contents (Elt F) → (⟨S32768x10, .f32⟩ : BufTy).Contents (Elt F)),
    StableHlo.binary main_v59 main_v61 main_v62 (addf : (⟨S32768x10, .f32⟩ : BufTy).Contents (Elt F) → (⟨S32768x10, .f32⟩ : BufTy).Contents (Elt F) → (⟨S32768x10, .f32⟩ : BufTy).Contents (Elt F)) ]

/-- The first window of @main: five stretches. -/
abbrev opsP0 : List (HloOp τ sig (Elt F)) := opsA ++ (opsB ++ (opsC ++ (opsD ++ opsE)))

/-- All of @main's operations, in order. -/
abbrev ops : List (HloOp τ sig (Elt F)) := opsP0 ++ opsG

/-! ## @main is that line -/

/-- The variance function's body is the line of its operations: its call of the selection function unfolds in place. -/
theorem var_body_eq (a0 : StableHlo.TRef sig ⟨S32768x512, .f32⟩) (a1 : StableHlo.TRef sig ⟨S_, .i32⟩) (φ : fn_var.Bufs) :
    (fn_var.body a0 a1 φ : Prog (TpuEff nD τ sig (Elt F) (Pipeline.Sig Λ₀ (Fin 0) fun p => (pcfgs (F := F) p).Adm) .tc) PUnit)
      = seq (varOps a0 a1 φ) := rfl

/-- The first window of @main is its five stretches in a row. -/
theorem part0_eq (c : Dev nD) : main_part0 (F := F) c = seq opsP0 := rfl

/-- The second window is the last stretch. -/
theorem part1_eq (c : Dev nD) : main_part1 (F := F) c = seq opsG := rfl

/-- @main is the line of all its operations. -/
theorem main_eq (c : Dev nD) : main (F := F) c = seq ops := by
  show (main_part0 (F := F) c >>= fun _ => main_part1 (F := F) c) = seq (opsP0 ++ opsG)
  rw [seq_append, part0_eq, part1_eq]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only and determines what it writes -/

private theorem forall_app {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

theorem varOps_sub (a0 : StableHlo.TRef sig ⟨S32768x512, .f32⟩) (a1 : StableHlo.TRef sig ⟨S_, .i32⟩) (φ : fn_var.Bufs) :
    (varOps (F := F) a0 a1 φ).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsA_sub : (opsA : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩
theorem opsE_sub : (opsE : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem opsG_sub : (opsG : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  forall_app (forall_app opsA_sub (forall_app (varOps_sub _ _ _) (forall_app opsC_sub (forall_app (varOps_sub _ _ _) opsE_sub)))) opsG_sub

theorem varOps_fresh (a0 : StableHlo.TRef sig ⟨S32768x512, .f32⟩) (a1 : StableHlo.TRef sig ⟨S_, .i32⟩) (φ : fn_var.Bufs) :
    (varOps (F := F) a0 a1 φ).Forall fun op => op.fresh = ∅ :=
  ⟨rfl, rfl, rfl, rfl, rfl, rfl, rfl, rfl, rfl, rfl, rfl, rfl, rfl, rfl, rfl, rfl, rfl, rfl, rfl, rfl, rfl, rfl⟩
theorem opsA_fresh : (opsA : List (HloOp τ sig (Elt F))).Forall fun op => op.fresh = ∅ :=
  ⟨rfl, rfl, rfl, rfl, rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsE_fresh : (opsE : List (HloOp τ sig (Elt F))).Forall fun op => op.fresh = ∅ :=
  ⟨rfl, rfl, rfl, rfl, rfl, rfl, rfl, rfl, rfl, rfl, rfl, rfl, rfl⟩
theorem opsG_fresh : (opsG : List (HloOp τ sig (Elt F))).Forall fun op => op.fresh = ∅ :=
  ⟨rfl, rfl, rfl, rfl, rfl, rfl, rfl, rfl, rfl, rfl, rfl, rfl, rfl, rfl, rfl⟩
theorem ops_fresh : ∀ op ∈ (ops : List (HloOp τ sig (Elt F))), op.fresh = ∅ :=
  List.forall_iff_forall_mem.mp
    (forall_app (forall_app opsA_fresh (forall_app (varOps_fresh _ _ _) (forall_app opsC_fresh (forall_app (varOps_fresh _ _ _) opsE_fresh)))) opsG_fresh)

/-- Every weakly fair execution of @main terminates with every buffer at the fold of the operations over the launch
    contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What each stretch leaves

A buffer a stretch does not write keeps what it held; the buffers read later are named by their composed terms. -/

/-- The buffers the variance function's operations write, over one call's record. -/
abbrev varW (φ : fn_var.Bufs) : List (Ref sig .tc) :=
  [φ.cst.ref, φ.v0.ref, φ.v1.ref, φ.cst_0.ref, φ.v2.ref, φ.v3.ref, φ.v4.ref, φ.v5.ref, φ.v6.ref, φ.v7.ref, φ.cst_1.ref, φ.v8.ref, φ.cst_2.ref, φ.v9.ref, φ.v10.ref, φ.v11.ref, φ.cst_3.ref, φ.v12.ref, φ.cst_4.ref, φ.call0.v0.ref, φ.call0.v1.ref, φ.call0.v2.ref]
/-- The buffers each stretch of @main's own operations writes. -/
abbrev wA : List (Ref sig .tc) := [main_v0, main_v1, main_v2, main_v3, main_v4, main_cst, main_v5, main_cst_0, main_v6, main_v7, main_c]
abbrev wC : List (Ref sig .tc) := [main_v9, main_v10, main_v11, main_cst_1, main_v12, main_v13, main_v14, main_v15, main_v16, main_v17, main_v18, main_v19, main_v20, main_v21, main_v22, main_v23, main_cst_2, main_v24, main_v25, main_v26, main_cst_3, main_v27, main_v28, main_v29, main_v30, main_v31, main_v32, main_v33, main_cst_4, main_v34, main_cst_5, main_v35, main_v36, main_c_6]
abbrev wE : List (Ref sig .tc) := [main_v38, main_v39, main_v40, main_cst_7, main_v41, main_v42, main_v43, main_v44, main_v45, main_v46, main_v47, main_v48, main_v49]
abbrev wG : List (Ref sig .tc) := [main_v50, main_v51, main_v52, main_cst_8, main_v53, main_v54, main_v55, main_cst_9, main_v56, main_v57, main_v58, main_v59, main_v60, main_v61, main_v62]

theorem varOps_writes (a0 : StableHlo.TRef sig ⟨S32768x512, .f32⟩) (a1 : StableHlo.TRef sig ⟨S_, .i32⟩) (φ : fn_var.Bufs) :
    (varOps (F := F) a0 a1 φ).Forall fun op => op.writes ⊆ ((varW φ).map (Proc.devRef (τ := τ) .tc)).toFinset :=
  ⟨(by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true])), (by simp only [List.Forall, nullary_writes, unary_writes, binary_writes, ternary_writes, Finset.singleton_subset_iff, List.mem_toFinset]; exact List.mem_map_of_mem (by simp only [List.mem_cons, true_or, or_true]))⟩
theorem opsA_writes : (opsA : List (HloOp τ sig (Elt F))).Forall fun op => op.writes ⊆ (wA.map (Proc.devRef (τ := τ) .tc)).toFinset :=
  ⟨(by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide))⟩
theorem opsC_writes : (opsC : List (HloOp τ sig (Elt F))).Forall fun op => op.writes ⊆ (wC.map (Proc.devRef (τ := τ) .tc)).toFinset :=
  ⟨(by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide))⟩
theorem opsE_writes : (opsE : List (HloOp τ sig (Elt F))).Forall fun op => op.writes ⊆ (wE.map (Proc.devRef (τ := τ) .tc)).toFinset :=
  ⟨(by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide))⟩
theorem opsG_writes : (opsG : List (HloOp τ sig (Elt F))).Forall fun op => op.writes ⊆ (wG.map (Proc.devRef (τ := τ) .tc)).toFinset :=
  ⟨(by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide)), (by simp only [List.Forall, nullary_writes, unary_writes, binary_writes, ternary_writes, Finset.singleton_subset_iff, List.mem_toFinset]; exact List.mem_map_of_mem (by decide))⟩

/-- A layer's output normalised by its own column statistics and scaled by γ. -/
def normed (h : Vec F S32768x512 .f32) (gamma : Vec F S512 .f32) : Vec F S32768x512 .f32 :=
  mulf (Host.divf (subf h (rows512 (mean h)))
      (rows512 (Host.sqrt (addf (var h) (broadcastInDim S512 ![] bcast_S_S512 (constant S_ .f32 0x3727C5AC#32))))))
    (rows512 gamma)

/-- The first layer's output, of the launch contents. -/
def lay1 (V : Valuation τ sig (Elt F)) : Vec F S32768x512 .f32 := lin1 (V (main_arg0 : DevRef τ sig)) (V (main_arg1 : DevRef τ sig)) (V (main_arg2 : DevRef τ sig))
/-- The second layer's output, of the launch contents. -/
def lay2 (V : Valuation τ sig (Elt F)) : Vec F S32768x512 .f32 := lin2 (act (lay1 V) (V (main_arg3 : DevRef τ sig)) (V (main_arg4 : DevRef τ sig)) (V (main_arg11 : DevRef τ sig))) (V (main_arg5 : DevRef τ sig)) (V (main_arg6 : DevRef τ sig))

/-- The contents after the first stretch. -/
def val1 (V : Valuation τ sig (Elt F)) : Valuation τ sig (Elt F) := after opsA V
theorem val1_keep (V : Valuation τ sig (Elt F)) (r : Ref sig .tc) (h : r ∉ wA) : val1 V (Proc.devRef .tc r) = V (Proc.devRef .tc r) :=
  after_of_writes_sub opsA V opsA_writes h
theorem val1_v4 (V : Valuation τ sig (Elt F)) : val1 V (no_index (Proc.devRef .tc main_v4)) = lay1 V := by
  unfold val1; simp only [opsA]; after_results_simp <;> rfl
theorem val1_v7 (V : Valuation τ sig (Elt F)) : val1 V (no_index (Proc.devRef .tc main_v7)) = mean (lay1 V) := by
  unfold val1; simp only [opsA]; after_results_simp <;> rfl
theorem val1_c (V : Valuation τ sig (Elt F)) : val1 V (no_index (Proc.devRef .tc main_c)) = constantI S_ 32 0#32 := by
  unfold val1; simp only [opsA]; after_results_simp <;> rfl

/-- The contents after the first call of the variance function. -/
def val2 (V : Valuation τ sig (Elt F)) : Valuation τ sig (Elt F) := after opsB (val1 V)
theorem val2_keep (V : Valuation τ sig (Elt F)) (r : Ref sig .tc) (h : r ∉ varW main_call0) : val2 V (Proc.devRef .tc r) = val1 V (Proc.devRef .tc r) :=
  after_of_writes_sub opsB (val1 V) (varOps_writes _ _ _) h
theorem val2_v8 (V : Valuation τ sig (Elt F)) : val2 V (no_index (Proc.devRef .tc main_v8)) = var (lay1 V) := by
  unfold val2; simp only [opsB, varOps]; after_results_simp
  simp only [StableHlo.TRef.ofBuf, StableHlo.TRef.toBuf, cast_eq, val1_v4, val1_c]
  rfl
theorem val2_v4 (V : Valuation τ sig (Elt F)) : val2 V (no_index (Proc.devRef .tc main_v4)) = lay1 V := (val2_keep V main_v4 (by decide)).trans (val1_v4 V)
theorem val2_v7 (V : Valuation τ sig (Elt F)) : val2 V (no_index (Proc.devRef .tc main_v7)) = mean (lay1 V) := (val2_keep V main_v7 (by decide)).trans (val1_v7 V)
theorem val2_arg (V : Valuation τ sig (Elt F)) (r : Ref sig .tc) (hA : r ∉ wA) (hB : r ∉ varW main_call0) :
    val2 V (Proc.devRef .tc r) = V (Proc.devRef .tc r) := (val2_keep V r hB).trans (val1_keep V r hA)

/-- The contents after the third stretch. -/
def val3 (V : Valuation τ sig (Elt F)) : Valuation τ sig (Elt F) := after opsC (val2 V)
theorem val3_keep (V : Valuation τ sig (Elt F)) (r : Ref sig .tc) (h : r ∉ wC) : val3 V (Proc.devRef .tc r) = val2 V (Proc.devRef .tc r) :=
  after_of_writes_sub opsC (val2 V) opsC_writes h
theorem val3_v33 (V : Valuation τ sig (Elt F)) : val3 V (no_index (Proc.devRef .tc main_v33)) = lay2 V := by
  unfold val3; simp only [opsC]; after_results_simp
  simp only [val2_v4, val2_v7, val2_v8, val2_arg V main_arg3 (by decide) (by decide), val2_arg V main_arg4 (by decide) (by decide), val2_arg V main_arg11 (by decide) (by decide), val2_arg V main_arg5 (by decide) (by decide), val2_arg V main_arg6 (by decide) (by decide)]
  rfl
theorem val3_v36 (V : Valuation τ sig (Elt F)) : val3 V (no_index (Proc.devRef .tc main_v36)) = mean (lay2 V) := by
  unfold val3; simp only [opsC]; after_results_simp
  simp only [val2_v4, val2_v7, val2_v8, val2_arg V main_arg3 (by decide) (by decide), val2_arg V main_arg4 (by decide) (by decide), val2_arg V main_arg11 (by decide) (by decide), val2_arg V main_arg5 (by decide) (by decide), val2_arg V main_arg6 (by decide) (by decide)]
  rfl
theorem val3_c (V : Valuation τ sig (Elt F)) : val3 V (no_index (Proc.devRef .tc main_c_6)) = constantI S_ 32 0#32 := by
  unfold val3; simp only [opsC]; after_results_simp <;> rfl
theorem val3_arg (V : Valuation τ sig (Elt F)) (r : Ref sig .tc) (hA : r ∉ wA) (hB : r ∉ varW main_call0) (hC : r ∉ wC) :
    val3 V (Proc.devRef .tc r) = V (Proc.devRef .tc r) := (val3_keep V r hC).trans (val2_arg V r hA hB)

/-- The contents after the second call of the variance function. -/
def val4 (V : Valuation τ sig (Elt F)) : Valuation τ sig (Elt F) := after opsD (val3 V)
theorem val4_keep (V : Valuation τ sig (Elt F)) (r : Ref sig .tc) (h : r ∉ varW main_call1) : val4 V (Proc.devRef .tc r) = val3 V (Proc.devRef .tc r) :=
  after_of_writes_sub opsD (val3 V) (varOps_writes _ _ _) h
theorem val4_v37 (V : Valuation τ sig (Elt F)) : val4 V (no_index (Proc.devRef .tc main_v37)) = var (lay2 V) := by
  unfold val4; simp only [opsD, varOps]; after_results_simp
  simp only [StableHlo.TRef.ofBuf, StableHlo.TRef.toBuf, cast_eq, val3_v33, val3_c]
  rfl
theorem val4_v33 (V : Valuation τ sig (Elt F)) : val4 V (no_index (Proc.devRef .tc main_v33)) = lay2 V := (val4_keep V main_v33 (by decide)).trans (val3_v33 V)
theorem val4_v36 (V : Valuation τ sig (Elt F)) : val4 V (no_index (Proc.devRef .tc main_v36)) = mean (lay2 V) := (val4_keep V main_v36 (by decide)).trans (val3_v36 V)
theorem val4_arg (V : Valuation τ sig (Elt F)) (r : Ref sig .tc) (hA : r ∉ wA) (hB : r ∉ varW main_call0) (hC : r ∉ wC) (hD : r ∉ varW main_call1) :
    val4 V (Proc.devRef .tc r) = V (Proc.devRef .tc r) := (val4_keep V r hD).trans (val3_arg V r hA hB hC)

/-- The contents after the fifth stretch. -/
def val5 (V : Valuation τ sig (Elt F)) : Valuation τ sig (Elt F) := after opsE (val4 V)
theorem val5_keep (V : Valuation τ sig (Elt F)) (r : Ref sig .tc) (h : r ∉ wE) : val5 V (Proc.devRef .tc r) = val4 V (Proc.devRef .tc r) :=
  after_of_writes_sub opsE (val4 V) opsE_writes h
theorem val5_v49 (V : Valuation τ sig (Elt F)) : val5 V (no_index (Proc.devRef .tc main_v49)) = normed (lay2 V) (V (main_arg7 : DevRef τ sig)) := by
  unfold val5; simp only [opsE]; after_results_simp
  simp only [val4_v33, val4_v36, val4_v37, val4_arg V main_arg7 (by decide) (by decide) (by decide) (by decide)]
  rfl
theorem val5_arg (V : Valuation τ sig (Elt F)) (r : Ref sig .tc) (hA : r ∉ wA) (hB : r ∉ varW main_call0) (hC : r ∉ wC) (hD : r ∉ varW main_call1)
    (hE : r ∉ wE) : val5 V (Proc.devRef .tc r) = V (Proc.devRef .tc r) := (val5_keep V r hE).trans (val4_arg V r hA hB hC hD)

/-- The contents after the last stretch. -/
def val6 (V : Valuation τ sig (Elt F)) : Valuation τ sig (Elt F) := after opsG (val5 V)
theorem val6_keep (V : Valuation τ sig (Elt F)) (r : Ref sig .tc) (h : r ∉ wG) : val6 V (Proc.devRef .tc r) = val5 V (Proc.devRef .tc r) :=
  after_of_writes_sub opsG (val5 V) opsG_writes h
theorem val6_v62 (V : Valuation τ sig (Elt F)) : val6 V (no_index (Proc.devRef .tc main_v62))
    = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  unfold val6; simp only [opsG]; after_results_simp
  simp only [val5_v49, val5_arg V main_arg8 (by decide) (by decide) (by decide) (by decide) (by decide), val5_arg V main_arg12 (by decide) (by decide) (by decide) (by decide) (by decide), val5_arg V main_arg9 (by decide) (by decide) (by decide) (by decide) (by decide), val5_arg V main_arg10 (by decide) (by decide) (by decide) (by decide) (by decide)]
  rfl
theorem val6_arg (V : Valuation τ sig (Elt F)) (r : Ref sig .tc) (hA : r ∉ wA) (hB : r ∉ varW main_call0) (hC : r ∉ wC) (hD : r ∉ varW main_call1)
    (hE : r ∉ wE) (hG : r ∉ wG) : val6 V (Proc.devRef .tc r) = V (Proc.devRef .tc r) := (val6_keep V r hG).trans (val5_arg V r hA hB hC hD hE)

/-- Two lines in a row fold as one after the other. -/
private theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The fold of the whole line is the six stretches' folds in a row. -/
theorem after_ops (V : Valuation τ sig (Elt F)) : after ops V = val6 V := by
  simp only [ops, opsP0, after_app]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(h c main_v62).trans ((congrFun (after_ops _) _).trans (val6_v62 _)),
      (h c main_arg0).trans ((congrFun (after_ops _) _).trans (val6_arg _ main_arg0 (by decide) (by decide) (by decide) (by decide) (by decide) (by decide))),
      (h c main_arg1).trans ((congrFun (after_ops _) _).trans (val6_arg _ main_arg1 (by decide) (by decide) (by decide) (by decide) (by decide) (by decide))),
      (h c main_arg2).trans ((congrFun (after_ops _) _).trans (val6_arg _ main_arg2 (by decide) (by decide) (by decide) (by decide) (by decide) (by decide))),
      (h c main_arg3).trans ((congrFun (after_ops _) _).trans (val6_arg _ main_arg3 (by decide) (by decide) (by decide) (by decide) (by decide) (by decide))),
      (h c main_arg4).trans ((congrFun (after_ops _) _).trans (val6_arg _ main_arg4 (by decide) (by decide) (by decide) (by decide) (by decide) (by decide))),
      (h c main_arg5).trans ((congrFun (after_ops _) _).trans (val6_arg _ main_arg5 (by decide) (by decide) (by decide) (by decide) (by decide) (by decide))),
      (h c main_arg6).trans ((congrFun (after_ops _) _).trans (val6_arg _ main_arg6 (by decide) (by decide) (by decide) (by decide) (by decide) (by decide))),
      (h c main_arg7).trans ((congrFun (after_ops _) _).trans (val6_arg _ main_arg7 (by decide) (by decide) (by decide) (by decide) (by decide) (by decide))),
      (h c main_arg8).trans ((congrFun (after_ops _) _).trans (val6_arg _ main_arg8 (by decide) (by decide) (by decide) (by decide) (by decide) (by decide))),
      (h c main_arg9).trans ((congrFun (after_ops _) _).trans (val6_arg _ main_arg9 (by decide) (by decide) (by decide) (by decide) (by decide) (by decide))),
      (h c main_arg10).trans ((congrFun (after_ops _) _).trans (val6_arg _ main_arg10 (by decide) (by decide) (by decide) (by decide) (by decide) (by decide))),
      (h c main_arg11).trans ((congrFun (after_ops _) _).trans (val6_arg _ main_arg11 (by decide) (by decide) (by decide) (by decide) (by decide) (by decide))),
      (h c main_arg12).trans ((congrFun (after_ops _) _).trans (val6_arg _ main_arg12 (by decide) (by decide) (by decide) (by decide) (by decide) (by decide)))⟩)
    (run_ops m ρ)

end Cert.RV

end
-- ==== Proof.RRead.lean ====
/-
  The reference's composed term read at an index, at the ideal instance: entry (i, j) of the result is the second
  form of the network in the specification, of the argument arrays curried.
-/
import proofs.«125560_j53815940219270_1_alg».proof.Proof.Gen.ReferenceIdeal
import proofs.«125560_j53815940219270_1_alg».proof.Proof.RefStages
import proofs.«125560_j53815940219270_1_alg».proof.Proof.Spec
import Idealize.ShloMosaic.Lib.ValueIdx
import Idealize.ShloMosaic.PureOps.Ideal.Laws

noncomputable section

namespace Cert.RV

open Idealize.ShloMosaic Idealize.ShloMosaic.TcCoe Idealize.SL.Sem Idealize.ShloMosaic.ValueIdx
open Cert.ReferenceIdeal Cert.ReferenceIdeal.Gen

/-! ## Arrays as functions of their coordinates -/

/-- A rank-2 array as a function of its two coordinates. -/
def cur2 {n0 n1 : Nat} (v : (⟨2, ![n0, n1]⟩ : Shape).Idx → EReal) : Fin n0 → Fin n1 → EReal := fun i j => v (ix2 i j)
/-- A rank-1 array as a function of its coordinate. -/
def cur1 {n : Nat} (v : (⟨1, ![n]⟩ : Shape).Idx → EReal) : Fin n → EReal := fun j => v (ix1 j)

/-! ## Broadcasts read at an index -/

/-- A [1, 512] row broadcast along the 32768 rows reads, at (i, j), the row at (0, j). -/
theorem rowsOf1_apply (v : Vec Ideal S1x512 .f32) (k : Fin 32768) (q : Fin 512) :
    broadcastInDim S32768x512 ![0, 1] bcast_S1x512_S32768x512_0_1 v (ix2 k q) = v (ix2 (0 : Fin 1) q) := by
  unfold broadcastInDim
  exact congrArg v (funext fun a => Fin.ext (by match a with | ⟨0, _⟩ => rfl | ⟨1, _⟩ => rfl))
/-- A 512-vector laid out as a [1, 512] row reads, at (0, j), the vector at j. -/
theorem row1_apply (s : Vec Ideal S512 .f32) (q : Fin 512) :
    broadcastInDim S1x512 ![1] bcast_S512_S1x512_1 s (ix2 (0 : Fin 1) q) = s (ix1 q) := by
  unfold broadcastInDim
  exact congrArg s (funext fun a => Fin.ext (by match a with | ⟨0, _⟩ => rfl))
/-- A 512-vector broadcast along the 32768 rows reads, at (i, j), the vector at j. -/
theorem rows512_apply (b : Vec Ideal S512 .f32) (p : Fin 32768) (q : Fin 512) :
    rows512 b (ix2 p q) = b (ix1 q) := by
  unfold rows512
  rw [rowsOf1_apply, row1_apply]
/-- A 10-vector broadcast along the 32768 rows reads, at (i, j), the vector at j. -/
theorem rows10_apply (b : Vec Ideal S10 .f32) (p : Fin 32768) (q : Fin 10) :
    broadcastInDim S32768x10 ![0, 1] bcast_S1x10_S32768x10_0_1 (broadcastInDim S1x10 ![1] bcast_S10_S1x10_1 b) (ix2 p q)
      = b (ix1 q) := by
  unfold broadcastInDim
  exact congrArg b (funext fun a => Fin.ext (by match a with | ⟨0, _⟩ => rfl))

/-! ## The three linear layers read at an index -/

/-! ### The first layer: [32768, 784] against the transposed [512, 784] weight

The four coordinate facts first: at result index i and contraction index q, the left operand is read at (i₀, q) and the
right operand at (q, i₁). -/

theorem lhs_lin1_0 (i : S32768x512.Idx) (q : dot_S32768x784_S784x512_S32768x512_1_0_0_1_n_n.contr.Idx) :
    (dot_S32768x784_S784x512_S32768x512_1_0_0_1_n_n.lhsIdx i q 0).val = (i 0).val := by
  unfold DotDims.lhsIdx
  rw [dif_neg (show ¬(0 : Fin S32768x784.rank) ∈ dot_S32768x784_S784x512_S32768x512_1_0_0_1_n_n.lhsBatch by decide),
    dif_pos (show (0 : Fin S32768x784.rank) ∈ dot_S32768x784_S784x512_S32768x512_1_0_0_1_n_n.lhsNonContracting by decide)]
  rfl
theorem lhs_lin1_1 (i : S32768x512.Idx) (q : dot_S32768x784_S784x512_S32768x512_1_0_0_1_n_n.contr.Idx) :
    (dot_S32768x784_S784x512_S32768x512_1_0_0_1_n_n.lhsIdx i q 1).val = (q ⟨0, by decide⟩).val :=
  dot_S32768x784_S784x512_S32768x512_1_0_0_1_n_n.lhsIdx_val_of_single rfl i q
theorem rhs_lin1_0 (i : S32768x512.Idx) (q : dot_S32768x784_S784x512_S32768x512_1_0_0_1_n_n.contr.Idx) :
    (dot_S32768x784_S784x512_S32768x512_1_0_0_1_n_n.rhsIdx i q 0).val = (q ⟨0, by decide⟩).val :=
  dot_S32768x784_S784x512_S32768x512_1_0_0_1_n_n.rhsIdx_val_of_single rfl i q
theorem rhs_lin1_1 (i : S32768x512.Idx) (q : dot_S32768x784_S784x512_S32768x512_1_0_0_1_n_n.contr.Idx) :
    (dot_S32768x784_S784x512_S32768x512_1_0_0_1_n_n.rhsIdx i q 1).val = (i 1).val := by
  unfold DotDims.rhsIdx
  rw [dif_neg (show ¬(1 : Fin S784x512.rank) ∈ dot_S32768x784_S784x512_S32768x512_1_0_0_1_n_n.rhsBatch by decide),
    dif_pos (show (1 : Fin S784x512.rank) ∈ dot_S32768x784_S784x512_S32768x512_1_0_0_1_n_n.rhsNonContracting by decide)]
  rfl

/-- The transposed weight at (t, j) is the weight at (j, t). -/
theorem transpose_lin1_apply (w : Vec Ideal S512x784 .f32) (k : Fin 784) (q : Fin 512) :
    transpose S784x512 [1, 0] w transposes_S512x784_S784x512_1_0 (ix2 k q) = w (ix2 q k) := by
  unfold transpose
  exact congrArg w (funext fun a => Fin.ext (by match a with | ⟨0, _⟩ => rfl | ⟨1, _⟩ => rfl))

/-- The contraction against the transposed weight at (i, j): the sum over the one contracted coordinate of the
    products of row i of the activations and row j of the weight; then the bias of column j. -/
theorem lin1_apply (x : Vec Ideal S32768x784 .f32) (w : Vec Ideal S512x784 .f32) (b : Vec Ideal S512 .f32)
    (p : Fin 32768) (q : Fin 512) :
    lin1 x w b (ix2 p q) = Spec.lin (cur2 x) (cur2 w) (cur1 b) p q := by
  unfold lin1 Spec.lin
  refine (addf_apply _ _ _).trans ?_
  rw [rows512_apply]
  refine congrArg (· + b (ix1 q)) ?_
  simp only [Host.dotGeneral]
  rw [Ideal.dotGeneral_apply, ← Equiv.sum_comp (contrEquiv1 dot_S32768x784_S784x512_S32768x512_1_0_0_1_n_n 784 rfl rfl).symm]
  refine Finset.sum_congr rfl fun k _ => ?_
  have hk := contrEquiv1_symm_val dot_S32768x784_S784x512_S32768x512_1_0_0_1_n_n 784 rfl rfl k
  have el : dot_S32768x784_S784x512_S32768x512_1_0_0_1_n_n.lhsIdx (ix2 p q)
      ((contrEquiv1 dot_S32768x784_S784x512_S32768x512_1_0_0_1_n_n 784 rfl rfl).symm k) = ix2 p k := funext fun a => Fin.ext (by
    match a with
    | ⟨0, _⟩ => exact lhs_lin1_0 _ _
    | ⟨1, _⟩ => exact (lhs_lin1_1 _ _).trans hk)
  have er : dot_S32768x784_S784x512_S32768x512_1_0_0_1_n_n.rhsIdx (ix2 p q)
      ((contrEquiv1 dot_S32768x784_S784x512_S32768x512_1_0_0_1_n_n 784 rfl rfl).symm k) = ix2 k q := funext fun a => Fin.ext (by
    match a with
    | ⟨0, _⟩ => exact (rhs_lin1_0 _ _).trans hk
    | ⟨1, _⟩ => exact rhs_lin1_1 _ _)
  rw [el, er, transpose_lin1_apply]
  rfl
theorem lin1_cur (x : Vec Ideal S32768x784 .f32) (w : Vec Ideal S512x784 .f32) (b : Vec Ideal S512 .f32) :
    cur2 (lin1 x w b) = Spec.lin (cur2 x) (cur2 w) (cur1 b) :=
  funext fun p => funext fun q => lin1_apply x w b p q

/-! ### The second layer: [32768, 512] against the transposed [512, 512] weight

The four coordinate facts first: at result index i and contraction index q, the left operand is read at (i₀, q) and the
right operand at (q, i₁). -/

theorem lhs_lin2_0 (i : S32768x512.Idx) (q : dot_S32768x512_S512x512_S32768x512_1_0_0_1_n_n.contr.Idx) :
    (dot_S32768x512_S512x512_S32768x512_1_0_0_1_n_n.lhsIdx i q 0).val = (i 0).val := by
  unfold DotDims.lhsIdx
  rw [dif_neg (show ¬(0 : Fin S32768x512.rank) ∈ dot_S32768x512_S512x512_S32768x512_1_0_0_1_n_n.lhsBatch by decide),
    dif_pos (show (0 : Fin S32768x512.rank) ∈ dot_S32768x512_S512x512_S32768x512_1_0_0_1_n_n.lhsNonContracting by decide)]
  rfl
theorem lhs_lin2_1 (i : S32768x512.Idx) (q : dot_S32768x512_S512x512_S32768x512_1_0_0_1_n_n.contr.Idx) :
    (dot_S32768x512_S512x512_S32768x512_1_0_0_1_n_n.lhsIdx i q 1).val = (q ⟨0, by decide⟩).val :=
  dot_S32768x512_S512x512_S32768x512_1_0_0_1_n_n.lhsIdx_val_of_single rfl i q
theorem rhs_lin2_0 (i : S32768x512.Idx) (q : dot_S32768x512_S512x512_S32768x512_1_0_0_1_n_n.contr.Idx) :
    (dot_S32768x512_S512x512_S32768x512_1_0_0_1_n_n.rhsIdx i q 0).val = (q ⟨0, by decide⟩).val :=
  dot_S32768x512_S512x512_S32768x512_1_0_0_1_n_n.rhsIdx_val_of_single rfl i q
theorem rhs_lin2_1 (i : S32768x512.Idx) (q : dot_S32768x512_S512x512_S32768x512_1_0_0_1_n_n.contr.Idx) :
    (dot_S32768x512_S512x512_S32768x512_1_0_0_1_n_n.rhsIdx i q 1).val = (i 1).val := by
  unfold DotDims.rhsIdx
  rw [dif_neg (show ¬(1 : Fin S512x512.rank) ∈ dot_S32768x512_S512x512_S32768x512_1_0_0_1_n_n.rhsBatch by decide),
    dif_pos (show (1 : Fin S512x512.rank) ∈ dot_S32768x512_S512x512_S32768x512_1_0_0_1_n_n.rhsNonContracting by decide)]
  rfl

/-- The transposed weight at (t, j) is the weight at (j, t). -/
theorem transpose_lin2_apply (w : Vec Ideal S512x512 .f32) (k : Fin 512) (q : Fin 512) :
    transpose S512x512 [1, 0] w transposes_S512x512_S512x512_1_0 (ix2 k q) = w (ix2 q k) := by
  unfold transpose
  exact congrArg w (funext fun a => Fin.ext (by match a with | ⟨0, _⟩ => rfl | ⟨1, _⟩ => rfl))

/-- The contraction against the transposed weight at (i, j): the sum over the one contracted coordinate of the
    products of row i of the activations and row j of the weight; then the bias of column j. -/
theorem lin2_apply (x : Vec Ideal S32768x512 .f32) (w : Vec Ideal S512x512 .f32) (b : Vec Ideal S512 .f32)
    (p : Fin 32768) (q : Fin 512) :
    lin2 x w b (ix2 p q) = Spec.lin (cur2 x) (cur2 w) (cur1 b) p q := by
  unfold lin2 Spec.lin
  refine (addf_apply _ _ _).trans ?_
  rw [rows512_apply]
  refine congrArg (· + b (ix1 q)) ?_
  simp only [Host.dotGeneral]
  rw [Ideal.dotGeneral_apply, ← Equiv.sum_comp (contrEquiv1 dot_S32768x512_S512x512_S32768x512_1_0_0_1_n_n 512 rfl rfl).symm]
  refine Finset.sum_congr rfl fun k _ => ?_
  have hk := contrEquiv1_symm_val dot_S32768x512_S512x512_S32768x512_1_0_0_1_n_n 512 rfl rfl k
  have el : dot_S32768x512_S512x512_S32768x512_1_0_0_1_n_n.lhsIdx (ix2 p q)
      ((contrEquiv1 dot_S32768x512_S512x512_S32768x512_1_0_0_1_n_n 512 rfl rfl).symm k) = ix2 p k := funext fun a => Fin.ext (by
    match a with
    | ⟨0, _⟩ => exact lhs_lin2_0 _ _
    | ⟨1, _⟩ => exact (lhs_lin2_1 _ _).trans hk)
  have er : dot_S32768x512_S512x512_S32768x512_1_0_0_1_n_n.rhsIdx (ix2 p q)
      ((contrEquiv1 dot_S32768x512_S512x512_S32768x512_1_0_0_1_n_n 512 rfl rfl).symm k) = ix2 k q := funext fun a => Fin.ext (by
    match a with
    | ⟨0, _⟩ => exact (rhs_lin2_0 _ _).trans hk
    | ⟨1, _⟩ => exact rhs_lin2_1 _ _)
  rw [el, er, transpose_lin2_apply]
  rfl
theorem lin2_cur (x : Vec Ideal S32768x512 .f32) (w : Vec Ideal S512x512 .f32) (b : Vec Ideal S512 .f32) :
    cur2 (lin2 x w b) = Spec.lin (cur2 x) (cur2 w) (cur1 b) :=
  funext fun p => funext fun q => lin2_apply x w b p q

/-! ### The last layer: [32768, 512] against the transposed [10, 512] weight

The four coordinate facts first: at result index i and contraction index q, the left operand is read at (i₀, q) and the
right operand at (q, i₁). -/

theorem lhs_lin3_0 (i : S32768x10.Idx) (q : dot_S32768x512_S512x10_S32768x10_1_0_0_1_n_n.contr.Idx) :
    (dot_S32768x512_S512x10_S32768x10_1_0_0_1_n_n.lhsIdx i q 0).val = (i 0).val := by
  unfold DotDims.lhsIdx
  rw [dif_neg (show ¬(0 : Fin S32768x512.rank) ∈ dot_S32768x512_S512x10_S32768x10_1_0_0_1_n_n.lhsBatch by decide),
    dif_pos (show (0 : Fin S32768x512.rank) ∈ dot_S32768x512_S512x10_S32768x10_1_0_0_1_n_n.lhsNonContracting by decide)]
  rfl
theorem lhs_lin3_1 (i : S32768x10.Idx) (q : dot_S32768x512_S512x10_S32768x10_1_0_0_1_n_n.contr.Idx) :
    (dot_S32768x512_S512x10_S32768x10_1_0_0_1_n_n.lhsIdx i q 1).val = (q ⟨0, by decide⟩).val :=
  dot_S32768x512_S512x10_S32768x10_1_0_0_1_n_n.lhsIdx_val_of_single rfl i q
theorem rhs_lin3_0 (i : S32768x10.Idx) (q : dot_S32768x512_S512x10_S32768x10_1_0_0_1_n_n.contr.Idx) :
    (dot_S32768x512_S512x10_S32768x10_1_0_0_1_n_n.rhsIdx i q 0).val = (q ⟨0, by decide⟩).val :=
  dot_S32768x512_S512x10_S32768x10_1_0_0_1_n_n.rhsIdx_val_of_single rfl i q
theorem rhs_lin3_1 (i : S32768x10.Idx) (q : dot_S32768x512_S512x10_S32768x10_1_0_0_1_n_n.contr.Idx) :
    (dot_S32768x512_S512x10_S32768x10_1_0_0_1_n_n.rhsIdx i q 1).val = (i 1).val := by
  unfold DotDims.rhsIdx
  rw [dif_neg (show ¬(1 : Fin S512x10.rank) ∈ dot_S32768x512_S512x10_S32768x10_1_0_0_1_n_n.rhsBatch by decide),
    dif_pos (show (1 : Fin S512x10.rank) ∈ dot_S32768x512_S512x10_S32768x10_1_0_0_1_n_n.rhsNonContracting by decide)]
  rfl

/-- The transposed weight at (t, j) is the weight at (j, t). -/
theorem transpose_lin3_apply (w : Vec Ideal S10x512 .f32) (k : Fin 512) (q : Fin 10) :
    transpose S512x10 [1, 0] w transposes_S10x512_S512x10_1_0 (ix2 k q) = w (ix2 q k) := by
  unfold transpose
  exact congrArg w (funext fun a => Fin.ext (by match a with | ⟨0, _⟩ => rfl | ⟨1, _⟩ => rfl))

/-- The contraction against the transposed weight at (i, j): the sum over the one contracted coordinate of the
    products of row i of the activations and row j of the weight; then the bias of column j. -/
theorem lin3_apply (x : Vec Ideal S32768x512 .f32) (w : Vec Ideal S10x512 .f32) (b : Vec Ideal S10 .f32)
    (p : Fin 32768) (q : Fin 10) :
    lin3 x w b (ix2 p q) = Spec.lin (cur2 x) (cur2 w) (cur1 b) p q := by
  unfold lin3 Spec.lin
  refine (addf_apply _ _ _).trans ?_
  rw [rows10_apply]
  refine congrArg (· + b (ix1 q)) ?_
  simp only [Host.dotGeneral]
  rw [Ideal.dotGeneral_apply, ← Equiv.sum_comp (contrEquiv1 dot_S32768x512_S512x10_S32768x10_1_0_0_1_n_n 512 rfl rfl).symm]
  refine Finset.sum_congr rfl fun k _ => ?_
  have hk := contrEquiv1_symm_val dot_S32768x512_S512x10_S32768x10_1_0_0_1_n_n 512 rfl rfl k
  have el : dot_S32768x512_S512x10_S32768x10_1_0_0_1_n_n.lhsIdx (ix2 p q)
      ((contrEquiv1 dot_S32768x512_S512x10_S32768x10_1_0_0_1_n_n 512 rfl rfl).symm k) = ix2 p k := funext fun a => Fin.ext (by
    match a with
    | ⟨0, _⟩ => exact lhs_lin3_0 _ _
    | ⟨1, _⟩ => exact (lhs_lin3_1 _ _).trans hk)
  have er : dot_S32768x512_S512x10_S32768x10_1_0_0_1_n_n.rhsIdx (ix2 p q)
      ((contrEquiv1 dot_S32768x512_S512x10_S32768x10_1_0_0_1_n_n 512 rfl rfl).symm k) = ix2 k q := funext fun a => Fin.ext (by
    match a with
    | ⟨0, _⟩ => exact (rhs_lin3_0 _ _).trans hk
    | ⟨1, _⟩ => exact rhs_lin3_1 _ _)
  rw [el, er, transpose_lin3_apply]
  rfl
theorem lin3_cur (x : Vec Ideal S32768x512 .f32) (w : Vec Ideal S10x512 .f32) (b : Vec Ideal S10 .f32) :
    cur2 (lin3 x w b) = Spec.lin (cur2 x) (cur2 w) (cur1 b) :=
  funext fun p => funext fun q => lin3_apply x w b p q

/-! ## The batch statistics read at an index -/

/-- The row count's pattern denotes the real 32768. -/
theorem cB_val : Ideal.ofBits .f32 0x47000000#32 = ((32768 : ℝ) : EReal) := by
  simp [Ideal.ofBits, Ideal.ieee, -EReal.coe_mul]; norm_num

/-- The sum over the rows, from the zero pattern, at column j: the plain sum of the column. -/
theorem colsum_apply (h : Vec Ideal S32768x512 .f32) (q : Fin 512) :
    Host.reduceAdd (F := Ideal) h (constant S_ .f32 0x00000000#32) reducesTo_S32768x512_S512_d0 h_S_ (ix1 q)
      = ∑ k : Fin 32768, h (ix2 k q) := by
  unfold Host.reduceAdd
  simp only [Ideal.hostReduceAdd_def]
  rw [Ideal.hostReduceAdd_single reducesTo_S32768x512_S512_d0 (by decide)]
  refine (congrArg (· + _) (show constant (F := Ideal) S_ .f32 0x00000000#32 _ = 0 from Ideal.ofBits_zero_f32)).trans ?_
  rw [zero_add]
  refine Finset.sum_congr rfl fun k _ => ?_
  exact congrArg h (funext fun a => Fin.ext (by match a with | ⟨0, _⟩ => rfl | ⟨1, _⟩ => rfl))

/-- The column mean at j: the column sum over the row count. -/
theorem mean_apply (h : Vec Ideal S32768x512 .f32) (q : Fin 512) :
    mean h (ix1 q) = Spec.meanK (cur2 h) q := by
  unfold mean Spec.meanK Spec.colSum
  refine (show _ = Ideal.div (Host.reduceAdd (F := Ideal) h (constant S_ .f32 0x00000000#32)
    reducesTo_S32768x512_S512_d0 h_S_ (ix1 q)) Spec.cB from rfl).trans ?_
  rw [colsum_apply]
  rfl

/-- The variance's divisor: the row count less the integer zero converted, which is the row count. -/
theorem varDen_apply (i : S_.Idx) : varDen (F := Ideal) i = Spec.cB := by
  show Ideal.ofBits .f32 0x47000000#32 - (((0#32 : BitVec 32).toInt : ℝ) : EReal) = _
  have h0 : (0#32 : BitVec 32).toInt = 0 := by decide
  rw [h0, Int.cast_zero, EReal.coe_zero, sub_zero]

/-- The squared deviation at (i, j): the entry less its column's mean, squared. -/
theorem sqDev_apply (h : Vec Ideal S32768x512 .f32) (k : Fin 32768) (q : Fin 512) :
    sqDev h (ix2 k q)
      = (cur2 h k q - Spec.meanK (cur2 h) q) * (cur2 h k q - Spec.meanK (cur2 h) q) := by
  have e : broadcastInDim S32768x512 ![0, 1] bcast_S1x512_S32768x512_0_1
      (Host.divf (F := Ideal)
        (broadcastInDim S1x512 ![1] bcast_S512_S1x512_1
          (Host.reduceAdd (F := Ideal) h (constant S_ .f32 0x00000000#32) reducesTo_S32768x512_S512_d0 h_S_))
        (broadcastInDim S1x512 ![] bcast_S_S1x512 (constant S_ .f32 0x47000000#32))) (ix2 k q)
      = Spec.meanK (cur2 h) q := by
    rw [rowsOf1_apply]
    refine (show _ = Ideal.div (broadcastInDim S1x512 ![1] bcast_S512_S1x512_1
      (Host.reduceAdd (F := Ideal) h (constant S_ .f32 0x00000000#32) reducesTo_S32768x512_S512_d0 h_S_)
      (ix2 (0 : Fin 1) q)) Spec.cB from rfl).trans ?_
    rw [row1_apply, colsum_apply]
    rfl
  simp only [sqDev, mulf_apply, subf_apply]
  rw [e]
  rfl

/-- The guard on the divisor holds: the row count is positive. -/
theorem guard_apply (j : S512.Idx) :
    broadcastInDim S512 ![] bcast_S_S512
      (cmpf (F := Ideal) .ogt (varDen (F := Ideal)) (constant S_ .f32 0x00000000#32)) j = 1#1 := by
  show Ideal.cmp .ogt (varDen (F := Ideal) _) (Ideal.ofBits .f32 0x00000000#32) = 1#1
  rw [varDen_apply, Ideal.ofBits_zero_f32]
  show BitVec.ofBool (decide ((0 : EReal) < Ideal.ofBits .f32 0x47000000#32)) = 1#1
  rw [cB_val, decide_eq_true (by exact_mod_cast (by norm_num : (0 : ℝ) < 32768))]
  rfl

/-- The column variance at j: the mean of the squared deviations, the guard taken. -/
theorem var_apply (h : Vec Ideal S32768x512 .f32) (q : Fin 512) :
    var h (ix1 q) = Spec.varR (cur2 h) q := by
  unfold var Spec.varR
  rw [select_apply, guard_apply, select_one]
  refine (show _ = Ideal.div (Host.reduceAdd (F := Ideal) (sqDev h) (constant S_ .f32 0x00000000#32)
    reducesTo_S32768x512_S512_d0 h_S_ (ix1 q)) (varDen (F := Ideal) _) from rfl).trans ?_
  rw [colsum_apply, varDen_apply]
  exact congrArg (Ideal.div · Spec.cB) (Finset.sum_congr rfl fun k _ => sqDev_apply h k q)

/-! ## A normalised hidden layer read at an index -/

/-- Normalise by the root, scale, shift, clamp at zero, mask, rescale: entry (i, j). -/
theorem act_apply (h : Vec Ideal S32768x512 .f32) (g be : Vec Ideal S512 .f32) (m : Vec Ideal S32768x512 .f32)
    (p : Fin 32768) (q : Fin 512) :
    act h g be m (ix2 p q) = Spec.layerR (cur2 h) (cur1 g) (cur1 be) (cur2 m) p q := by
  unfold Spec.layerR Spec.actR
  refine (show act h g be m (ix2 p q)
    = max (Ideal.div (h (ix2 p q) - rows512 (mean h) (ix2 p q))
          (rows512 (Host.sqrt (addf (var h) (broadcastInDim S512 ![] bcast_S_S512 (constant S_ .f32 0x3727C5AC#32))))
            (ix2 p q)) * rows512 g (ix2 p q) + rows512 be (ix2 p q)) Spec.cZero * m (ix2 p q) * Spec.cScale
    from rfl).trans ?_
  rw [rows512_apply, rows512_apply, rows512_apply, rows512_apply, mean_apply]
  refine (show _ = max (Ideal.div (h (ix2 p q) - Spec.meanK (cur2 h) q)
      (Ideal.sqrt (var h (ix1 q) + Spec.cEps)) * g (ix1 q) + be (ix1 q)) Spec.cZero * m (ix2 p q) * Spec.cScale
    from rfl).trans ?_
  rw [var_apply]
  rfl
theorem act_cur (h : Vec Ideal S32768x512 .f32) (g be : Vec Ideal S512 .f32) (m : Vec Ideal S32768x512 .f32) :
    cur2 (act h g be m) = Spec.layerR (cur2 h) (cur1 g) (cur1 be) (cur2 m) :=
  funext fun p => funext fun q => act_apply h g be m p q
/-! ## The whole reference read at an index -/

theorem out_apply (a0 : Vec Ideal S32768x784 .f32) (a1 : Vec Ideal S512x784 .f32) (a2 a3 a4 : Vec Ideal S512 .f32) (a5 : Vec Ideal S512x512 .f32)
    (a6 a7 a8 : Vec Ideal S512 .f32) (a9 : Vec Ideal S10x512 .f32) (a10 : Vec Ideal S10 .f32) (a11 a12 : Vec Ideal S32768x512 .f32)
    (i : Fin 32768) (j : Fin 10) :
    out (F := Ideal) a0 a1 a2 a3 a4 a5 a6 a7 a8 a9 a10 a11 a12 (ix2 i j)
      = Spec.outR (fun i t => a0 (ix2 i t)) (fun j t => a1 (ix2 j t)) (fun j => a2 (ix1 j)) (fun j => a3 (ix1 j)) (fun j => a4 (ix1 j))
          (fun j t => a5 (ix2 j t)) (fun j => a6 (ix1 j)) (fun j => a7 (ix1 j)) (fun j => a8 (ix1 j))
          (fun j t => a9 (ix2 j t)) (fun j => a10 (ix1 j)) (fun i j => a11 (ix2 i j)) (fun i j => a12 (ix2 i j)) i j := by
  unfold out
  rw [lin3_apply, act_cur, lin2_cur, act_cur, lin1_cur]
  rfl

end Cert.RV

end
-- ==== Proof.Bridge.lean ====
/-
  The law that joins the two forms of the network: on real-valued inputs they are the same function.
  Per normalised layer: a linear layer of real inputs is real; the mean is real; the two variances agree, because the
  row-count constant IS the number of rows (Σ(h − μ)² = Σh² − n μ² when μ = Σh / n), and are a nonnegative real;
  so variance plus ε is a positive real, on which the reciprocal root is the inverse of the root and multiplying by
  it is dividing by the root; the layer's output is again real, which carries the argument to the next layer.
-/
import proofs.«125560_j53815940219270_1_alg».proof.Proof.Spec

noncomputable section

namespace Cert.Spec

open Idealize.ShloMosaic

/-! ### The four constants -/

/-- The clamp's constant is the number zero. -/
theorem cZero_eq : cZero = 0 := by
  simp [cZero, Ideal.ofBits, Ideal.ieee]

/-- The row-count constant is the real number 32768 = 2¹⁵. -/
theorem cB_eq : cB = ((32768 : ℝ) : EReal) := by
  simp [cB, Ideal.ofBits, Ideal.ieee, -EReal.coe_mul]; norm_num

/-- ε is a positive real number. -/
theorem cEps_eq : ∃ e : ℝ, 0 < e ∧ cEps = (e : EReal) := by
  simp [cEps, Ideal.ofBits, Ideal.ieee, -EReal.coe_mul]

/-- The dropout scale is a real number. -/
theorem cScale_eq : ∃ s : ℝ, cScale = (s : EReal) := by
  simp [cScale, Ideal.ofBits, Ideal.ieee, -EReal.coe_mul]

/-! ### Real numbers inside the extended reals are closed under the operations of the network -/

/-- An extended real that is a real number. -/
def IsR (x : EReal) : Prop := ∃ r : ℝ, x = (r : EReal)

theorem IsR.coe (r : ℝ) : IsR (r : EReal) := ⟨r, rfl⟩

theorem IsR.zero : IsR (0 : EReal) := ⟨0, EReal.coe_zero.symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases max_choice x y with h | h <;> rw [h] <;> assumption

/-- A finite sum of real numbers is a real number. -/
theorem IsR.sum {ι : Type*} (s : Finset ι) (f : ι → EReal) (hf : ∀ i ∈ s, IsR (f i)) : IsR (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- The embedding of the reals commutes with finite sums. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A linear layer of real inputs is real. -/
theorem Fin2_lin {n k o : ℕ} {a : Fin n → Fin k → EReal} {w : Fin o → Fin k → EReal} {b : Fin o → EReal}
    (ha : Fin2 a) (hw : Fin2 w) (hb : Fin1 b) : Fin2 (lin a w b) := by
  intro i j
  exact IsR.add (IsR.sum _ _ fun t _ => IsR.mul (ha i t) (hw j t)) (hb j)

/-- Dividing a real by the row-count constant is dividing by 32768 in the reals. -/
theorem div_cB_coe (r : ℝ) : Ideal.div (r : EReal) cB = ((r / 32768 : ℝ) : EReal) := by
  rw [cB_eq, Ideal.div_coe (by norm_num), ← EReal.coe_mul, ← div_eq_mul_one_div]

/-! ### The batch statistics of a real matrix with 32768 rows -/

/-- The column mean, in the reals. -/
def muR {o : ℕ} (hr : Fin 32768 → Fin o → ℝ) (j : Fin o) : ℝ := (∑ i, hr i j) / 32768

/-- The column variance as the mean of squared deviations, in the reals. -/
def vR {o : ℕ} (hr : Fin 32768 → Fin o → ℝ) (j : Fin o) : ℝ :=
  (∑ i, (hr i j - muR hr j) * (hr i j - muR hr j)) / 32768

theorem vR_nonneg {o : ℕ} (hr : Fin 32768 → Fin o → ℝ) (j : Fin o) : 0 ≤ vR hr j :=
  div_nonneg (Finset.sum_nonneg fun _ _ => mul_self_nonneg _) (by norm_num)

/-- The sum of squared deviations from any number c, expanded; the last term counts the 32768 rows. -/
theorem sum_sq_dev (f : Fin 32768 → ℝ) (c : ℝ) :
    ∑ i, (f i - c) * (f i - c) = ∑ i, f i * f i - 2 * c * ∑ i, f i + 32768 * (c * c) := by
  have hexp : ∀ i, (f i - c) * (f i - c) = f i * f i - 2 * c * f i + c * c := fun i => by ring
  simp only [hexp]
  rw [Finset.sum_add_distrib, Finset.sum_sub_distrib, ← Finset.mul_sum, Finset.sum_const, Finset.card_univ,
    Fintype.card_fin, nsmul_eq_mul]
  norm_num

/-- The variance identity: because the divisor is the number of terms, the mean of the squared deviations from the
    mean is the mean of the squares minus the squared mean. -/
theorem var_identity (f : Fin 32768 → ℝ) :
    (∑ i, (f i - (∑ i, f i) / 32768) * (f i - (∑ i, f i) / 32768)) / 32768
      = (∑ i, f i * f i) / 32768 - (∑ i, f i) / 32768 * ((∑ i, f i) / 32768) := by
  rw [sum_sq_dev]
  field_simp
  ring

theorem meanK_coe {o : ℕ} (hr : Fin 32768 → Fin o → ℝ) (j : Fin o) :
    meanK (fun i j => (hr i j : EReal)) j = (muR hr j : EReal) := by
  simp only [meanK, colSum, muR]
  rw [coe_sum, div_cB_coe]

theorem varR_coe {o : ℕ} (hr : Fin 32768 → Fin o → ℝ) (j : Fin o) :
    varR (fun i j => (hr i j : EReal)) j = (vR hr j : EReal) := by
  simp only [varR, vR]
  rw [meanK_coe]
  simp only [← EReal.coe_sub, ← EReal.coe_mul]
  rw [coe_sum, div_cB_coe]

theorem varK_coe {o : ℕ} (hr : Fin 32768 → Fin o → ℝ) (j : Fin o) :
    varK (fun i j => (hr i j : EReal)) j = (vR hr j : EReal) := by
  simp only [varK, colSumSq]
  rw [meanK_coe]
  simp only [← EReal.coe_mul]
  rw [coe_sum, div_cB_coe, ← EReal.coe_sub]
  exact congrArg _ (var_identity fun i => hr i j).symm

/-! ### Reciprocal root against division by the root -/

/-- On a positive real, multiplying by the reciprocal root is dividing by the root. -/
theorem mul_rsqrt_eq_div_sqrt (x : EReal) {v : ℝ} (hv : 0 < v) :
    x * Ideal.rsqrt (v : EReal) = Ideal.div x (Ideal.sqrt (v : EReal)) := by
  rw [Ideal.rsqrt_coe, Ideal.sqrt_coe, if_neg (not_lt.mpr hv.le), if_neg hv.ne', if_neg (not_lt.mpr hv.le),
    Ideal.div_coe (Real.sqrt_ne_zero'.mpr hv), one_div]

/-! ### One normalised layer -/

/-- On a real matrix with 32768 rows the two forms of the normalised layer agree. -/
theorem layerK_eq_layerR {o : ℕ} (h : Fin 32768 → Fin o → EReal) (hh : Fin2 h) (g be : Fin o → EReal)
    (m : Fin 32768 → Fin o → EReal) : layerK h g be m = layerR h g be m := by
  choose hr hhr using hh
  obtain rfl : h = fun i j => (hr i j : EReal) := funext fun i => funext fun j => hhr i j
  obtain ⟨e, he, hE⟩ := cEps_eq
  funext i j
  simp only [layerK, layerR, actK, actR]
  rw [varK_coe, varR_coe, hE, ← EReal.coe_add,
    mul_rsqrt_eq_div_sqrt _ (add_pos_of_nonneg_of_pos (vR_nonneg hr j) he)]

/-- The normalised layer of real inputs is real. -/
theorem Fin2_layerR {o : ℕ} {h : Fin 32768 → Fin o → EReal} {g be : Fin o → EReal}
    {m : Fin 32768 → Fin o → EReal} (hh : Fin2 h) (hg : Fin1 g) (hbe : Fin1 be) (hm : Fin2 m) :
    Fin2 (layerR h g be m) := by
  choose hr hhr using hh
  obtain rfl : h = fun i j => (hr i j : EReal) := funext fun i => funext fun j => hhr i j
  obtain ⟨e, he, hE⟩ := cEps_eq
  obtain ⟨s, hS⟩ := cScale_eq
  intro i j
  have hpos : 0 < vR hr j + e := add_pos_of_nonneg_of_pos (vR_nonneg hr j) he
  simp only [layerR, actR]
  rw [varR_coe, meanK_coe, hE, ← EReal.coe_add, Ideal.sqrt_coe, if_neg (not_lt.mpr hpos.le),
    Ideal.div_coe (Real.sqrt_ne_zero'.mpr hpos), cZero_eq]
  exact IsR.mul (IsR.mul (IsR.max (IsR.add (IsR.mul (IsR.mul (IsR.sub (IsR.coe _) (IsR.coe _)) (IsR.coe _)) (hg j))
    (hbe j)) IsR.zero) (hm i j)) ⟨s, hS⟩

theorem outK_eq_outR (x : Fin 32768 → Fin 784 → EReal) (w1 : Fin 512 → Fin 784 → EReal) (b1 g1 be1 : Fin 512 → EReal)
    (w2 : Fin 512 → Fin 512 → EReal) (b2 g2 be2 : Fin 512 → EReal) (w3 : Fin 10 → Fin 512 → EReal) (b3 : Fin 10 → EReal)
    (m1 m2 : Fin 32768 → Fin 512 → EReal)
    (hx : Fin2 x) (hw1 : Fin2 w1) (hb1 : Fin1 b1) (hg1 : Fin1 g1) (hbe1 : Fin1 be1)
    (hw2 : Fin2 w2) (hb2 : Fin1 b2) (hg2 : Fin1 g2) (hbe2 : Fin1 be2) (hw3 : Fin2 w3) (hb3 : Fin1 b3)
    (hm1 : Fin2 m1) (hm2 : Fin2 m2) :
    outK x w1 b1 g1 be1 w2 b2 g2 be2 w3 b3 m1 m2 = outR x w1 b1 g1 be1 w2 b2 g2 be2 w3 b3 m1 m2 := by
  have h1 : Fin2 (lin x w1 b1) := Fin2_lin hx hw1 hb1
  have a1 : Fin2 (layerR (lin x w1 b1) g1 be1 m1) := Fin2_layerR h1 hg1 hbe1 hm1
  have h2 : Fin2 (lin (layerR (lin x w1 b1) g1 be1 m1) w2 b2) := Fin2_lin a1 hw2 hb2
  unfold outK outR
  rw [layerK_eq_layerR _ h1, layerK_eq_layerR _ h2]

end Cert.Spec

end
-- ==== Proof.Finite.lean ====
/-
  From the precondition to the form the algebra uses: every entry of every argument array is a real number.
-/
import proofs.«125560_j53815940219270_1_alg».proof.Defs
import proofs.«125560_j53815940219270_1_alg».proof.Proof.Gen.Pre_finite_inputs
import proofs.«125560_j53815940219270_1_alg».proof.Proof.KDefs
import Idealize.ShloMosaic.Lib.ReduceAll

noncomputable section

namespace Cert.KV

open Idealize.ShloMosaic Idealize.ShloMosaic.TcCoe Idealize.SL.Sem Idealize.ShloMosaic.ValueIdx
open Cert.KernelIdeal Cert.KernelIdeal.Gen

/-- The rank-0 shape has a single index. -/
instance : Subsingleton Cert.Pre_finite_inputs.S_.Idx := ⟨fun a b => funext fun d => d.elim0⟩

/-- An extended real whose absolute value max x (−x) lies strictly below +∞ is neither +∞ nor −∞: it is a real. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the precondition, at any shape: if the conjunction over all entries of
    "|x| < +∞" (+∞ the binary32 pattern 0x7F800000, broadcast to the array's shape) is 1, every entry of x is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ix0 = 1#1)
    (i : s.Idx) : ∃ r : ℝ, x i = (r : EReal) := by
  have h1 := Host.reduce_andi_all _ _ hr hu ix0 e i
  -- the entry's comparison, read at the index: the order's "<" between |x i| and what the pattern denotes
  have h2 : Ideal.cmp .olt (max (x i) (-x i)) (Ideal.ofBits .f32 0x7F800000#32) = 1#1 := h1
  -- the pattern 0x7F800000 denotes +∞
  have h3 : Ideal.ofBits .f32 0x7F800000#32 = (⊤ : EReal) := by simp [Ideal.ofBits, Ideal.ieee]
  rw [h3] at h2
  -- an i1 word made from a truth value is 1 exactly when the truth value holds
  have hbit : ∀ b : Bool, BitVec.ofBool b = 1#1 → b = true := by decide
  have h4 : decide (max (x i) (-x i) < (⊤ : EReal)) = true := hbit _ h2
  exact real_of_abs_lt_top _ (of_decide_eq_true h4)

theorem args_real (m : (ℓ : Loc nD τ sig) → Buf (Elt Ideal) ℓ) (hpre : Cert.Pre_KernelIdeal m) (c : Dev nD) :
    Spec.Fin2 (A0 m c) ∧ Spec.Fin2 (A1 m c) ∧ Spec.Fin1 (A2 m c) ∧ Spec.Fin1 (A3 m c) ∧ Spec.Fin1 (A4 m c)
      ∧ Spec.Fin2 (A5 m c) ∧ Spec.Fin1 (A6 m c) ∧ Spec.Fin1 (A7 m c) ∧ Spec.Fin1 (A8 m c) ∧ Spec.Fin2 (A9 m c)
      ∧ Spec.Fin1 (A10 m c) ∧ Spec.Fin2 (A11 m c) ∧ Spec.Fin2 (A12 m c) := by
  have h := congrFun (hpre c) ix0
  dsimp only [Cert.Pre_finite_inputs.fn, Cert.Pre_finite_inputs.fn_part1, Cert.Pre_finite_inputs.fn_part2,
    Cert.Pre_finite_inputs.fn_part3, andi] at h
  simp only [IntOp.andi_eq_one] at h
  obtain ⟨⟨⟨⟨⟨⟨⟨⟨⟨⟨⟨⟨h0, h1⟩, h2⟩, h3⟩, h4⟩, h5⟩, h6⟩, h7⟩, h8⟩, h9⟩, h10⟩, h11⟩, h12⟩ := h
  exact ⟨fun i j => real_of_all _ _ _ _ h0 (ix2 i j), fun i j => real_of_all _ _ _ _ h1 (ix2 i j),
    fun i => real_of_all _ _ _ _ h2 (ix1 i), fun i => real_of_all _ _ _ _ h3 (ix1 i), fun i => real_of_all _ _ _ _ h4 (ix1 i),
    fun i j => real_of_all _ _ _ _ h5 (ix2 i j), fun i => real_of_all _ _ _ _ h6 (ix1 i), fun i => real_of_all _ _ _ _ h7 (ix1 i),
    fun i => real_of_all _ _ _ _ h8 (ix1 i), fun i j => real_of_all _ _ _ _ h9 (ix2 i j), fun i => real_of_all _ _ _ _ h10 (ix1 i),
    fun i j => real_of_all _ _ _ _ h11 (ix2 i j), fun i j => real_of_all _ _ _ _ h12 (ix2 i j)⟩

end Cert.KV

end
-- ==== Proof.lean ====
/-
  The certificate: a three-layer perceptron with batch normalisation (training mode), rectification and a
  pre-sampled dropout mask, computed by three pipelined kernels, against its jnp reference, over the extended reals.

  The kernel keeps, per hidden layer, the column sums and the column sums of squares of the pre-activation as it
  streams the 32768 rows in sixteen blocks; the host turns them into the mean and into the variance as mean of
  squares less squared mean; the next kernel normalises with the reciprocal root of variance plus ε. The reference
  takes the mean, then the variance as the mean of the squared deviations, and divides by the root of variance plus ε.
  On real-valued inputs the two are one function: the row-count constant is the number of rows, so the two variances
  agree and are nonnegative, variance plus ε is a positive real, and there multiplying by the reciprocal root is
  dividing by the root; every layer's output is again real, which carries the argument through both hidden layers.
  A change of float format is the identity on the extended reals, and a matrix product is the plain sum over the
  contracted coordinate on both sides, so the kernel's bf16 operands and block-wise products change nothing.

  The three frames: the two kernel programs' by the launch over their regions; the reference's by its run.
  Nothing was rewritten between the kernel and its idealisation, so that conjunct is trivial.
-/
import proofs.«125560_j53815940219270_1_alg».proof.Defs
import proofs.«125560_j53815940219270_1_alg».proof.Proof.Gen.Kernel
import proofs.«125560_j53815940219270_1_alg».proof.Proof.Gen.Kernel.Frame
import proofs.«125560_j53815940219270_1_alg».proof.Proof.Gen.KernelIdeal
import proofs.«125560_j53815940219270_1_alg».proof.Proof.Gen.KernelIdeal.Frame
import proofs.«125560_j53815940219270_1_alg».proof.Proof.Gen.ReferenceIdeal
import proofs.«125560_j53815940219270_1_alg».proof.Proof.Gen.Pre_finite_inputs
import proofs.«125560_j53815940219270_1_alg».proof.Proof.KRun
import proofs.«125560_j53815940219270_1_alg».proof.Proof.KValue
import proofs.«125560_j53815940219270_1_alg».proof.Proof.RRun
import proofs.«125560_j53815940219270_1_alg».proof.Proof.RRead
import proofs.«125560_j53815940219270_1_alg».proof.Proof.Bridge
import proofs.«125560_j53815940219270_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RV.run (F := Ideal) m ρ)

theorem preserves : Cert.preserves_Kernel_KernelIdeal := trivial

/-- Both programs run; the kernel's result buffer, entry by entry, is the first form of the network of the launch
    arguments, the reference's the second form of the same arguments, and on the finite inputs the precondition
    grants the two forms agree. -/
theorem algebraic : Cert.algebraic_KernelIdeal_ReferenceIdeal := by
  intro m ρ m' ρ' hpre hagree
  refine ⟨fun c => Cert.KernelIdeal.Gen.W6 m ρ c (Proc.devRef .tc Cert.KernelIdeal.main_v20),
    Cert.KernelIdeal.GenP.run_named (F := Ideal) m ρ, ?_⟩
  refine (θ_run Cert.ReferenceIdeal.defs _ _).mono (fun _ h c => ⟨(h c).1.trans ?_, (h c).2⟩)
    (Cert.RV.run (F := Ideal) m' ρ')
  obtain ⟨h0, h1, h2, h3, h4, h5, h6, h7, h8, h9, h10, h11, h12⟩ := hagree c
  rw [h0, h1, h2, h3, h4, h5, h6, h7, h8, h9, h10, h11, h12]
  obtain ⟨f0, f1, f2, f3, f4, f5, f6, f7, f8, f9, f10, f11, f12⟩ := Cert.KV.args_real m hpre c
  have hb := Cert.Spec.outK_eq_outR (Cert.KV.A0 m c) (Cert.KV.A1 m c) (Cert.KV.A2 m c) (Cert.KV.A3 m c) (Cert.KV.A4 m c) (Cert.KV.A5 m c) (Cert.KV.A6 m c) (Cert.KV.A7 m c) (Cert.KV.A8 m c) (Cert.KV.A9 m c) (Cert.KV.A10 m c) (Cert.KV.A11 m c) (Cert.KV.A12 m c) f0 f1 f2 f3 f4 f5 f6 f7 f8 f9 f10 f11 f12
  funext y
  obtain ⟨i, j, rfl⟩ : ∃ (i : Fin 32768) (j : Fin 10), y = ix2 i j := ⟨y 0, y 1, eq_ix2 y⟩
  refine (Cert.RV.out_apply _ _ _ _ _ _ _ _ _ _ _ _ _ i j).trans ?_
  exact ((congrFun (congrFun hb i) j).symm).trans (Cert.KV.value m ρ c i j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
